-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S_ : Shape := ⟨0, ![]⟩

class Facts : Prop where
  bcast_S_S1x512x256 : S_.BroadcastsInDim S1x512x256 (![] : Fin 0 → Fin S1x512x256.rank)
  reducesTo_S1x512x256_S_d0_1_2 : S1x512x256.ReducesTo [0, 1, 2] S_
  h_S_ : 0 < S_.numel
  bcast_S_S768x50000 : S_.BroadcastsInDim S768x50000 (![] : Fin 0 → Fin S768x50000.rank)
  reducesTo_S768x50000_S_d0_1 : S768x50000.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg0 : IVec S512 32) (main_v33 : IVec S_ 1) : IVec S_ 1 :=
  let main_c_12 : IVec S_ 32 := constantI S_ 32 4294917296#32
  let main_v34 : IVec S512 32 := broadcastInDim S512 ![] bcast_S_S512 main_c_12
  let main_v35 : IVec S512 1 := cmpi .sge main_arg0 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v33 main_v36
  let main_c_14 : IVec S_ 32 := constantI S_ 32 50000#32
  let main_v38 : IVec S512 32 := broadcastInDim S512 ![] bcast_S_S512 main_c_14
  let main_v39 : IVec S512 1 := cmpi .slt main_arg0 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v37 main_v40
  main_v41

def fn_part1 {F : FTy → Type} [FloatOps F] (main_arg0 : IVec S512 32) (main_arg6 : FVec F S768 .f32) (main_arg7 : FVec F S50000x256 .f32) (main_arg8 : FVec F S50000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S50000x256 .f32 := Host.absf main_arg7
  let main_cst_8 : FVec F S_ .f32 := constant S_ .f32 0x7F800000#32
  let main_v25 : FVec F S50000x256 .f32 := broadcastInDim S50000x256 ![] bcast_S_S50000x256 main_cst_8
  let main_v26 : IVec S50000x256 1 := cmpf .olt main_v24 main_v25
  let main_c_9 : IVec S_ 1 := constantI S_ 1 1#1
  let main_v27 : IVec S_ 1 := (fun x v => Host.reduce IntOp.andi x v reducesTo_S50000x256_S_d0_1 h_S_) main_v26 main_c_9
  let main_v28 : IVec S_ 1 := andi main_v23 main_v27
  let main_v29 : FVec F S50000 .f32 := Host.absf main_arg8
  let main_cst_10 : FVec F S_ .f32 := constant S_ .f32 0x7F800000#32
  let main_v30 : FVec F S50000 .f32 := broadcastInDim S50000 ![] bcast_S_S50000 main_cst_10
  let main_v31 : IVec S50000 1 := cmpf .olt main_v29 main_v30
  let main_c_11 : IVec S_ 1 := constantI S_ 1 1#1
  let main_v32 : IVec S_ 1 := (fun x v => Host.reduce IntOp.andi x v reducesTo_S50000_S_d0 h_S_) main_v31 main_c_11
  let main_v33 : IVec S_ 1 := andi main_v28 main_v32
  fn_part2 (F := F) main_arg0 main_v33

def fn {F : FTy → Type} [FloatOps F] (main_arg0 : IVec S512 32) (main_arg1 : IVec S512 32) (main_arg2 : FVec F S1x512x256 .f32) (main_arg3 : FVec F S768x50000 .f32) (main_arg4 : FVec F S768x256 .f32) (main_arg5 : FVec F S768 .f32) (main_arg6 : FVec F S768 .f32) (main_arg7 : FVec F S50000x256 .f32) (main_arg8 : FVec F S50000 .f32) : IVec S_ 1 :=
  let main_v0 : FVec F S1x512x256 .f32 := Host.absf main_arg2
  let main_cst : FVec F S_ .f32 := constant S_ .f32 0x7F800000#32
  let main_v1 : FVec F S1x512x256 .f32 := broadcastInDim S1x512x256 ![] bcast_S_S1x512x256 main_cst
  let main_v2 : IVec S1x512x256 1 := cmpf .olt main_v0 main_v1
  let main_c : IVec S_ 1 := constantI S_ 1 1#1
  let main_v3 : IVec S_ 1 := (fun x v => Host.reduce IntOp.andi x v reducesTo_S1x512x256_S_d0_1_2 h_S_) main_v2 main_c
  let main_v4 : FVec F S768x50000 .f32 := Host.absf main_arg3
  let main_cst_0 : FVec F S_ .f32 := constant S_ .f32 0x7F800000#32
  let main_v5 : FVec F S768x50000 .f32 := broadcastInDim S768x50000 ![] bcast_S_S768x50000 main_cst_0
  let main_v6 : IVec S768x50000 1 := cmpf .olt main_v4 main_v5
  let main_c_1 : IVec S_ 1 := constantI S_ 1 1#1
  let main_v7 : IVec S_ 1 := (fun x v => Host.reduce IntOp.andi x v reducesTo_S768x50000_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg0 main_arg6 main_arg7 main_arg8 main_v13 main_v16
-- ==== Kernel.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S512x256 : Shape := ⟨2, ![512, 256]⟩
abbrev S_ : Shape := ⟨0, ![]⟩
abbrev S512x1 : Shape := ⟨2, ![512, 1]⟩
abbrev S1 : Shape := ⟨1, ![1]⟩
abbrev S1x1 : Shape := ⟨2, ![1, 1]⟩
abbrev S768x512 : Shape := ⟨2, ![768, 512]⟩
abbrev S1x768 : Shape := ⟨2, ![1, 768]⟩
abbrev S1x50000 : Shape := ⟨2, ![1, 50000]⟩
abbrev S512x768 : Shape := ⟨2, ![512, 768]⟩
abbrev S512x50000 : Shape := ⟨2, ![512, 50000]⟩
abbrev S3200x256 : Shape := ⟨2, ![3200, 256]⟩
abbrev S1x3200 : Shape := ⟨2, ![1, 3200]⟩
abbrev S512x3200 : Shape := ⟨2, ![512, 3200]⟩

abbrev nBuf : Space → Nat
  | .hbm => 39
  | .vmem => 13
  | .smem => 0
  | _ => 0

abbrev bufTy : (tb : Table) → Fin (tcTables nBuf tb) → BufTy
  | .hbm, ⟨0, _⟩ => ⟨S512, .i32⟩
  | .hbm, ⟨1, _⟩ => ⟨S512, .i32⟩
  | .hbm, ⟨2, _⟩ => ⟨S1x512x256, .f32⟩
  | .hbm, ⟨3, _⟩ => ⟨S768x50000, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S50000x256, .f32⟩
  | .hbm, ⟨8, _⟩ => ⟨S50000, .f32⟩
  | .hbm, ⟨9, _⟩ => ⟨S512x256, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S1x1, .i32⟩
  | .hbm, ⟨23, _⟩ => ⟨S512x1, .i32⟩
  | .hbm, ⟨24, _⟩ => ⟨S512x1, .i1⟩
  | .hbm, ⟨25, _⟩ => ⟨S512x1, .i1⟩
  | .hbm, ⟨26, _⟩ => ⟨S_, .i1⟩
  | .hbm, ⟨27, _⟩ => ⟨S512, .i1⟩
  | .hbm, ⟨28, _⟩ => ⟨S768x512, .f32⟩
  | .hbm, ⟨29, _⟩ => ⟨S768x512, .i1⟩
  | .hbm, ⟨30, _⟩ => ⟨S_, .f32⟩
  | .hbm, ⟨31, _⟩ => ⟨S768x512, .f32⟩
  | .hbm, ⟨32, _⟩ => ⟨S768x512, .f32⟩
  | .hbm, ⟨33, _⟩ => ⟨S1x768, .f32⟩
  | .hbm, ⟨34, _⟩ => ⟨S1x768, .f32⟩
  | .hbm, ⟨35, _⟩ => ⟨S1x50000, .f32⟩
  | .hbm, ⟨36, _⟩ => ⟨S512x256, .f32⟩
  | .hbm, ⟨37, _⟩ => ⟨S512x50000, .f32⟩
  | .hbm, ⟨38, _⟩ => ⟨S1x512x256, .f32⟩
  | .local _ .vmem, ⟨0, _⟩ => ⟨S768x512, .f32⟩
  | .local _ .vmem, ⟨1, _⟩ => ⟨S512x256, .f32⟩
  | .local _ .vmem, ⟨2, _⟩ => ⟨S768x256, .f32⟩
  | .local _ .vmem, ⟨3, _⟩ => ⟨S1x768, .f32⟩
  | .local _ .vmem, ⟨4, _⟩ => ⟨S1x768, .f32⟩
  | .local _ .vmem, ⟨5, _⟩ => ⟨S512x256, .f32⟩
  | .local _ .vmem, ⟨6, _⟩ => ⟨S512x256, .f32⟩
  | .local _ .vmem, ⟨7, _⟩ => ⟨S3200x256, .f32⟩
  | .local _ .vmem, ⟨8, _⟩ => ⟨S3200x256, .f32⟩
  | .local _ .vmem, ⟨9, _⟩ => ⟨S1x3200, .f32⟩
  | .local _ .vmem, ⟨10, _⟩ => ⟨S1x3200, .f32⟩
  | .local _ .vmem, ⟨11, _⟩ => ⟨S512x3200, .f32⟩
  | .local _ .vmem, ⟨12, _⟩ => ⟨S512x3200, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x512x256_S512x256 : S1x512x256.ShapeCasts S512x256
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S768x512_1 : S512.BroadcastsInDim S768x512 (![1] : Fin 1 → Fin S768x512.rank)
  bcast_S_S768x512 : S_.BroadcastsInDim S768x512 (![] : Fin 0 → Fin S768x512.rank)
  shapeCasts_S768_S1x768 : S768.ShapeCasts S1x768
  shapeCasts_S50000_S1x50000 : S50000.ShapeCasts S1x50000
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S768x512_S768x512_0_0 : ∀ a, (![0, 0] : Fin 2 → Nat) a + S768x512.size a ≤ S768x512.size a
  h_S768x512 : 0 < S768x512.numel
  shapeCasts_S768x512_S768x512 : S768x512.ShapeCasts S768x512
  transposes_S768x512_p1_0_S512x768 : S768x512.Transposes [1, 0] S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  slices_S512x768_o0_0_S512x256 : S512x768.Slices ![0, 0] S512x256
  slices_S512x768_o0_256_S512x256 : S512x768.Slices ![0, 256] S512x256
  slices_S512x768_o0_512_S512x256 : S512x768.Slices ![0, 512] S512x256
  inb_S3200x256_S3200x256_0_0 : ∀ a, (![0, 0] : Fin 2 → Nat) a + S3200x256.size a ≤ S3200x256.size a
  h_S3200x256 : 0 < S3200x256.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  bcast_S512x256_S1x512x256_1_2 : S512x256.BroadcastsInDim S1x512x256 (![1, 2] : Fin 2 → Fin S1x512x256.rank)
  gather_S768x50000_S512x1_S768x512_0_1_n_n_1_1_7681_wf : GatherDims.WF S768x50000 S512x1 S768x512 [0] [1] [] [1] [] 1 ![768, 1]
  dot_S512x256_S768x256_S512x768_1_1_0_0_n_n_wf : DotDims.WF S512x256 S768x256 S512x768 [1] [1] [0] [0] [] []
  dot_S512x256_S3200x256_S512x3200_1_1_0_0_n_n_wf : DotDims.WF S512x256 S3200x256 S512x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x512.size a ≤ S768x512.size a
  hwx0_0 : ∀ i : grid0.Coords, EltTy.bits .f32 = 32 ∨ (Rect.block (s := S768x512) S768x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3200x256.size a < S50000x256.size a
  hwx1_1 : ∀ i : grid1.Coords, EltTy.bits .f32 = 32 ∨ (Rect.unit (s := S50000x256) (fun a => cc1_transform_1 i a * S3200x256.size a) (fun a => (Pipeline.Clip.of (cc1_transform_1 i a) (S3200x256.size a) (S50000x256.size a)).extent (S3200x256.size a)) fun a => Pipeline.Clip.inb (Pipeline.Clip.ok_of (hstart1_1 i a))).WholeWords (EltTy.packing .f32)
  hwxs1_1 : ∀ i : grid1.Coords, EltTy.bits .f32 = 32 ∨ (Rect.unit (s := S3200x256) (fun _ => 0) (fun a => (Pipeline.Clip.of (cc1_transform_1 i a) (S3200x256.size a) (S50000x256.size a)).extent (S3200x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x3200.size a < S1x50000.size a
  hwx1_2 : ∀ i : grid1.Coords, EltTy.bits .f32 = 32 ∨ (Rect.unit (s := S1x50000) (fun a => cc1_transform_2 i a * S1x3200.size a) (fun a => (Pipeline.Clip.of (cc1_transform_2 i a) (S1x3200.size a) (S1x50000.size a)).extent (S1x3200.size a)) fun a => Pipeline.Clip.inb (Pipeline.Clip.ok_of (hstart1_2 i a))).WholeWords (EltTy.packing .f32)
  hwxs1_2 : ∀ i : grid1.Coords, EltTy.bits .f32 = 32 ∨ (Rect.unit (s := S1x3200) (fun _ => 0) (fun a => (Pipeline.Clip.of (cc1_transform_2 i a) (S1x3200.size a) (S1x50000.size a)).extent (S1x3200.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x3200.size a < S512x50000.size a
  hwx1_3 : ∀ i : grid1.Coords, EltTy.bits .f32 = 32 ∨ (Rect.unit (s := S512x50000) (fun a => cc1_transform_3 i a * S512x3200.size a) (fun a => (Pipeline.Clip.of (cc1_transform_3 i a) (S512x3200.size a) (S512x50000.size a)).extent (S512x3200.size a)) fun a => Pipeline.Clip.inb (Pipeline.Clip.ok_of (hstart1_3 i a))).WholeWords (EltTy.packing .f32)
  hwxs1_3 : ∀ i : grid1.Coords, EltTy.bits .f32 = 32 ∨ (Rect.unit (s := S512x3200) (fun _ => 0) (fun a => (Pipeline.Clip.of (cc1_transform_3 i a) (S512x3200.size a) (S512x50000.size a)).extent (S512x3200.size a)) fun a => (Nat.zero_add _).trans_le (Pipeline.Clip.extent_le (Pipeline.Clip.ok_of (hstart1_3 i a)))).WholeWords (EltTy.packing .f32)

variable [Facts₀]

def gather_S768x50000_S512x1_S768x512_0_1_n_n_1_1_7681 : GatherDims S768x50000 S512x1 S768x512 where
  offsetDims := [0]
  collapsedSliceDims := [1]
  operandBatchingDims := []
  startIndicesBatchingDims := []
  startIndexMap := [1]
  indexVectorDim := 1
  sliceSizes := ![768, 1]
  wf := gather_S768x50000_S512x1_S768x512_0_1_n_n_1_1_7681_wf
def dot_S512x256_S768x256_S512x768_1_1_0_0_n_n : DotDims S512x256 S768x256 S512x768 where
  lhsContracting := [1]
  rhsContracting := [1]
  lhsNonContracting := [0]
  rhsNonContracting := [0]
  lhsBatch := []
  rhsBatch := []
  wf := dot_S512x256_S768x256_S512x768_1_1_0_0_n_n_wf
def dot_S512x256_S3200x256_S512x3200_1_1_0_0_n_n : DotDims S512x256 S3200x256 S512x3200 where
  lhsContracting := [1]
  rhsContracting := [1]
  lhsNonContracting := [0]
  rhsNonContracting := [0]
  lhsBatch := []
  rhsBatch := []
  wf := dot_S512x256_S3200x256_S512x3200_1_1_0_0_n_n_wf

abbrev win0_0 : Pipeline.Window sig grid0 :=
  Pipeline.Window.ofSpec (Memref.whole main_v1) S768x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg7) S3200x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v4) S1x3200.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v6) S512x3200.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512 : Shape := ⟨1, ![512]⟩
abbrev S1x512x256 : Shape := ⟨3, ![1, 512, 256]⟩
abbrev S768x50000 : Shape := ⟨2, ![768, 50000]⟩
abbrev S768x256 : Shape := ⟨2, ![768, 256]⟩
abbrev S768 : Shape := ⟨1, ![768]⟩
abbrev S50000x256 : Shape := ⟨2, ![50000, 256]⟩
abbrev S50000 : Shape := ⟨1, ![50000]⟩
abbrev S512x256 : Shape := ⟨2, ![512, 256]⟩
abbrev S50000x768 : Shape := ⟨2, ![50000, 768]⟩
abbrev S_ : Shape := ⟨0, ![]⟩
abbrev S512x1 : Shape := ⟨2, ![512, 1]⟩
abbrev S512x768 : Shape := ⟨2, ![512, 768]⟩
abbrev S1x768 : Shape := ⟨2, ![1, 768]⟩
abbrev S256x768 : Shape := ⟨2, ![256, 768]⟩
abbrev S256x50000 : Shape := ⟨2, ![256, 50000]⟩
abbrev S512x50000 : Shape := ⟨2, ![512, 50000]⟩
abbrev S1x50000 : Shape := ⟨2, ![1, 50000]⟩

abbrev nBuf : Space → Nat
  | .hbm => 68
  | .vmem => 0
  | .smem => 0
  | _ => 0

abbrev bufTy : (tb : Table) → Fin (tcTables nBuf tb) → BufTy
  | .hbm, ⟨0, _⟩ => ⟨S512, .i32⟩
  | .hbm, ⟨1, _⟩ => ⟨S512, .i32⟩
  | .hbm, ⟨2, _⟩ => ⟨S1x512x256, .f32⟩
  | .hbm, ⟨3, _⟩ => ⟨S768x50000, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S50000x256, .f32⟩
  | .hbm, ⟨8, _⟩ => ⟨S50000, .f32⟩
  | .hbm, ⟨9, _⟩ => ⟨S512x256, .f32⟩
  | .hbm, ⟨10, _⟩ => ⟨S50000x768, .f32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x768, .f32⟩
  | .hbm, ⟨20, _⟩ => ⟨S1x768, .f32⟩
  | .hbm, ⟨21, _⟩ => ⟨S512x768, .f32⟩
  | .hbm, ⟨22, _⟩ => ⟨S512x768, .f32⟩
  | .hbm, ⟨23, _⟩ => ⟨S256x768, .f32⟩
  | .hbm, ⟨24, _⟩ => ⟨S512x768, .f32⟩
  | .hbm, ⟨25, _⟩ => ⟨S1x768, .f32⟩
  | .hbm, ⟨26, _⟩ => ⟨S512x768, .f32⟩
  | .hbm, ⟨27, _⟩ => ⟨S512x768, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S_, .f32⟩
  | .hbm, ⟨47, _⟩ => ⟨S512x256, .f32⟩
  | .hbm, ⟨48, _⟩ => ⟨S512x256, .f32⟩
  | .hbm, ⟨49, _⟩ => ⟨S_, .f32⟩
  | .hbm, ⟨50, _⟩ => ⟨S512x256, .f32⟩
  | .hbm, ⟨51, _⟩ => ⟨S512x256, .f32⟩
  | .hbm, ⟨52, _⟩ => ⟨S512x256, .f32⟩
  | .hbm, ⟨53, _⟩ => ⟨S512x256, .f32⟩
  | .hbm, ⟨54, _⟩ => ⟨S512x256, .f32⟩
  | .hbm, ⟨55, _⟩ => ⟨S_, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S512x256, .f32⟩
  | .hbm, ⟨61, _⟩ => ⟨S256x50000, .f32⟩
  | .hbm, ⟨62, _⟩ => ⟨S512x50000, .f32⟩
  | .hbm, ⟨63, _⟩ => ⟨S1x50000, .f32⟩
  | .hbm, ⟨64, _⟩ => ⟨S512x50000, .f32⟩
  | .hbm, ⟨65, _⟩ => ⟨S512x50000, .f32⟩
  | .hbm, ⟨66, _⟩ => ⟨S512x50000, .f32⟩
  | .hbm, ⟨67, _⟩ => ⟨S1x512x256, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  shapeCasts_S1x512x256_S512x256 : S1x512x256.ShapeCasts S512x256
  transposes_S768x50000_S50000x768_1_0 : S768x50000.Transposes [1, 0] S50000x768
  bcast_S_S512 : S_.BroadcastsInDim S512 (![] : Fin 0 → Fin S512.rank)
  bcast_S512_S512x1_0 : S512.BroadcastsInDim S512x1 (![0] : Fin 1 → Fin S512x1.rank)
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  transposes_S768x256_S256x768_1_0 : S768x256.Transposes [1, 0] S256x768
  slices_S512x768_S512x256_0_0 : S512x768.Slices ![0, 0] S512x256
  slices_S512x768_S512x256_0_256 : S512x768.Slices ![0, 256] S512x256
  slices_S512x768_S512x256_0_512 : S512x768.Slices ![0, 512] S512x256
  bcast_S_S512x256 : S_.BroadcastsInDim S512x256 (![] : Fin 0 → Fin S512x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S512x50000_0_1 : S1x50000.BroadcastsInDim S512x50000 (![0, 1] : Fin 2 → Fin S512x50000.rank)
  bcast_S512x256_S1x512x256_1_2 : S512x256.BroadcastsInDim S1x512x256 (![1, 2] : Fin 2 → Fin S1x512x256.rank)
  gather_S50000x768_S512x1_S512x768_1_0_n_n_0_1_1768_wf : GatherDims.WF S50000x768 S512x1 S512x768 [1] [0] [] [0] [] 1 ![1, 768]
  dot_S512x256_S256x768_S512x768_1_0_0_1_n_n_wf : DotDims.WF S512x256 S256x768 S512x768 [1] [0] [0] [1] [] []
  dot_S512x256_S256x50000_S512x50000_1_0_0_1_n_n_wf : DotDims.WF S512x256 S256x50000 S512x50000 [1] [0] [0] [1] [] []

variable [Facts₀]

def gather_S50000x768_S512x1_S512x768_1_0_n_n_0_1_1768 : GatherDims S50000x768 S512x1 S512x768 where
  offsetDims := [1]
  collapsedSliceDims := [0]
  operandBatchingDims := []
  startIndicesBatchingDims := []
  startIndexMap := [0]
  indexVectorDim := 1
  sliceSizes := ![1, 768]
  wf := gather_S50000x768_S512x1_S512x768_1_0_n_n_0_1_1768_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x50000_S512x50000_1_0_0_1_n_n : DotDims S512x256 S256x50000 S512x50000 where
  lhsContracting := [1]
  rhsContracting := [0]
  lhsNonContracting := [0]
  rhsNonContracting := [1]
  lhsBatch := []
  rhsBatch := []
  wf := dot_S512x256_S256x50000_S512x50000_1_0_0_1_n_n_wf

class Facts : Prop extends Facts₀ where

variable [Facts]
-- ==== Proof.Bodies.lean ====
/-
  The two kernel bodies as Hoare triples on whole staging buffers, at any float instance.

  The recurrent-step body loads its five input buffers whole, computes the new state from them and stores it whole into
  the output buffer; the read-out body loads three input buffers whole and stores tanh(h·Wᵀ + bias) whole. Each leaves its
  inputs as found and its output at the one store's payload, whatever the output buffer held before.
-/
import proofs.«419960_j59219009077899_3_alg».proof.Proof.Gen.KernelIdeal.Launch
import proofs.«419960_j59219009077899_3_alg».proof.Proof.Gen.KernelIdeal.Skeleton
import proofs.«419960_j59219009077899_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole rectangles the bodies access -/

abbrev rX : Rect S768x512 := Rect.unit (s := S768x512) ![0, 0] S768x512.size inb_S768x512_S768x512_0_0
abbrev rH : Rect S512x256 := Rect.unit (s := S512x256) ![0, 0] S512x256.size inb_S512x256_S512x256_0_0
abbrev rW : Rect S768x256 := Rect.unit (s := S768x256) ![0, 0] S768x256.size inb_S768x256_S768x256_0_0
abbrev rB : Rect S1x768 := Rect.unit (s := S1x768) ![0, 0] S1x768.size inb_S1x768_S1x768_0_0
abbrev rWo : Rect S3200x256 := Rect.unit (s := S3200x256) ![0, 0] S3200x256.size inb_S3200x256_S3200x256_0_0
abbrev rBo : Rect S1x3200 := Rect.unit (s := S1x3200) ![0, 0] S1x3200.size inb_S1x3200_S1x3200_0_0
abbrev rL : Rect S512x3200 := Rect.unit (s := S512x3200) ![0, 0] S512x3200.size inb_S512x3200_S512x3200_0_0

/-! ## What each body leaves in its output buffer -/

/-- The recurrent step's output buffer after the body: its one whole store, over the five input buffers' contents
    (x: the gathered embedding columns, h: the old state, w: the hidden weights, bi / bh: the two bias rows). -/
def outStep (x : Vec F S768x512 .f32) (h : Vec F S512x256 .f32) (w : Vec F S768x256 .f32) (bi bh : Vec F S1x768 .f32) :
    Vec F S512x256 .f32 :=
  View.canon [⟨rH, k0_pay1 (View.ld h rH) (View.ld x rX) (View.ld bi rB) (View.ld w rW) (View.ld bh rB)⟩]

/-- The read-out's output buffer after the body: its one whole store. -/
def outLin (h : Vec F S512x256 .f32) (w : Vec F S3200x256 .f32) (bo : Vec F S1x3200 .f32) : Vec F S512x3200 .f32 :=
  View.canon [⟨rL, k1_pay1 (View.ld h rH) (View.ld w rWo) (View.ld bo rBo)⟩]

/-- One whole store covers the buffer. -/
theorem coverStep (p0 : Vec F S512x256 .f32) (y : S512x256.Idx) :
    ∃ pc ∈ ([⟨rH, p0⟩] : List (View.Piece (Elt F) S512x256 .f32)), y ∈ pc.1.set :=
  View.cover_of_tiled [⟨rH, p0⟩] S512x256.size (by rfl) y

theorem coverLin (p0 : Vec F S512x3200 .f32) (y : S512x3200.Idx) :
    ∃ pc ∈ ([⟨rL, p0⟩] : List (View.Piece (Elt F) S512x3200 .f32)), y ∈ pc.1.set :=
  View.cover_of_tiled [⟨rL, p0⟩] S512x3200.size (by rfl) y

/-! ## The bodies' triples -/

set_option maxHeartbeats 1000000 in
/-- The recurrent-step body on whole buffers: inputs at read contents, the output at anything, runs to the inputs as
    they were and the output at `outStep` of them. -/
theorem sound_step (c : Dev nD) (E : Set ℕ) (i : grid0.Coords)
    (arg1 : Memref sig .tc .vmem S768x512 .f32) (harg1 : arg1.IsWhole) (arg2 : Memref sig .tc .vmem S512x256 .f32) (harg2 : arg2.IsWhole)
    (arg3 : Memref sig .tc .vmem S768x256 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S512x256 .f32) (harg6 : arg6.IsWhole)
    (x : Vec F S768x512 .f32) (h : Vec F S512x256 .f32) (w : Vec F S768x256 .f32) (bi bh : Vec F S1x768 .f32) (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare bi ∗ owns (c : Thread nD τ) arg5 fullShare bh ∗ (∃ d, owns (c : Thread nD τ) arg6 fullShare d)
        ∗ (iprop(owns (c : Thread nD τ) arg1 fullShare x ∗ owns (c : Thread nD τ) arg2 fullShare h ∗ owns (c : Thread nD τ) arg3 fullShare w
            ∗ owns (c : Thread nD τ) arg4 fullShare bi ∗ owns (c : Thread nD τ) arg5 fullShare bh
            ∗ owns (c : Thread nD τ) arg6 fullShare (outStep x h w bi bh)) -∗ K ⟨⟩))
      ⊢ wp frame (wpE (defs₀ (F := F)) Variants.none c none) E
          (cc0__gru_step_kernel i arg1 harg1 arg2 harg2 arg3 harg3 arg4 harg4 arg5 harg5 arg6 harg6) K := by
  simp only [cc0__gru_step_kernel_eq_skeleton]; unfold cc0__gru_step_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverStep _)

set_option maxHeartbeats 1000000 in
/-- The read-out body on whole buffers. -/
theorem sound_lin (c : Dev nD) (E : Set ℕ) (i : grid1.Coords)
    (arg1 : Memref sig .tc .vmem S512x256 .f32) (harg1 : arg1.IsWhole) (arg2 : Memref sig .tc .vmem S3200x256 .f32) (harg2 : arg2.IsWhole)
    (arg3 : Memref sig .tc .vmem S1x3200 .f32) (harg3 : arg3.IsWhole) (arg4 : Memref sig .tc .vmem S512x3200 .f32) (harg4 : arg4.IsWhole)
    (h : Vec F S512x256 .f32) (w : Vec F S3200x256 .f32) (bo : Vec F S1x3200 .f32) (K : PUnit → sProp 𝕄) :
    iprop(owns (c : Thread nD τ) arg1 fullShare h ∗ owns (c : Thread nD τ) arg2 fullShare w ∗ owns (c : Thread nD τ) arg3 fullShare bo
        ∗ (∃ d, owns (c : Thread nD τ) arg4 fullShare d)
        ∗ (iprop(owns (c : Thread nD τ) arg1 fullShare h ∗ owns (c : Thread nD τ) arg2 fullShare w ∗ owns (c : Thread nD τ) arg3 fullShare bo
            ∗ owns (c : Thread nD τ) arg4 fullShare (outLin h w bo)) -∗ K ⟨⟩))
      ⊢ wp frame (wpE (defs₀ (F := F)) Variants.none c none) E
          (cc1__linear_tanh_kernel i arg1 harg1 arg2 harg2 arg3 harg3 arg4 harg4) K := by
  simp only [cc1__linear_tanh_kernel_eq_skeleton]; unfold cc1__linear_tanh_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverLin _)

end Cert.KernelIdeal.Hand

end
-- ==== Proof.Data0.lean ====
/-
  The recurrent-step region (a grid of one point, every window its whole array, fetched once): the proof data and the
  body obligation, over the buffer contents V the region is entered with.

  After the body each input's staging buffer holds its array's block (the whole array) and the output's buffer holds the
  body's one store over those blocks.
-/
import proofs.«419960_j59219009077899_3_alg».proof.Proof.Bodies

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outStep (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = outStep (iblk0 V c 0 t) (iblk0 V c 1 t) (iblk0 V c 2 t) (iblk0 V c 3 t) (iblk0 V c 4 t) := by dsimp only [dat0]

/-- Each input's current buffer holds its block at the point, whatever it held before the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at the point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_step c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at its one point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Data1.lean ====
/-
  The read-out region (sixteen points along the vocabulary axis in blocks of 3200 columns, the last block overhanging the
  arrays' 50000 by 1200): the proof data and the body obligation, over the buffer contents V the region is entered with.

  The state's window is its whole array, fetched once and kept. The weight rows', the bias's and the result's windows
  are cut at the arrays' end: a staging buffer's rows past the end hold words nothing names, and an obligation speaks of
  the rows inside the array only. After the body the weight and bias buffers hold their blocks (filled out with a word
  nothing reads) and the result's buffer the body's one store over them.
-/
import proofs.«419960_j59219009077899_3_alg».proof.Proof.Bodies

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The filler past the arrays' end: the zero word. -/
abbrev zw {S : Shape} : S.Idx → Elt F .f32 := fun _ => Scalar.ofBits .f32 0#32

/-- The weight rows' and the bias's blocks filled out to whole buffers. -/
def wfill (c : Dev nD) (t : Fin cfg1.N) : S3200x256.Idx → Elt F .f32 :=
  win1_1.fill (grid1.coords t) zw (iblk1 V c 1 t)
def bfill (c : Dev nD) (t : Fin cfg1.N) : S1x3200.Idx → Elt F .f32 :=
  win1_2.fill (grid1.coords t) zw (iblk1 V c 2 t)

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wfill V c t
    | ⟨2, _⟩ => bfill V c t
    | ⟨3, _⟩ => outLin (iblk1 V c 0 t) (wfill V c t) (bfill V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wfill V c t := by dsimp only [dat1]
theorem after1_2 (c : Dev nD) (t : Fin cfg1.N) : (dat1 V c).after 2 t = bfill V c t := by dsimp only [dat1]
theorem after1_3 (c : Dev nD) (t : Fin cfg1.N) : (dat1 V c).after 3 t = outLin (iblk1 V c 0 t) (wfill V c t) (bfill V c t) := by
  dsimp only [dat1]

/-- The result's window is never fetched. -/
theorem fetch1_3 : ∀ t : Fin cfg1.N, (cfg1.win 3).fetch t = false :=
  (by decide +kernel : ∀ t : Fin grid1.N, win1_3.fetch t = false)

/-- The state's buffer holds the state at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The weight rows' and the bias's buffers just fetched: the block on the rows inside the array, d elsewhere. -/
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-- The result's buffer at contents nothing names. -/
theorem before1_3 (c : Dev nD) (t : Fin cfg1.N) (d) : (dat1 V c).before 3 t d = d := by
  unfold Dat.before
  rw [if_neg (by rw [fetch1_3 t]; exact Bool.false_ne_true)]
  by_cases ht : t.val = 0
  · rw [if_pos ht]
  · rw [if_neg ht]; exact if_pos (flush1_3 _)

/-- Which windows a claim forgets: none, or the result's. -/
def fgtOf (f3 : Bool) : Fin 4 → Bool := fun | 0 => false | 1 => false | 2 => false | 3 => f3 | ⟨_ + 4, h⟩ => absurd h (Nat.not_lt.2 (Nat.le_add_left _ _))

/-- The body obligation of the region. Where the result's window is not forgotten it asks that the rows of the store
    inside the array do not depend on what the weight and bias buffers hold past the arrays' end (`hedge`). -/
theorem body_obligation1 (c : Dev nD) (f3 : Bool)
    (hedge : f3 = false → ∀ (t : Fin cfg1.N) (d1 : S3200x256.Idx → Elt F .f32) (d2 : S1x3200.Idx → Elt F .f32),
      win1_3.cut (grid1.coords t) (outLin (iblk1 V c 0 t) (win1_1.fill (grid1.coords t) d1 (iblk1 V c 1 t)) (win1_2.fill (grid1.coords t) d2 (iblk1 V c 2 t)))
        = win1_3.cut (grid1.coords t) (outLin (iblk1 V c 0 t) (wfill V c t) (bfill V c t))) :
    BodyObligationLoose (dat1 (F := F) V c) (defs₀ (F := F)) Variants.none () Set.univ (fgtOf f3) := fun t => by
  rw [bigSep_W1, bigSep_W1]
  cases f3
  · simp only [fgtOf]
    rw [show (dat1 V c).Φ t.succ = (dat1 V c).Φ t.castSucc from rfl,
      show (dat1 V c).owesAt () t.succ = (dat1 V c).owesAt () t.castSucc from rfl]
    change _ ⊢ wp frame (wpE (defs₀ (F := F)) Variants.none c none) Set.univ (bodyAt1 t) _
    unfold bodyAt1
    iintro ⟨HΦ, Ho, ⟨%d0, H0⟩, ⟨%d1, H1⟩, ⟨%d2, H2⟩, ⟨%d3, H3⟩⟩
    rw [before1_0 V c t d0, before1_1 V c t d1, before1_2 V c t d2, before1_3 V c t d3]
    iapply (sound_lin (F := F) c Set.univ (grid1.coords t) _ _ _ _ _ _ _ _ (iblk1 V c 0 t)
      (win1_1.fill (grid1.coords t) d1 (iblk1 V c 1 t)) (win1_2.fill (grid1.coords t) d2 (iblk1 V c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have hw : win1_1.cut (grid1.coords t) (wfill V c t) = iblk1 V c 1 t := win1_1.cut_fill _ _ _
    have hb : win1_2.cut (grid1.coords t) (bfill V c t) = iblk1 V c 2 t := win1_2.cut_fill _ _ _
    isplitl [H0]; · rw [after1_0]; iexact H0
    isplitl [H1]
    · iexists d1
      rw [after1_1]
      change _ ⊢ owns (c : Thread nD τ) (stage1_1 (cfg1.slots t 1)) fullShare (win1_1.fill (grid1.coords t) d1 (win1_1.cut (grid1.coords t) (wfill V c t)))
      rw [hw]; try iexact H1
    isplitl [H2]
    · iexists d2
      rw [after1_2]
      change _ ⊢ owns (c : Thread nD τ) (stage1_2 (cfg1.slots t 2)) fullShare (win1_2.fill (grid1.coords t) d2 (win1_2.cut (grid1.coords t) (bfill V c t)))
      rw [hb]; try iexact H2
    · iexists (outLin (iblk1 V c 0 t) (win1_1.fill (grid1.coords t) d1 (iblk1 V c 1 t)) (win1_2.fill (grid1.coords t) d2 (iblk1 V c 2 t)))
      rw [after1_3]
      change _ ⊢ owns (c : Thread nD τ) (stage1_3 (cfg1.slots t 3)) fullShare (win1_3.fill (grid1.coords t) _ (win1_3.cut (grid1.coords t) (outLin (iblk1 V c 0 t) (wfill V c t) (bfill V c t))))
      rw [← hedge rfl t d1 d2, win1_3.fill_cut]; try iexact H3
  · simp only [fgtOf]
    rw [show (dat1 V c).Φ t.succ = (dat1 V c).Φ t.castSucc from rfl,
      show (dat1 V c).owesAt () t.succ = (dat1 V c).owesAt () t.castSucc from rfl]
    change _ ⊢ wp frame (wpE (defs₀ (F := F)) Variants.none c none) Set.univ (bodyAt1 t) _
    unfold bodyAt1
    iintro ⟨HΦ, Ho, ⟨%d0, H0⟩, ⟨%d1, H1⟩, ⟨%d2, H2⟩, ⟨%d3, H3⟩⟩
    rw [before1_0 V c t d0, before1_1 V c t d1, before1_2 V c t d2]
    iapply (sound_lin (F := F) c Set.univ (grid1.coords t) _ _ _ _ _ _ _ _ (iblk1 V c 0 t)
      (win1_1.fill (grid1.coords t) d1 (iblk1 V c 1 t)) (win1_2.fill (grid1.coords t) d2 (iblk1 V c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have hw : win1_1.cut (grid1.coords t) (wfill V c t) = iblk1 V c 1 t := win1_1.cut_fill _ _ _
    have hb : win1_2.cut (grid1.coords t) (bfill V c t) = iblk1 V c 2 t := win1_2.cut_fill _ _ _
    isplitl [H0]; · rw [after1_0]; iexact H0
    isplitl [H1]
    · iexists d1
      rw [after1_1]
      change _ ⊢ owns (c : Thread nD τ) (stage1_1 (cfg1.slots t 1)) fullShare (win1_1.fill (grid1.coords t) d1 (win1_1.cut (grid1.coords t) (wfill V c t)))
      rw [hw]; try iexact H1
    isplitl [H2]
    · iexists d2
      rw [after1_2]
      change _ ⊢ owns (c : Thread nD τ) (stage1_2 (cfg1.slots t 2)) fullShare (win1_2.fill (grid1.coords t) d2 (win1_2.cut (grid1.coords t) (bfill V c t)))
      rw [hb]; try iexact H2
    · iexists _; iexact H3

end Cert.KernelIdeal.Hand

end
-- ==== Proof.Launch.lean ====
/-
  The whole program run: host operations, the recurrent-step region, the read-out region, one more host operation.

  Between two items a core holds every unscoped buffer at a known valuation. The recurrent-step region is exact: the
  state buffer ends at the region's computed contents. The read-out region may forget its result window (a claim that
  reads no result needs no account of what the body computes from the rows past the arrays' end), so after it the
  logits' buffer holds SOME contents F that the region's write-backs may leave, and the last host operation runs on a
  valuation that carries F. At the end every unscoped buffer is read against the final memory.
-/
import proofs.«419960_j59219009077899_3_alg».proof.Proof.Data0
import proofs.«419960_j59219009077899_3_alg».proof.Proof.Data1
import proofs.«419960_j59219009077899_3_alg».proof.Proof.Gen.KernelIdeal.Regions
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' entries and exits -/

/-- The contents the recurrent-step region is entered with: the launch memory after the host operations before it. -/
abbrev Ve0 : (c : Dev nD) → (b : Ref sig .tc) → Buf (Elt F) ((c : Thread nD τ).loc b) := fun c b => V3 m c b

/-- What the recurrent-step region leaves in the state buffer. -/
def stateOut (c : Dev nD) : Buf (Elt F) ((c : Thread nD τ).loc main_v5) := (dat0 (Ve0 m) c).arrAt 5 cfg0.N

/-- The regions' results as the generated valuations read them: the state buffer after the first region. -/
def outs0 : Outs (F := F) := fun _ r c =>
  if h : r = main_v5 then h ▸ stateOut m c else m ((c : Thread nD τ).loc r)

theorem outs0_v5 (c : Dev nD) : outs0 m 4 main_v5 c = stateOut m c := by
  unfold outs0; rw [dif_pos rfl]

/-- The contents the read-out region is entered with. -/
abbrev Ve1 : (c : Dev nD) → (b : Ref sig .tc) → Buf (Elt F) ((c : Thread nD τ).loc b) := fun c b => V4 m (outs0 m) c b

/-- After the read-out region, the logits' buffer at contents F. -/
abbrev W5 (c : Dev nD) (F3 : Buf (Elt F) ((c : Thread nD τ).loc main_v6)) : Valuation τ sig (Elt F) :=
  Function.update (V4 m (outs0 m) c) main_v6 F3
/-- After the last host operation. -/
abbrev W6 (c : Dev nD) (F3 : Buf (Elt F) ((c : Thread nD τ).loc main_v6)) : Valuation τ sig (Elt F) :=
  StableHlo.after hostOps2 (W5 m c F3)

/-! ## The proof data family -/

/-- Every pipeline's proof data, each at its region's entry contents, the read-out's result window forgotten or not. -/
def rdats (f3 : Bool) : (p : Fin 2) → (c : Dev nD) → RDat τ (Elt F) Unit ℕ (UR sig nD τ) ℕ (Pipeline.pin (pcfgs (F := F)) adm p) c
  | ⟨0, _⟩ => fun c => (dat0 (Ve0 m) c).toR
  | ⟨1, _⟩ => fun c => (dat1 (Ve1 m) c).toRForget (fgtOf f3)

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)
abbrev E3 : Fin 3 → Dev nD → sProp 𝕄 := fun _ c => R (F := F) c

/-- What the read-out's write-backs may leave in the logits' buffer. -/
def MayLeave (f3 : Bool) (c : Dev nD) (F3 : Buf (Elt F) ((c : Thread nD τ).loc main_v6)) : Prop :=
  ((dat1 (Ve1 m) c).toRForget (fgtOf f3)).ArrAt 3 cfg1.N F3

/-- The thread state after the read-out region. -/
def T5 (f3 : Bool) (c : Dev nD) : sProp 𝕄 :=
  iprop(∃ F3, ⌜MayLeave m f3 c F3⌝ ∗ StableHlo.held (c : Thread nD τ) (Pipeline.ucRefs τ sig) (W5 m c F3) ∗ R c)
/-- The last thread state, the generator register kept, what is owed apart. -/
def T6 (f3 : Bool) (c : Dev nD) : sProp 𝕄 :=
  iprop(∃ F3, ⌜MayLeave m f3 c F3⌝ ∗ StableHlo.held (c : Thread nD τ) (Pipeline.ucRefs τ sig) (W6 m c F3) ∗ ∃ r, prngReg c r)

/-- The exact proof data family (the arrays' assertions are stated over it). -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### The recurrent-step region's exit contents -/

theorem Ve1_of (c : Dev nD) (r : Ref sig .tc) (h : r ∉ ([main_v5] : List (Ref sig .tc))) : Ve1 m c r = Ve0 m c r :=
  V4_of m (outs0 m) c r h

theorem Ve1_v5 (c : Dev nD) : Ve1 m c main_v5 = stateOut m c := by
  show Function.update (V3 m c) main_v5 (outs0 m 4 main_v5 c) main_v5 = _
  rw [Function.update_self, outs0_v5]

theorem hF0 (c : Dev nD) (w : Fin cfg0.W) : (dat0 (Ve0 m) c).arrAt w cfg0.N = Ve1 m c (Pipeline.arrRef spec0 w) := by
  match w with
  | ⟨0, _⟩ => exact (((dat0 (Ve0 m) c).arrAt_in 0 rfl _).trans (A_eq0 (Ve0 m) c 0)).trans (Ve1_of m c _ (by decide)).symm
  | ⟨1, _⟩ => exact (((dat0 (Ve0 m) c).arrAt_in 1 rfl _).trans (A_eq0 (Ve0 m) c 1)).trans (Ve1_of m c _ (by decide)).symm
  | ⟨2, _⟩ => exact (((dat0 (Ve0 m) c).arrAt_in 2 rfl _).trans (A_eq0 (Ve0 m) c 2)).trans (Ve1_of m c _ (by decide)).symm
  | ⟨3, _⟩ => exact (((dat0 (Ve0 m) c).arrAt_in 3 rfl _).trans (A_eq0 (Ve0 m) c 3)).trans (Ve1_of m c _ (by decide)).symm
  | ⟨4, _⟩ => exact (((dat0 (Ve0 m) c).arrAt_in 4 rfl _).trans (A_eq0 (Ve0 m) c 4)).trans (Ve1_of m c _ (by decide)).symm
  | ⟨5, _⟩ => exact (Ve1_v5 m c).symm

theorem hrest0 (c : Dev nD) : ∀ b, b ∉ Finset.univ.image (Pipeline.arrRef spec0) → Ve1 m c b = Ve0 m c b :=
  fun b hb => Ve1_of m c b (fun h => hb (Finset.mem_image.mpr ⟨5, Finset.mem_univ _, (List.mem_singleton.mp h).symm⟩))

/-! ### The read-out region's exit contents -/

theorem W5_of (c : Dev nD) (F3) (r : Ref sig .tc) (h : r ≠ main_v6) : W5 m c F3 r = Ve1 m c r := by
  show Function.update (V4 m (outs0 m) c) main_v6 F3 r = _
  rw [Function.update_of_ne (StableHlo.devRef_ne_of_ne h : (Proc.devRef .tc r : DevRef τ sig) ≠ Proc.devRef .tc main_v6)]

theorem W5_v6 (c : Dev nD) (F3) : W5 m c F3 main_v6 = F3 := by
  show Function.update (V4 m (outs0 m) c) main_v6 F3 main_v6 = _
  rw [Function.update_self]

/-! ## The regions as segments -/

set_option backward.isDefEq.respectTransparency.types false in
/-- The recurrent-step region: entered from every unscoped buffer at the contents after the first host operations, left
    with the state buffer at the region's computed contents. -/
def reg0 (f3 : Bool) : Pipeline.RDat.RegionSeg (pcfgs (F := F)) adm (rdats m f3) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose.toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs0 m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.RDat.arrays_of_unscopedBufs (p := 0) (pcfgs (F := F)) adm (rdats m f3) launch0.win launch0.arr_whole c
      ((dat0 (Ve0 m) c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m f3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m f3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((dat0 (Ve0 m) c).share_full fun _ => rfl)
      (Ve0 m c) (Ve1 m c) ((dat0 (Ve0 m) c).arrAt · cfg0.N) (hF0 m c) (hrest0 m c)
    rw [Pipeline.unscopedBufs_held] at hjoin
    have hpost := (dat0 (Ve0 m) c).toR_arraysAt_post (Name := ℕ) (U := UR sig nD τ) (Lvl := ℕ) cfg0.N
    rw [show (rdats m f3 0 c).arraysAt (Pipeline.pin (pcfgs (F := F)) adm 0).N = (dat0 (Ve0 m) c).toR.arraysAt cfg0.N from rfl]
    iintro ⟨Ha, HO, HY, Hrest⟩
    ihave Ha' := hpost $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

/-- The result-window contents family at the read-out's exit: the inputs as entered, the result at F. -/
def exitArrs (c : Dev nD) (F3 : Buf (Elt F) ((c : Thread nD τ).loc main_v6)) :
    (w : Fin cfg1.W) → Buf (Elt F) ((cfg1.win w).arr.view.loc (c : Thread nD τ))
  | ⟨0, _⟩ => (dat1 (Ve1 m) c).arrAt 0 cfg1.N
  | ⟨1, _⟩ => (dat1 (Ve1 m) c).arrAt 1 cfg1.N
  | ⟨2, _⟩ => (dat1 (Ve1 m) c).arrAt 2 cfg1.N
  | ⟨3, _⟩ => F3

theorem hF1 (c : Dev nD) (F3) (w : Fin cfg1.W) : exitArrs m c F3 w = W5 m c F3 (Pipeline.arrRef spec1 w) := by
  match w with
  | ⟨0, _⟩ => exact (((dat1 (Ve1 m) c).arrAt_in 0 rfl _).trans (A_eq1 (Ve1 m) c 0)).trans (W5_of m c F3 _ (by decide)).symm
  | ⟨1, _⟩ => exact (((dat1 (Ve1 m) c).arrAt_in 1 rfl _).trans (A_eq1 (Ve1 m) c 1)).trans (W5_of m c F3 _ (by decide)).symm
  | ⟨2, _⟩ => exact (((dat1 (Ve1 m) c).arrAt_in 2 rfl _).trans (A_eq1 (Ve1 m) c 2)).trans (W5_of m c F3 _ (by decide)).symm
  | ⟨3, _⟩ => exact (W5_v6 m c F3).symm

theorem hrest1 (c : Dev nD) (F3) : ∀ b, b ∉ Finset.univ.image (Pipeline.arrRef spec1) → W5 m c F3 b = Ve1 m c b :=
  fun b hb => W5_of m c F3 b (fun h => hb (Finset.mem_image.mpr ⟨3, Finset.mem_univ _, h.symm⟩))

variable (f3 : Bool) (hb1 : ∀ c, BodyObligationLoose (dat1 (F := F) (Ve1 m) c) (defs₀ (F := F)) Variants.none () Set.univ (fgtOf f3))

set_option backward.isDefEq.respectTransparency.types false in
/-- The read-out region: entered from the state buffer at the first region's result, left with the logits' buffer at
    some contents its write-backs may leave. -/
def reg1 : Pipeline.RDat.RegionSeg (pcfgs (F := F)) adm (rdats m f3) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (V4 m (outs0 m) c) ∗ R c)
  post c := T5 m f3 c
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.RDat.arrays_of_unscopedBufs (p := 1) (pcfgs (F := F)) adm (rdats m f3) launch1.win launch1.arr_whole c
      ((dat1 (Ve1 m) c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m f3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m f3 1 c).Φ (Fin.last _) = Pipeline.ΦA spec1 c from rfl]; unfold Pipeline.ΦA
    iintro ⟨Hr, Hp⟩
    isplitl [Hp]; · iexact Hp
    isplitr; · iempintro
    iexact Hr
  hexit c := by
    unfold T5
    rw [show (rdats m f3 1 c).arraysAt (Pipeline.pin (pcfgs (F := F)) adm 1).N
      = bigSep Finset.univ fun w : Fin 4 => iprop(∃ G, ⌜(rdats m f3 1 c).ArrAt w cfg1.N G⌝ ∗ (cfg1.win w).arr.view.loc (c : Thread nD τ) ↦[(cfg1.win w).arr.view.set]{(rdats m f3 1 c).share w} G) from rfl,
      bigSep_W1]
    iintro ⟨⟨⟨%G0, %h0, A0⟩, ⟨%G1, %h1, A1⟩, ⟨%G2, %h2, A2⟩, ⟨%G3, %h3, A3⟩⟩, HO, HY, Hrest⟩
    have e0 : G0 = (dat1 (Ve1 m) c).arrAt 0 cfg1.N := ((dat1 (Ve1 m) c).toRForget_arrAt_iff (fgt := fgtOf f3) (w := 0) rfl cfg1.N G0).mp h0
    have e1 : G1 = (dat1 (Ve1 m) c).arrAt 1 cfg1.N := ((dat1 (Ve1 m) c).toRForget_arrAt_iff (fgt := fgtOf f3) (w := 1) rfl cfg1.N G1).mp h1
    have e2 : G2 = (dat1 (Ve1 m) c).arrAt 2 cfg1.N := ((dat1 (Ve1 m) c).toRForget_arrAt_iff (fgt := fgtOf f3) (w := 2) rfl cfg1.N G2).mp h2
    subst e0; subst e1; subst e2
    have hjoin := Pipeline.unscopedBufs_of_arrays (p := 1) (pcfgs (F := F)) adm (Ix := Unit) (Name := ℕ) (U := UR sig nD τ) (Lvl := ℕ)
      launch1.win launch1.arr_whole c (pdats m) ((dat1 (Ve1 m) c).share_full fun _ => rfl)
      (Ve1 m c) (fun b => W5 m c G3 b) (exitArrs m c G3) (hF1 m c G3) (hrest1 m c G3)
    rw [Pipeline.unscopedBufs_held] at hjoin
    imodintro
    iexists G3
    isplitr; · ipureintro; exact h3
    isplitl [A0 A1 A2 A3 Hrest]
    · iapply hjoin
      isplitr [Hrest]
      · rw [show (pdats m 1 c).arrays (exitArrs m c G3)
          = bigSep Finset.univ fun w : Fin 4 => (cfg1.win w).arr.view.loc (c : Thread nD τ) ↦[(cfg1.win w).arr.view.set]{(pdats m 1 c).share w} exitArrs m c G3 w from rfl,
          bigSep_W1]
        isplitl [A0]; · iexact A0
        isplitl [A1]; · iexact A1
        isplitl [A2]; · iexact A2
        iexact A3
      iexact Hrest
    isplitl [HY]; · iexact HY
    unfold Pipeline.RDat.owesAt Pipeline.owesWithin
    icases HO with ⟨%W, -, HO⟩; iexists W; iexact HO

/-- The last host operation, from the logits' buffer at whatever contents the read-out left. -/
def segTail : HostSeg (Name := ℕ) (U := UR sig nD τ) (pcfgs (F := F)) defs₀ 𝒱₀ L lv where
  prog := StableHlo.seq hostOps2
  pre c := T5 m f3 c
  post c := iprop(T6 m f3 c ∗ ∃ W, owes (c : Thread nD τ) (0 : CellTallies nD τ sig Unit) W)
  run c {β} k K := by
    unfold T5 T6
    iintro ⟨Hk, Hbd, ⟨%F3, %hF3, Hh, Hp, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W5 m c F3)
    iapply hseq $$ [Hbd Hh]
    · isplitl [Hbd] <;> iassumption
    iintro ⟨Hbd, Hh⟩
    iapply Hk
    isplitl [Hbd]; · iexact Hbd
    isplitr [HO]
    · iexists F3
      isplitr; · ipureintro; exact hF3
      isplitl [Hh]; · iexact Hh
      iexact Hp
    iexact HO

/-- @main's six items. -/
abbrev segsR : List (Pipeline.RDat.Seg (pcfgs (F := F)) adm (rdats m f3) () defs₀ 𝒱₀ L lv) :=
  [ .host (seg0 m 𝒱₀ L lv E3), .host (seg1 m 𝒱₀ L lv E3), .host (seg2 m 𝒱₀ L lv E3),
    .region (reg0 m f3), .region (reg1 m f3 hb1), .host (segTail m f3) ]

include hb1 in
set_option backward.isDefEq.respectTransparency.types false in
/-- THE RUN. From any memory with zero counters every weakly fair execution of @main terminates, and in every final
    memory the logits' buffer holds some contents F the read-out's write-backs may leave and every unscoped buffer holds
    the last valuation's contents over F. -/
theorem run_all : θ_run defs (onTc (τ := τ) (main (F := F))) ⟨m, fun _ => 0, ρ⟩ (fun r => ∀ c : Dev nD, ∃ F3, MayLeave m f3 c F3 ∧
      ∀ b ∈ Pipeline.ucRefs τ sig, r.2.mem ((c : Thread nD τ).1, b) = W6 m c F3 b) :=
  Pipeline.RDat.θ_run_regions_kit_dev (pcfgs (F := F)) adm (rdats m f3) () cellOf_inj emb₁ defs₀ 𝒱₀ L lv m ρ main
    (fun _ => segsR m f3 hb1)
    (fun c Q => by
      rewrite [main_chain c, Pipeline.RDat.Seg.run_eq_chain,
        show (segsR m f3 hb1).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := T6 m f3)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ F3, MayLeave m f3 c F3 ∧ ∀ b ∈ Pipeline.ucRefs τ sig, s.mem ((c : Thread nD τ).1, b) = W6 m c F3 b)
    (hfin := fun c s' => by
      unfold T6 StableHlo.held
      iintro ⟨⟨%F3, %hF3, Hh, -⟩, HSI⟩
      ihave Hr := (pointsTo_read_all (Pipeline.ucRefs τ sig) (fun b => ((c : Thread nD τ).1, b)) (W6 m c F3) s') $$ [Hh HSI]
      · isplitl [Hh] <;> iassumption
      icases Hr with ⟨%h, HSI⟩
      imodintro
      isplitr
      · ipureintro; exact ⟨F3, hF3, h⟩
      · iexact HSI)
    (hQ := fun s h c => h c)

/-! ## Reading the last valuation -/

/-- A buffer no item writes holds its launch contents at the end. -/
theorem W6_arg (c : Dev nD) (F3) (r : Ref sig .tc) (h6 : r ∉ hostOps2_W) (h5 : r ≠ main_v6) (h4 : r ∉ ([main_v5] : List (Ref sig .tc)))
    (h3 : r ∉ hostOps0_2_W) (h2 : r ∉ hostOps0_1_W) (h1 : r ∉ hostOps0_W) : W6 m c F3 r = m ((c : Thread nD τ).loc r) :=
  (StableHlo.after_of_writes_sub hostOps2 _ hostOps2_writes h6).trans <| (W5_of m c F3 r h5).trans <| (V4_of m (outs0 m) c r h4).trans <|
    (V3_of m c r h3).trans <| (V2_of m c r h2).trans <| (V1_of m c r h1).trans rfl

/-- The logits' buffer ends at what the read-out left. -/
theorem W6_v6 (c : Dev nD) (F3) : W6 m c F3 main_v6 = F3 :=
  (StableHlo.after_of_writes_sub hostOps2 _ hostOps2_writes (by decide)).trans (W5_v6 m c F3)

/-- The second result is the new state with a unit leading axis. -/
theorem W6_v7 (c : Dev nD) (F3) :
    W6 m c F3 main_v7 = broadcastInDim S1x512x256 ![1, 2] bcast_S512x256_S1x512x256_1_2 (stateOut m c) := by
  have e : W5 m c F3 main_v5 = stateOut m c := (W5_of m c F3 main_v5 (by decide)).trans (Ve1_v5 m c)
  rw [← e]
  show StableHlo.after hostOps2 (W5 m c F3) (Proc.devRef .tc main_v7) = _
  after_results

include hb1 in
/-- The frame: every argument buffer ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨F3, -, hb⟩ := h c
    exact ⟨(hb _ (mem_uc main_arg0 (by decide))).trans (W6_arg m c F3 main_arg0 (by decide) (by decide) (by decide) (by decide) (by decide) (by decide)),
      (hb _ (mem_uc main_arg1 (by decide))).trans (W6_arg m c F3 main_arg1 (by decide) (by decide) (by decide) (by decide) (by decide) (by decide)),
      (hb _ (mem_uc main_arg2 (by decide))).trans (W6_arg m c F3 main_arg2 (by decide) (by decide) (by decide) (by decide) (by decide) (by decide)),
      (hb _ (mem_uc main_arg3 (by decide))).trans (W6_arg m c F3 main_arg3 (by decide) (by decide) (by decide) (by decide) (by decide) (by decide)),
      (hb _ (mem_uc main_arg4 (by decide))).trans (W6_arg m c F3 main_arg4 (by decide) (by decide) (by decide) (by decide) (by decide) (by decide)),
      (hb _ (mem_uc main_arg5 (by decide))).trans (W6_arg m c F3 main_arg5 (by decide) (by decide) (by decide) (by decide) (by decide) (by decide)),
      (hb _ (mem_uc main_arg6 (by decide))).trans (W6_arg m c F3 main_arg6 (by decide) (by decide) (by decide) (by decide) (by decide) (by decide)),
      (hb _ (mem_uc main_arg7 (by decide))).trans (W6_arg m c F3 main_arg7 (by decide) (by decide) (by decide) (by decide) (by decide) (by decide)),
      (hb _ (mem_uc main_arg8 (by decide))).trans (W6_arg m c F3 main_arg8 (by decide) (by decide) (by decide) (by decide) (by decide) (by decide))⟩)
    (run_all m ρ f3 hb1)

end Cert.KernelIdeal.Hand

end
-- ==== Proof.Bits.Bodies.lean ====
/-
  The two kernel bodies as Hoare triples on whole staging buffers, at any float instance.

  The recurrent-step body loads its five input buffers whole, computes the new state from them and stores it whole into
  the output buffer; the read-out body loads three input buffers whole and stores tanh(h·Wᵀ + bias) whole. Each leaves its
  inputs as found and its output at the one store's payload, whatever the output buffer held before.
-/
import proofs.«419960_j59219009077899_3_alg».proof.Proof.Gen.Kernel.Launch
import proofs.«419960_j59219009077899_3_alg».proof.Proof.Gen.Kernel.Skeleton
import proofs.«419960_j59219009077899_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole rectangles the bodies access -/

abbrev rX : Rect S768x512 := Rect.unit (s := S768x512) ![0, 0] S768x512.size inb_S768x512_S768x512_0_0
abbrev rH : Rect S512x256 := Rect.unit (s := S512x256) ![0, 0] S512x256.size inb_S512x256_S512x256_0_0
abbrev rW : Rect S768x256 := Rect.unit (s := S768x256) ![0, 0] S768x256.size inb_S768x256_S768x256_0_0
abbrev rB : Rect S1x768 := Rect.unit (s := S1x768) ![0, 0] S1x768.size inb_S1x768_S1x768_0_0
abbrev rWo : Rect S3200x256 := Rect.unit (s := S3200x256) ![0, 0] S3200x256.size inb_S3200x256_S3200x256_0_0
abbrev rBo : Rect S1x3200 := Rect.unit (s := S1x3200) ![0, 0] S1x3200.size inb_S1x3200_S1x3200_0_0
abbrev rL : Rect S512x3200 := Rect.unit (s := S512x3200) ![0, 0] S512x3200.size inb_S512x3200_S512x3200_0_0

/-! ## What each body leaves in its output buffer -/

/-- The recurrent step's output buffer after the body: its one whole store, over the five input buffers' contents
    (x: the gathered embedding columns, h: the old state, w: the hidden weights, bi / bh: the two bias rows). -/
def outStep (x : Vec F S768x512 .f32) (h : Vec F S512x256 .f32) (w : Vec F S768x256 .f32) (bi bh : Vec F S1x768 .f32) :
    Vec F S512x256 .f32 :=
  View.canon [⟨rH, k0_pay1 (View.ld h rH) (View.ld x rX) (View.ld bi rB) (View.ld w rW) (View.ld bh rB)⟩]

/-- The read-out's output buffer after the body: its one whole store. -/
def outLin (h : Vec F S512x256 .f32) (w : Vec F S3200x256 .f32) (bo : Vec F S1x3200 .f32) : Vec F S512x3200 .f32 :=
  View.canon [⟨rL, k1_pay1 (View.ld h rH) (View.ld w rWo) (View.ld bo rBo)⟩]

/-- One whole store covers the buffer. -/
theorem coverStep (p0 : Vec F S512x256 .f32) (y : S512x256.Idx) :
    ∃ pc ∈ ([⟨rH, p0⟩] : List (View.Piece (Elt F) S512x256 .f32)), y ∈ pc.1.set :=
  View.cover_of_tiled [⟨rH, p0⟩] S512x256.size (by rfl) y

theorem coverLin (p0 : Vec F S512x3200 .f32) (y : S512x3200.Idx) :
    ∃ pc ∈ ([⟨rL, p0⟩] : List (View.Piece (Elt F) S512x3200 .f32)), y ∈ pc.1.set :=
  View.cover_of_tiled [⟨rL, p0⟩] S512x3200.size (by rfl) y

/-! ## The bodies' triples -/

set_option maxHeartbeats 1000000 in
/-- The recurrent-step body on whole buffers: inputs at read contents, the output at anything, runs to the inputs as
    they were and the output at `outStep` of them. -/
theorem sound_step (c : Dev nD) (E : Set ℕ) (i : grid0.Coords)
    (arg1 : Memref sig .tc .vmem S768x512 .f32) (harg1 : arg1.IsWhole) (arg2 : Memref sig .tc .vmem S512x256 .f32) (harg2 : arg2.IsWhole)
    (arg3 : Memref sig .tc .vmem S768x256 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S512x256 .f32) (harg6 : arg6.IsWhole)
    (x : Vec F S768x512 .f32) (h : Vec F S512x256 .f32) (w : Vec F S768x256 .f32) (bi bh : Vec F S1x768 .f32) (K : PUnit → sProp 𝕄) :
    iprop(owns (c : Thread nD τ) arg1 fullShare x ∗ owns (c : Thread nD τ) arg2 fullShare h ∗ owns (c : Thread nD τ) arg3 fullShare w
        ∗ owns (c : Thread nD τ) arg4 fullShare bi ∗ owns (c : Thread nD τ) arg5 fullShare bh ∗ (∃ d, owns (c : Thread nD τ) arg6 fullShare d)
        ∗ (iprop(owns (c : Thread nD τ) arg1 fullShare x ∗ owns (c : Thread nD τ) arg2 fullShare h ∗ owns (c : Thread nD τ) arg3 fullShare w
            ∗ owns (c : Thread nD τ) arg4 fullShare bi ∗ owns (c : Thread nD τ) arg5 fullShare bh
            ∗ owns (c : Thread nD τ) arg6 fullShare (outStep x h w bi bh)) -∗ K ⟨⟩))
      ⊢ wp frame (wpE (defs₀ (F := F)) Variants.none c none) E
          (cc0__gru_step_kernel i arg1 harg1 arg2 harg2 arg3 harg3 arg4 harg4 arg5 harg5 arg6 harg6) K := by
  simp only [cc0__gru_step_kernel_eq_skeleton]; unfold cc0__gru_step_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverStep _)

set_option maxHeartbeats 1000000 in
/-- The read-out body on whole buffers. -/
theorem sound_lin (c : Dev nD) (E : Set ℕ) (i : grid1.Coords)
    (arg1 : Memref sig .tc .vmem S512x256 .f32) (harg1 : arg1.IsWhole) (arg2 : Memref sig .tc .vmem S3200x256 .f32) (harg2 : arg2.IsWhole)
    (arg3 : Memref sig .tc .vmem S1x3200 .f32) (harg3 : arg3.IsWhole) (arg4 : Memref sig .tc .vmem S512x3200 .f32) (harg4 : arg4.IsWhole)
    (h : Vec F S512x256 .f32) (w : Vec F S3200x256 .f32) (bo : Vec F S1x3200 .f32) (K : PUnit → sProp 𝕄) :
    iprop(owns (c : Thread nD τ) arg1 fullShare h ∗ owns (c : Thread nD τ) arg2 fullShare w ∗ owns (c : Thread nD τ) arg3 fullShare bo
        ∗ (∃ d, owns (c : Thread nD τ) arg4 fullShare d)
        ∗ (iprop(owns (c : Thread nD τ) arg1 fullShare h ∗ owns (c : Thread nD τ) arg2 fullShare w ∗ owns (c : Thread nD τ) arg3 fullShare bo
            ∗ owns (c : Thread nD τ) arg4 fullShare (outLin h w bo)) -∗ K ⟨⟩))
      ⊢ wp frame (wpE (defs₀ (F := F)) Variants.none c none) E
          (cc1__linear_tanh_kernel i arg1 harg1 arg2 harg2 arg3 harg3 arg4 harg4) K := by
  simp only [cc1__linear_tanh_kernel_eq_skeleton]; unfold cc1__linear_tanh_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverLin _)

end Cert.Kernel.Hand

end
-- ==== Proof.Bits.Data0.lean ====
/-
  The recurrent-step region (a grid of one point, every window its whole array, fetched once): the proof data and the
  body obligation, over the buffer contents V the region is entered with.

  After the body each input's staging buffer holds its array's block (the whole array) and the output's buffer holds the
  body's one store over those blocks.
-/
import proofs.«419960_j59219009077899_3_alg».proof.Proof.Bits.Bodies

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outStep (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = outStep (iblk0 V c 0 t) (iblk0 V c 1 t) (iblk0 V c 2 t) (iblk0 V c 3 t) (iblk0 V c 4 t) := by dsimp only [dat0]

/-- Each input's current buffer holds its block at the point, whatever it held before the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at the point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_step c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at its one point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Data1.lean ====
/-
  The read-out region (sixteen points along the vocabulary axis in blocks of 3200 columns, the last block overhanging the
  arrays' 50000 by 1200): the proof data and the body obligation, over the buffer contents V the region is entered with.

  The state's window is its whole array, fetched once and kept. The weight rows', the bias's and the result's windows
  are cut at the arrays' end: a staging buffer's rows past the end hold words nothing names, and an obligation speaks of
  the rows inside the array only. After the body the weight and bias buffers hold their blocks (filled out with a word
  nothing reads) and the result's buffer the body's one store over them.
-/
import proofs.«419960_j59219009077899_3_alg».proof.Proof.Bits.Bodies

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The filler past the arrays' end: the zero word. -/
abbrev zw {S : Shape} : S.Idx → Elt F .f32 := fun _ => Scalar.ofBits .f32 0#32

/-- The weight rows' and the bias's blocks filled out to whole buffers. -/
def wfill (c : Dev nD) (t : Fin cfg1.N) : S3200x256.Idx → Elt F .f32 :=
  win1_1.fill (grid1.coords t) zw (iblk1 V c 1 t)
def bfill (c : Dev nD) (t : Fin cfg1.N) : S1x3200.Idx → Elt F .f32 :=
  win1_2.fill (grid1.coords t) zw (iblk1 V c 2 t)

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wfill V c t
    | ⟨2, _⟩ => bfill V c t
    | ⟨3, _⟩ => outLin (iblk1 V c 0 t) (wfill V c t) (bfill V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wfill V c t := by dsimp only [dat1]
theorem after1_2 (c : Dev nD) (t : Fin cfg1.N) : (dat1 V c).after 2 t = bfill V c t := by dsimp only [dat1]
theorem after1_3 (c : Dev nD) (t : Fin cfg1.N) : (dat1 V c).after 3 t = outLin (iblk1 V c 0 t) (wfill V c t) (bfill V c t) := by
  dsimp only [dat1]

/-- The result's window is never fetched. -/
theorem fetch1_3 : ∀ t : Fin cfg1.N, (cfg1.win 3).fetch t = false :=
  (by decide +kernel : ∀ t : Fin grid1.N, win1_3.fetch t = false)

/-- The state's buffer holds the state at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The weight rows' and the bias's buffers just fetched: the block on the rows inside the array, d elsewhere. -/
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-- The result's buffer at contents nothing names. -/
theorem before1_3 (c : Dev nD) (t : Fin cfg1.N) (d) : (dat1 V c).before 3 t d = d := by
  unfold Dat.before
  rw [if_neg (by rw [fetch1_3 t]; exact Bool.false_ne_true)]
  by_cases ht : t.val = 0
  · rw [if_pos ht]
  · rw [if_neg ht]; exact if_pos (flush1_3 _)

/-- Which windows a claim forgets: none, or the result's. -/
def fgtOf (f3 : Bool) : Fin 4 → Bool := fun | 0 => false | 1 => false | 2 => false | 3 => f3 | ⟨_ + 4, h⟩ => absurd h (Nat.not_lt.2 (Nat.le_add_left _ _))

/-- The body obligation of the region. Where the result's window is not forgotten it asks that the rows of the store
    inside the array do not depend on what the weight and bias buffers hold past the arrays' end (`hedge`). -/
theorem body_obligation1 (c : Dev nD) (f3 : Bool)
    (hedge : f3 = false → ∀ (t : Fin cfg1.N) (d1 : S3200x256.Idx → Elt F .f32) (d2 : S1x3200.Idx → Elt F .f32),
      win1_3.cut (grid1.coords t) (outLin (iblk1 V c 0 t) (win1_1.fill (grid1.coords t) d1 (iblk1 V c 1 t)) (win1_2.fill (grid1.coords t) d2 (iblk1 V c 2 t)))
        = win1_3.cut (grid1.coords t) (outLin (iblk1 V c 0 t) (wfill V c t) (bfill V c t))) :
    BodyObligationLoose (dat1 (F := F) V c) (defs₀ (F := F)) Variants.none () Set.univ (fgtOf f3) := fun t => by
  rw [bigSep_W1, bigSep_W1]
  cases f3
  · simp only [fgtOf]
    rw [show (dat1 V c).Φ t.succ = (dat1 V c).Φ t.castSucc from rfl,
      show (dat1 V c).owesAt () t.succ = (dat1 V c).owesAt () t.castSucc from rfl]
    change _ ⊢ wp frame (wpE (defs₀ (F := F)) Variants.none c none) Set.univ (bodyAt1 t) _
    unfold bodyAt1
    iintro ⟨HΦ, Ho, ⟨%d0, H0⟩, ⟨%d1, H1⟩, ⟨%d2, H2⟩, ⟨%d3, H3⟩⟩
    rw [before1_0 V c t d0, before1_1 V c t d1, before1_2 V c t d2, before1_3 V c t d3]
    iapply (sound_lin (F := F) c Set.univ (grid1.coords t) _ _ _ _ _ _ _ _ (iblk1 V c 0 t)
      (win1_1.fill (grid1.coords t) d1 (iblk1 V c 1 t)) (win1_2.fill (grid1.coords t) d2 (iblk1 V c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have hw : win1_1.cut (grid1.coords t) (wfill V c t) = iblk1 V c 1 t := win1_1.cut_fill _ _ _
    have hb : win1_2.cut (grid1.coords t) (bfill V c t) = iblk1 V c 2 t := win1_2.cut_fill _ _ _
    isplitl [H0]; · rw [after1_0]; iexact H0
    isplitl [H1]
    · iexists d1
      rw [after1_1]
      change _ ⊢ owns (c : Thread nD τ) (stage1_1 (cfg1.slots t 1)) fullShare (win1_1.fill (grid1.coords t) d1 (win1_1.cut (grid1.coords t) (wfill V c t)))
      rw [hw]; try iexact H1
    isplitl [H2]
    · iexists d2
      rw [after1_2]
      change _ ⊢ owns (c : Thread nD τ) (stage1_2 (cfg1.slots t 2)) fullShare (win1_2.fill (grid1.coords t) d2 (win1_2.cut (grid1.coords t) (bfill V c t)))
      rw [hb]; try iexact H2
    · iexists (outLin (iblk1 V c 0 t) (win1_1.fill (grid1.coords t) d1 (iblk1 V c 1 t)) (win1_2.fill (grid1.coords t) d2 (iblk1 V c 2 t)))
      rw [after1_3]
      change _ ⊢ owns (c : Thread nD τ) (stage1_3 (cfg1.slots t 3)) fullShare (win1_3.fill (grid1.coords t) _ (win1_3.cut (grid1.coords t) (outLin (iblk1 V c 0 t) (wfill V c t) (bfill V c t))))
      rw [← hedge rfl t d1 d2, win1_3.fill_cut]; try iexact H3
  · simp only [fgtOf]
    rw [show (dat1 V c).Φ t.succ = (dat1 V c).Φ t.castSucc from rfl,
      show (dat1 V c).owesAt () t.succ = (dat1 V c).owesAt () t.castSucc from rfl]
    change _ ⊢ wp frame (wpE (defs₀ (F := F)) Variants.none c none) Set.univ (bodyAt1 t) _
    unfold bodyAt1
    iintro ⟨HΦ, Ho, ⟨%d0, H0⟩, ⟨%d1, H1⟩, ⟨%d2, H2⟩, ⟨%d3, H3⟩⟩
    rw [before1_0 V c t d0, before1_1 V c t d1, before1_2 V c t d2]
    iapply (sound_lin (F := F) c Set.univ (grid1.coords t) _ _ _ _ _ _ _ _ (iblk1 V c 0 t)
      (win1_1.fill (grid1.coords t) d1 (iblk1 V c 1 t)) (win1_2.fill (grid1.coords t) d2 (iblk1 V c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    have hw : win1_1.cut (grid1.coords t) (wfill V c t) = iblk1 V c 1 t := win1_1.cut_fill _ _ _
    have hb : win1_2.cut (grid1.coords t) (bfill V c t) = iblk1 V c 2 t := win1_2.cut_fill _ _ _
    isplitl [H0]; · rw [after1_0]; iexact H0
    isplitl [H1]
    · iexists d1
      rw [after1_1]
      change _ ⊢ owns (c : Thread nD τ) (stage1_1 (cfg1.slots t 1)) fullShare (win1_1.fill (grid1.coords t) d1 (win1_1.cut (grid1.coords t) (wfill V c t)))
      rw [hw]; try iexact H1
    isplitl [H2]
    · iexists d2
      rw [after1_2]
      change _ ⊢ owns (c : Thread nD τ) (stage1_2 (cfg1.slots t 2)) fullShare (win1_2.fill (grid1.coords t) d2 (win1_2.cut (grid1.coords t) (bfill V c t)))
      rw [hb]; try iexact H2
    · iexists _; iexact H3

end Cert.Kernel.Hand

end
-- ==== Proof.Bits.Launch.lean ====
/-
  The whole program run: host operations, the recurrent-step region, the read-out region, one more host operation.

  Between two items a core holds every unscoped buffer at a known valuation. The recurrent-step region is exact: the
  state buffer ends at the region's computed contents. The read-out region may forget its result window (a claim that
  reads no result needs no account of what the body computes from the rows past the arrays' end), so after it the
  logits' buffer holds SOME contents F that the region's write-backs may leave, and the last host operation runs on a
  valuation that carries F. At the end every unscoped buffer is read against the final memory.
-/
import proofs.«419960_j59219009077899_3_alg».proof.Proof.Bits.Data0
import proofs.«419960_j59219009077899_3_alg».proof.Proof.Bits.Data1
import proofs.«419960_j59219009077899_3_alg».proof.Proof.Gen.Kernel.Regions
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' entries and exits -/

/-- The contents the recurrent-step region is entered with: the launch memory after the host operations before it. -/
abbrev Ve0 : (c : Dev nD) → (b : Ref sig .tc) → Buf (Elt F) ((c : Thread nD τ).loc b) := fun c b => V3 m c b

/-- What the recurrent-step region leaves in the state buffer. -/
def stateOut (c : Dev nD) : Buf (Elt F) ((c : Thread nD τ).loc main_v5) := (dat0 (Ve0 m) c).arrAt 5 cfg0.N

/-- The regions' results as the generated valuations read them: the state buffer after the first region. -/
def outs0 : Outs (F := F) := fun _ r c =>
  if h : r = main_v5 then h ▸ stateOut m c else m ((c : Thread nD τ).loc r)

theorem outs0_v5 (c : Dev nD) : outs0 m 4 main_v5 c = stateOut m c := by
  unfold outs0; rw [dif_pos rfl]

/-- The contents the read-out region is entered with. -/
abbrev Ve1 : (c : Dev nD) → (b : Ref sig .tc) → Buf (Elt F) ((c : Thread nD τ).loc b) := fun c b => V4 m (outs0 m) c b

/-- After the read-out region, the logits' buffer at contents F. -/
abbrev W5 (c : Dev nD) (F3 : Buf (Elt F) ((c : Thread nD τ).loc main_v6)) : Valuation τ sig (Elt F) :=
  Function.update (V4 m (outs0 m) c) main_v6 F3
/-- After the last host operation. -/
abbrev W6 (c : Dev nD) (F3 : Buf (Elt F) ((c : Thread nD τ).loc main_v6)) : Valuation τ sig (Elt F) :=
  StableHlo.after hostOps2 (W5 m c F3)

/-! ## The proof data family -/

/-- Every pipeline's proof data, each at its region's entry contents, the read-out's result window forgotten or not. -/
def rdats (f3 : Bool) : (p : Fin 2) → (c : Dev nD) → RDat τ (Elt F) Unit ℕ (UR sig nD τ) ℕ (Pipeline.pin (pcfgs (F := F)) adm p) c
  | ⟨0, _⟩ => fun c => (dat0 (Ve0 m) c).toR
  | ⟨1, _⟩ => fun c => (dat1 (Ve1 m) c).toRForget (fgtOf f3)

abbrev 𝒱₀ : Variants := Variants.none
abbrev L : GSem nD τ sig → Finset Unit := fun _ => ∅
abbrev lv : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)
abbrev E3 : Fin 3 → Dev nD → sProp 𝕄 := fun _ c => R (F := F) c

/-- What the read-out's write-backs may leave in the logits' buffer. -/
def MayLeave (f3 : Bool) (c : Dev nD) (F3 : Buf (Elt F) ((c : Thread nD τ).loc main_v6)) : Prop :=
  ((dat1 (Ve1 m) c).toRForget (fgtOf f3)).ArrAt 3 cfg1.N F3

/-- The thread state after the read-out region. -/
def T5 (f3 : Bool) (c : Dev nD) : sProp 𝕄 :=
  iprop(∃ F3, ⌜MayLeave m f3 c F3⌝ ∗ StableHlo.held (c : Thread nD τ) (Pipeline.ucRefs τ sig) (W5 m c F3) ∗ R c)
/-- The last thread state, the generator register kept, what is owed apart. -/
def T6 (f3 : Bool) (c : Dev nD) : sProp 𝕄 :=
  iprop(∃ F3, ⌜MayLeave m f3 c F3⌝ ∗ StableHlo.held (c : Thread nD τ) (Pipeline.ucRefs τ sig) (W6 m c F3) ∗ ∃ r, prngReg c r)

/-- The exact proof data family (the arrays' assertions are stated over it). -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### The recurrent-step region's exit contents -/

theorem Ve1_of (c : Dev nD) (r : Ref sig .tc) (h : r ∉ ([main_v5] : List (Ref sig .tc))) : Ve1 m c r = Ve0 m c r :=
  V4_of m (outs0 m) c r h

theorem Ve1_v5 (c : Dev nD) : Ve1 m c main_v5 = stateOut m c := by
  show Function.update (V3 m c) main_v5 (outs0 m 4 main_v5 c) main_v5 = _
  rw [Function.update_self, outs0_v5]

theorem hF0 (c : Dev nD) (w : Fin cfg0.W) : (dat0 (Ve0 m) c).arrAt w cfg0.N = Ve1 m c (Pipeline.arrRef spec0 w) := by
  match w with
  | ⟨0, _⟩ => exact (((dat0 (Ve0 m) c).arrAt_in 0 rfl _).trans (A_eq0 (Ve0 m) c 0)).trans (Ve1_of m c _ (by decide)).symm
  | ⟨1, _⟩ => exact (((dat0 (Ve0 m) c).arrAt_in 1 rfl _).trans (A_eq0 (Ve0 m) c 1)).trans (Ve1_of m c _ (by decide)).symm
  | ⟨2, _⟩ => exact (((dat0 (Ve0 m) c).arrAt_in 2 rfl _).trans (A_eq0 (Ve0 m) c 2)).trans (Ve1_of m c _ (by decide)).symm
  | ⟨3, _⟩ => exact (((dat0 (Ve0 m) c).arrAt_in 3 rfl _).trans (A_eq0 (Ve0 m) c 3)).trans (Ve1_of m c _ (by decide)).symm
  | ⟨4, _⟩ => exact (((dat0 (Ve0 m) c).arrAt_in 4 rfl _).trans (A_eq0 (Ve0 m) c 4)).trans (Ve1_of m c _ (by decide)).symm
  | ⟨5, _⟩ => exact (Ve1_v5 m c).symm

theorem hrest0 (c : Dev nD) : ∀ b, b ∉ Finset.univ.image (Pipeline.arrRef spec0) → Ve1 m c b = Ve0 m c b :=
  fun b hb => Ve1_of m c b (fun h => hb (Finset.mem_image.mpr ⟨5, Finset.mem_univ _, (List.mem_singleton.mp h).symm⟩))

/-! ### The read-out region's exit contents -/

theorem W5_of (c : Dev nD) (F3) (r : Ref sig .tc) (h : r ≠ main_v6) : W5 m c F3 r = Ve1 m c r := by
  show Function.update (V4 m (outs0 m) c) main_v6 F3 r = _
  rw [Function.update_of_ne (StableHlo.devRef_ne_of_ne h : (Proc.devRef .tc r : DevRef τ sig) ≠ Proc.devRef .tc main_v6)]

theorem W5_v6 (c : Dev nD) (F3) : W5 m c F3 main_v6 = F3 := by
  show Function.update (V4 m (outs0 m) c) main_v6 F3 main_v6 = _
  rw [Function.update_self]

/-! ## The regions as segments -/

set_option backward.isDefEq.respectTransparency.types false in
/-- The recurrent-step region: entered from every unscoped buffer at the contents after the first host operations, left
    with the state buffer at the region's computed contents. -/
def reg0 (f3 : Bool) : Pipeline.RDat.RegionSeg (pcfgs (F := F)) adm (rdats m f3) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose.toR
  hwaits := Pipeline.RDat.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs0 m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.RDat.arrays_of_unscopedBufs (p := 0) (pcfgs (F := F)) adm (rdats m f3) launch0.win launch0.arr_whole c
      ((dat0 (Ve0 m) c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m f3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m f3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((dat0 (Ve0 m) c).share_full fun _ => rfl)
      (Ve0 m c) (Ve1 m c) ((dat0 (Ve0 m) c).arrAt · cfg0.N) (hF0 m c) (hrest0 m c)
    rw [Pipeline.unscopedBufs_held] at hjoin
    have hpost := (dat0 (Ve0 m) c).toR_arraysAt_post (Name := ℕ) (U := UR sig nD τ) (Lvl := ℕ) cfg0.N
    rw [show (rdats m f3 0 c).arraysAt (Pipeline.pin (pcfgs (F := F)) adm 0).N = (dat0 (Ve0 m) c).toR.arraysAt cfg0.N from rfl]
    iintro ⟨Ha, HO, HY, Hrest⟩
    ihave Ha' := hpost $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

/-- The result-window contents family at the read-out's exit: the inputs as entered, the result at F. -/
def exitArrs (c : Dev nD) (F3 : Buf (Elt F) ((c : Thread nD τ).loc main_v6)) :
    (w : Fin cfg1.W) → Buf (Elt F) ((cfg1.win w).arr.view.loc (c : Thread nD τ))
  | ⟨0, _⟩ => (dat1 (Ve1 m) c).arrAt 0 cfg1.N
  | ⟨1, _⟩ => (dat1 (Ve1 m) c).arrAt 1 cfg1.N
  | ⟨2, _⟩ => (dat1 (Ve1 m) c).arrAt 2 cfg1.N
  | ⟨3, _⟩ => F3

theorem hF1 (c : Dev nD) (F3) (w : Fin cfg1.W) : exitArrs m c F3 w = W5 m c F3 (Pipeline.arrRef spec1 w) := by
  match w with
  | ⟨0, _⟩ => exact (((dat1 (Ve1 m) c).arrAt_in 0 rfl _).trans (A_eq1 (Ve1 m) c 0)).trans (W5_of m c F3 _ (by decide)).symm
  | ⟨1, _⟩ => exact (((dat1 (Ve1 m) c).arrAt_in 1 rfl _).trans (A_eq1 (Ve1 m) c 1)).trans (W5_of m c F3 _ (by decide)).symm
  | ⟨2, _⟩ => exact (((dat1 (Ve1 m) c).arrAt_in 2 rfl _).trans (A_eq1 (Ve1 m) c 2)).trans (W5_of m c F3 _ (by decide)).symm
  | ⟨3, _⟩ => exact (W5_v6 m c F3).symm

theorem hrest1 (c : Dev nD) (F3) : ∀ b, b ∉ Finset.univ.image (Pipeline.arrRef spec1) → W5 m c F3 b = Ve1 m c b :=
  fun b hb => W5_of m c F3 b (fun h => hb (Finset.mem_image.mpr ⟨3, Finset.mem_univ _, h.symm⟩))

variable (f3 : Bool) (hb1 : ∀ c, BodyObligationLoose (dat1 (F := F) (Ve1 m) c) (defs₀ (F := F)) Variants.none () Set.univ (fgtOf f3))

set_option backward.isDefEq.respectTransparency.types false in
/-- The read-out region: entered from the state buffer at the first region's result, left with the logits' buffer at
    some contents its write-backs may leave. -/
def reg1 : Pipeline.RDat.RegionSeg (pcfgs (F := F)) adm (rdats m f3) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (V4 m (outs0 m) c) ∗ R c)
  post c := T5 m f3 c
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.RDat.arrays_of_unscopedBufs (p := 1) (pcfgs (F := F)) adm (rdats m f3) launch1.win launch1.arr_whole c
      ((dat1 (Ve1 m) c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m f3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m f3 1 c).Φ (Fin.last _) = Pipeline.ΦA spec1 c from rfl]; unfold Pipeline.ΦA
    iintro ⟨Hr, Hp⟩
    isplitl [Hp]; · iexact Hp
    isplitr; · iempintro
    iexact Hr
  hexit c := by
    unfold T5
    rw [show (rdats m f3 1 c).arraysAt (Pipeline.pin (pcfgs (F := F)) adm 1).N
      = bigSep Finset.univ fun w : Fin 4 => iprop(∃ G, ⌜(rdats m f3 1 c).ArrAt w cfg1.N G⌝ ∗ (cfg1.win w).arr.view.loc (c : Thread nD τ) ↦[(cfg1.win w).arr.view.set]{(rdats m f3 1 c).share w} G) from rfl,
      bigSep_W1]
    iintro ⟨⟨⟨%G0, %h0, A0⟩, ⟨%G1, %h1, A1⟩, ⟨%G2, %h2, A2⟩, ⟨%G3, %h3, A3⟩⟩, HO, HY, Hrest⟩
    have e0 : G0 = (dat1 (Ve1 m) c).arrAt 0 cfg1.N := ((dat1 (Ve1 m) c).toRForget_arrAt_iff (fgt := fgtOf f3) (w := 0) rfl cfg1.N G0).mp h0
    have e1 : G1 = (dat1 (Ve1 m) c).arrAt 1 cfg1.N := ((dat1 (Ve1 m) c).toRForget_arrAt_iff (fgt := fgtOf f3) (w := 1) rfl cfg1.N G1).mp h1
    have e2 : G2 = (dat1 (Ve1 m) c).arrAt 2 cfg1.N := ((dat1 (Ve1 m) c).toRForget_arrAt_iff (fgt := fgtOf f3) (w := 2) rfl cfg1.N G2).mp h2
    subst e0; subst e1; subst e2
    have hjoin := Pipeline.unscopedBufs_of_arrays (p := 1) (pcfgs (F := F)) adm (Ix := Unit) (Name := ℕ) (U := UR sig nD τ) (Lvl := ℕ)
      launch1.win launch1.arr_whole c (pdats m) ((dat1 (Ve1 m) c).share_full fun _ => rfl)
      (Ve1 m c) (fun b => W5 m c G3 b) (exitArrs m c G3) (hF1 m c G3) (hrest1 m c G3)
    rw [Pipeline.unscopedBufs_held] at hjoin
    imodintro
    iexists G3
    isplitr; · ipureintro; exact h3
    isplitl [A0 A1 A2 A3 Hrest]
    · iapply hjoin
      isplitr [Hrest]
      · rw [show (pdats m 1 c).arrays (exitArrs m c G3)
          = bigSep Finset.univ fun w : Fin 4 => (cfg1.win w).arr.view.loc (c : Thread nD τ) ↦[(cfg1.win w).arr.view.set]{(pdats m 1 c).share w} exitArrs m c G3 w from rfl,
          bigSep_W1]
        isplitl [A0]; · iexact A0
        isplitl [A1]; · iexact A1
        isplitl [A2]; · iexact A2
        iexact A3
      iexact Hrest
    isplitl [HY]; · iexact HY
    unfold Pipeline.RDat.owesAt Pipeline.owesWithin
    icases HO with ⟨%W, -, HO⟩; iexists W; iexact HO

/-- The last host operation, from the logits' buffer at whatever contents the read-out left. -/
def segTail : HostSeg (Name := ℕ) (U := UR sig nD τ) (pcfgs (F := F)) defs₀ 𝒱₀ L lv where
  prog := StableHlo.seq hostOps2
  pre c := T5 m f3 c
  post c := iprop(T6 m f3 c ∗ ∃ W, owes (c : Thread nD τ) (0 : CellTallies nD τ sig Unit) W)
  run c {β} k K := by
    unfold T5 T6
    iintro ⟨Hk, Hbd, ⟨%F3, %hF3, Hh, Hp, HO⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W5 m c F3)
    iapply hseq $$ [Hbd Hh]
    · isplitl [Hbd] <;> iassumption
    iintro ⟨Hbd, Hh⟩
    iapply Hk
    isplitl [Hbd]; · iexact Hbd
    isplitr [HO]
    · iexists F3
      isplitr; · ipureintro; exact hF3
      isplitl [Hh]; · iexact Hh
      iexact Hp
    iexact HO

/-- @main's six items. -/
abbrev segsR : List (Pipeline.RDat.Seg (pcfgs (F := F)) adm (rdats m f3) () defs₀ 𝒱₀ L lv) :=
  [ .host (seg0 m 𝒱₀ L lv E3), .host (seg1 m 𝒱₀ L lv E3), .host (seg2 m 𝒱₀ L lv E3),
    .region (reg0 m f3), .region (reg1 m f3 hb1), .host (segTail m f3) ]

include hb1 in
set_option backward.isDefEq.respectTransparency.types false in
/-- THE RUN. From any memory with zero counters every weakly fair execution of @main terminates, and in every final
    memory the logits' buffer holds some contents F the read-out's write-backs may leave and every unscoped buffer holds
    the last valuation's contents over F. -/
theorem run_all : θ_run defs (onTc (τ := τ) (main (F := F))) ⟨m, fun _ => 0, ρ⟩ (fun r => ∀ c : Dev nD, ∃ F3, MayLeave m f3 c F3 ∧
      ∀ b ∈ Pipeline.ucRefs τ sig, r.2.mem ((c : Thread nD τ).1, b) = W6 m c F3 b) :=
  Pipeline.RDat.θ_run_regions_kit_dev (pcfgs (F := F)) adm (rdats m f3) () cellOf_inj emb₁ defs₀ 𝒱₀ L lv m ρ main
    (fun _ => segsR m f3 hb1)
    (fun c Q => by
      rewrite [main_chain c, Pipeline.RDat.Seg.run_eq_chain,
        show (segsR m f3 hb1).map Pipeline.RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (fun c => by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := T6 m f3)
    (hch := fun c => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ F3, MayLeave m f3 c F3 ∧ ∀ b ∈ Pipeline.ucRefs τ sig, s.mem ((c : Thread nD τ).1, b) = W6 m c F3 b)
    (hfin := fun c s' => by
      unfold T6 StableHlo.held
      iintro ⟨⟨%F3, %hF3, Hh, -⟩, HSI⟩
      ihave Hr := (pointsTo_read_all (Pipeline.ucRefs τ sig) (fun b => ((c : Thread nD τ).1, b)) (W6 m c F3) s') $$ [Hh HSI]
      · isplitl [Hh] <;> iassumption
      icases Hr with ⟨%h, HSI⟩
      imodintro
      isplitr
      · ipureintro; exact ⟨F3, hF3, h⟩
      · iexact HSI)
    (hQ := fun s h c => h c)

/-! ## Reading the last valuation -/

/-- A buffer no item writes holds its launch contents at the end. -/
theorem W6_arg (c : Dev nD) (F3) (r : Ref sig .tc) (h6 : r ∉ hostOps2_W) (h5 : r ≠ main_v6) (h4 : r ∉ ([main_v5] : List (Ref sig .tc)))
    (h3 : r ∉ hostOps0_2_W) (h2 : r ∉ hostOps0_1_W) (h1 : r ∉ hostOps0_W) : W6 m c F3 r = m ((c : Thread nD τ).loc r) :=
  (StableHlo.after_of_writes_sub hostOps2 _ hostOps2_writes h6).trans <| (W5_of m c F3 r h5).trans <| (V4_of m (outs0 m) c r h4).trans <|
    (V3_of m c r h3).trans <| (V2_of m c r h2).trans <| (V1_of m c r h1).trans rfl

/-- The logits' buffer ends at what the read-out left. -/
theorem W6_v6 (c : Dev nD) (F3) : W6 m c F3 main_v6 = F3 :=
  (StableHlo.after_of_writes_sub hostOps2 _ hostOps2_writes (by decide)).trans (W5_v6 m c F3)

/-- The second result is the new state with a unit leading axis. -/
theorem W6_v7 (c : Dev nD) (F3) :
    W6 m c F3 main_v7 = broadcastInDim S1x512x256 ![1, 2] bcast_S512x256_S1x512x256_1_2 (stateOut m c) := by
  have e : W5 m c F3 main_v5 = stateOut m c := (W5_of m c F3 main_v5 (by decide)).trans (Ve1_v5 m c)
  rw [← e]
  show StableHlo.after hostOps2 (W5 m c F3) (Proc.devRef .tc main_v7) = _
  after_results

include hb1 in
/-- The frame: every argument buffer ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨F3, -, hb⟩ := h c
    exact ⟨(hb _ (mem_uc main_arg0 (by decide))).trans (W6_arg m c F3 main_arg0 (by decide) (by decide) (by decide) (by decide) (by decide) (by decide)),
      (hb _ (mem_uc main_arg1 (by decide))).trans (W6_arg m c F3 main_arg1 (by decide) (by decide) (by decide) (by decide) (by decide) (by decide)),
      (hb _ (mem_uc main_arg2 (by decide))).trans (W6_arg m c F3 main_arg2 (by decide) (by decide) (by decide) (by decide) (by decide) (by decide)),
      (hb _ (mem_uc main_arg3 (by decide))).trans (W6_arg m c F3 main_arg3 (by decide) (by decide) (by decide) (by decide) (by decide) (by decide)),
      (hb _ (mem_uc main_arg4 (by decide))).trans (W6_arg m c F3 main_arg4 (by decide) (by decide) (by decide) (by decide) (by decide) (by decide)),
      (hb _ (mem_uc main_arg5 (by decide))).trans (W6_arg m c F3 main_arg5 (by decide) (by decide) (by decide) (by decide) (by decide) (by decide)),
      (hb _ (mem_uc main_arg6 (by decide))).trans (W6_arg m c F3 main_arg6 (by decide) (by decide) (by decide) (by decide) (by decide) (by decide)),
      (hb _ (mem_uc main_arg7 (by decide))).trans (W6_arg m c F3 main_arg7 (by decide) (by decide) (by decide) (by decide) (by decide) (by decide)),
      (hb _ (mem_uc main_arg8 (by decide))).trans (W6_arg m c F3 main_arg8 (by decide) (by decide) (by decide) (by decide) (by decide) (by decide))⟩)
    (run_all m ρ f3 hb1)

end Cert.Kernel.Hand

end
-- ==== Proof.Spec.lean ====
/-
  One step of a gated recurrent unit followed by a linear read-out through tanh, as functions of the argument arrays,
  element by element on the extended reals.

  For batch row b and gate column t (t < 768 = 3·256, the three gates side by side):
    xproj b t = w_ih[t, idx b] + b_ih[t]                         (the embedding row picked by the token idx b)
    hproj b t = Σ_k h0[b, k] · w_hh[t, k] + b_hh[t],   h0[b, k] = hidden[0, b, k]
  With r = logistic (xproj b h + hproj b h), z = logistic (xproj b (256+h) + hproj b (256+h)) and
  n = tanh (xproj b (512+h) + r · hproj b (512+h)), the new state is
    hnew b h = (1 − z) · n + z · hidden[0, b, h],
  and the read-out is  logit b j = tanh (Σ_k hnew b k · w_out[j, k] + b_out[j]).
  The literal 1 in (1 − z) is kept as its 32-bit pattern: both programs carry the same word.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over literal rank-1, rank-2 and rank-3 shapes. -/
abbrev A1 (n : Nat) : Type := (⟨1, ![n]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal

/-- Column h of the reset gate, of the update gate and of the candidate among the 768 gate columns. -/
def gr (h : Fin 256) : Fin 768 := ⟨h.val, by have := h.isLt; omega⟩
def gz (h : Fin 256) : Fin 768 := ⟨256 + h.val, by have := h.isLt; omega⟩
def gn (h : Fin 256) : Fin 768 := ⟨512 + h.val, by have := h.isLt; omega⟩

/-- The word 1.0 of both programs, as an extended real. -/
abbrev one32 : EReal := Ideal.ofBits .f32 0x3F800000#32

/-- The input projection: the column of w_ih the token picks, plus the input bias. -/
def xproj (wih : A2 768 50000) (bih : A1 768) (idx : Fin 512 → Fin 50000) (b : Fin 512) (t : Fin 768) : EReal :=
  wih (ix2 t (idx b)) + bih (ix1 t)

/-- The hidden projection: the state's row against row t of w_hh, plus the hidden bias. -/
def hproj (h0 : Fin 512 → Fin 256 → EReal) (whh : A2 768 256) (bhh : A1 768) (b : Fin 512) (t : Fin 768) : EReal :=
  (∑ k : Fin 256, h0 b k * whh (ix2 t k)) + bhh (ix1 t)

/-- The new hidden state. -/
def hnew (x hp : Fin 512 → Fin 768 → EReal) (h0 : Fin 512 → Fin 256 → EReal) (b : Fin 512) (h : Fin 256) : EReal :=
  (one32 - Ideal.logistic (x b (gz h) + hp b (gz h)))
      * Ideal.tanh (x b (gn h) + Ideal.logistic (x b (gr h) + hp b (gr h)) * hp b (gn h))
    + Ideal.logistic (x b (gz h) + hp b (gz h)) * h0 b h

/-- The read-out of a state s. -/
def logit (s : Fin 512 → Fin 256 → EReal) (wout : A2 50000 256) (bout : A1 50000) (b : Fin 512) (j : Fin 50000) : EReal :=
  Ideal.tanh ((∑ k : Fin 256, s b k * wout (ix2 j k)) + bout (ix1 j))

/-- The old state as a matrix: the one layer of the hidden input. -/
def h0of (hid : A3 1 512 256) (b : Fin 512) (k : Fin 256) : EReal := hid (ix3 (0 : Fin 1) b k)

/-- The new state from the argument arrays. -/
def state (wih : A2 768 50000) (bih : A1 768) (idx : Fin 512 → Fin 50000) (hid : A3 1 512 256) (whh : A2 768 256) (bhh : A1 768)
    (b : Fin 512) (h : Fin 256) : EReal :=
  hnew (xproj wih bih idx) (hproj (h0of hid) whh bhh) (h0of hid) b h

end Cert.Spec

end
-- ==== Proof.PayValue.lean ====
/-
  The two kernel bodies read at one element, over the extended reals: the format changes are the identity and a
  matrix product into a zero accumulator is a plain finite sum, so each body's element is a closed arithmetic
  expression of the elements of its operands.
-/
import proofs.«419960_j59219009077899_3_alg».proof.Proof.Gen.KernelIdeal.Skeleton
import proofs.«419960_j59219009077899_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The read-out product: both operands contracted on their axis 1 -/

/-- The left operand's row coordinate is the output's row. -/
theorem lhs_lin_0 (i : S512x3200.Idx) (q : dot_S512x256_S3200x256_S512x3200_1_1_0_0_n_n.contr.Idx) :
    (dot_S512x256_S3200x256_S512x3200_1_1_0_0_n_n.lhsIdx i q 0).val = (i 0).val := by
  unfold DotDims.lhsIdx
  rw [dif_neg (show ¬(0 : Fin S512x256.rank) ∈ dot_S512x256_S3200x256_S512x3200_1_1_0_0_n_n.lhsBatch by decide), dif_pos (show (0 : Fin S512x256.rank) ∈ dot_S512x256_S3200x256_S512x3200_1_1_0_0_n_n.lhsNonContracting by decide)]
  rfl
/-- The left operand's column coordinate is the contraction coordinate. -/
theorem lhs_lin_1 (i : S512x3200.Idx) (q : dot_S512x256_S3200x256_S512x3200_1_1_0_0_n_n.contr.Idx) :
    (dot_S512x256_S3200x256_S512x3200_1_1_0_0_n_n.lhsIdx i q 1).val = (q ⟨0, by decide⟩).val :=
  dot_S512x256_S3200x256_S512x3200_1_1_0_0_n_n.lhsIdx_val_of_single rfl i q
/-- The right operand's row coordinate is the output's column. -/
theorem rhs_lin_0 (i : S512x3200.Idx) (q : dot_S512x256_S3200x256_S512x3200_1_1_0_0_n_n.contr.Idx) :
    (dot_S512x256_S3200x256_S512x3200_1_1_0_0_n_n.rhsIdx i q 0).val = (i 1).val := by
  unfold DotDims.rhsIdx
  rw [dif_neg (show ¬(0 : Fin S3200x256.rank) ∈ dot_S512x256_S3200x256_S512x3200_1_1_0_0_n_n.rhsBatch by decide), dif_pos (show (0 : Fin S3200x256.rank) ∈ dot_S512x256_S3200x256_S512x3200_1_1_0_0_n_n.rhsNonContracting by decide)]
  rfl
/-- The right operand's column coordinate is the contraction coordinate. -/
theorem rhs_lin_1 (i : S512x3200.Idx) (q : dot_S512x256_S3200x256_S512x3200_1_1_0_0_n_n.contr.Idx) :
    (dot_S512x256_S3200x256_S512x3200_1_1_0_0_n_n.rhsIdx i q 1).val = (q ⟨0, by decide⟩).val :=
  dot_S512x256_S3200x256_S512x3200_1_1_0_0_n_n.rhsIdx_val_of_single rfl i q

/-- The product into a zero accumulator at (b, j): row b of the left operand against row j of the right. -/
theorem matmul_lin_apply {φ₁ φ₂ : FTy} (x : FVec Ideal S512x256 φ₁) (y : FVec Ideal S3200x256 φ₂) (b : Fin 512) (j : Fin 3200) :
    matmul dot_S512x256_S3200x256_S512x3200_1_1_0_0_n_n none x y (constant S512x3200 .f32 0x00000000#32) (ix2 b j)
      = ∑ k : Fin 256, x (ix2 b k) * y (ix2 j k) := by
  simp only [matmul]
  rw [Ideal.matmul_constant_zero_apply, ← Equiv.sum_comp (contrEquiv1 dot_S512x256_S3200x256_S512x3200_1_1_0_0_n_n 256 rfl rfl).symm]
  refine Finset.sum_congr rfl fun k _ => ?_
  have hk := contrEquiv1_symm_val dot_S512x256_S3200x256_S512x3200_1_1_0_0_n_n 256 rfl rfl k
  have el : dot_S512x256_S3200x256_S512x3200_1_1_0_0_n_n.lhsIdx (ix2 b j) ((contrEquiv1 dot_S512x256_S3200x256_S512x3200_1_1_0_0_n_n 256 rfl rfl).symm k) = ix2 b k := funext fun a => Fin.ext (by
    match a with
    | ⟨0, _⟩ => exact lhs_lin_0 _ _
    | ⟨1, _⟩ => exact (lhs_lin_1 _ _).trans hk)
  have er : dot_S512x256_S3200x256_S512x3200_1_1_0_0_n_n.rhsIdx (ix2 b j) ((contrEquiv1 dot_S512x256_S3200x256_S512x3200_1_1_0_0_n_n 256 rfl rfl).symm k) = ix2 j k := funext fun a => Fin.ext (by
    match a with
    | ⟨0, _⟩ => exact rhs_lin_0 _ _
    | ⟨1, _⟩ => exact (rhs_lin_1 _ _).trans hk)
  rw [el, er]

/-- The read-out body at (b, j): tanh of row b of the state against row j of the weights, plus the bias at j. -/
theorem lin_pay_apply (v0 : Vec Ideal S512x256 .f32) (v3 : Vec Ideal S3200x256 .f32) (v6 : Vec Ideal S1x3200 .f32) (b : Fin 512) (j : Fin 3200) :
    k1_pay1 (F := Ideal) v0 v3 v6 (ix2 b j)
      = Ideal.tanh ((∑ k : Fin 256, v0 (ix2 b k) * v3 (ix2 j k)) + v6 (ix2 (0 : Fin 1) j)) := by
  unfold k1_pay1
  show Ideal.tanh (matmul (F := Ideal) dot_S512x256_S3200x256_S512x3200_1_1_0_0_n_n none
      (truncf .bf16 (shapeCast S512x256 v0 shapeCasts_S512x256_S512x256) bitsLt_bf16_f32)
      (truncf .bf16 v3 bitsLt_bf16_f32) (constant S512x3200 .f32 0x00000000#32) (ix2 b j)
    + broadcastTo S512x3200 (shapeCast S1x3200 v6 shapeCasts_S1x3200_S1x3200) broadcasts_S1x3200_S512x3200 (ix2 b j)) = _
  rw [matmul_lin_apply, broadcastTo_1b_ab_apply, shapeCast_self, shapeCast_self]
  rfl

/-! ## The hidden projection's product: both operands contracted on their axis 1 -/

/-- The left operand's row coordinate is the output's row. -/
theorem lhs_gru_0 (i : S512x768.Idx) (q : dot_S512x256_S768x256_S512x768_1_1_0_0_n_n.contr.Idx) :
    (dot_S512x256_S768x256_S512x768_1_1_0_0_n_n.lhsIdx i q 0).val = (i 0).val := by
  unfold DotDims.lhsIdx
  rw [dif_neg (show ¬(0 : Fin S512x256.rank) ∈ dot_S512x256_S768x256_S512x768_1_1_0_0_n_n.lhsBatch by decide), dif_pos (show (0 : Fin S512x256.rank) ∈ dot_S512x256_S768x256_S512x768_1_1_0_0_n_n.lhsNonContracting by decide)]
  rfl
/-- The left operand's column coordinate is the contraction coordinate. -/
theorem lhs_gru_1 (i : S512x768.Idx) (q : dot_S512x256_S768x256_S512x768_1_1_0_0_n_n.contr.Idx) :
    (dot_S512x256_S768x256_S512x768_1_1_0_0_n_n.lhsIdx i q 1).val = (q ⟨0, by decide⟩).val :=
  dot_S512x256_S768x256_S512x768_1_1_0_0_n_n.lhsIdx_val_of_single rfl i q
/-- The right operand's row coordinate is the output's column. -/
theorem rhs_gru_0 (i : S512x768.Idx) (q : dot_S512x256_S768x256_S512x768_1_1_0_0_n_n.contr.Idx) :
    (dot_S512x256_S768x256_S512x768_1_1_0_0_n_n.rhsIdx i q 0).val = (i 1).val := by
  unfold DotDims.rhsIdx
  rw [dif_neg (show ¬(0 : Fin S768x256.rank) ∈ dot_S512x256_S768x256_S512x768_1_1_0_0_n_n.rhsBatch by decide), dif_pos (show (0 : Fin S768x256.rank) ∈ dot_S512x256_S768x256_S512x768_1_1_0_0_n_n.rhsNonContracting by decide)]
  rfl
/-- The right operand's column coordinate is the contraction coordinate. -/
theorem rhs_gru_1 (i : S512x768.Idx) (q : dot_S512x256_S768x256_S512x768_1_1_0_0_n_n.contr.Idx) :
    (dot_S512x256_S768x256_S512x768_1_1_0_0_n_n.rhsIdx i q 1).val = (q ⟨0, by decide⟩).val :=
  dot_S512x256_S768x256_S512x768_1_1_0_0_n_n.rhsIdx_val_of_single rfl i q

/-- The product into a zero accumulator at (b, t): row b of the left operand against row t of the right. -/
theorem matmul_gru_apply {φ₁ φ₂ : FTy} (x : FVec Ideal S512x256 φ₁) (y : FVec Ideal S768x256 φ₂) (b : Fin 512) (t : Fin 768) :
    matmul dot_S512x256_S768x256_S512x768_1_1_0_0_n_n none x y (constant S512x768 .f32 0x00000000#32) (ix2 b t)
      = ∑ k : Fin 256, x (ix2 b k) * y (ix2 t k) := by
  simp only [matmul]
  rw [Ideal.matmul_constant_zero_apply, ← Equiv.sum_comp (contrEquiv1 dot_S512x256_S768x256_S512x768_1_1_0_0_n_n 256 rfl rfl).symm]
  refine Finset.sum_congr rfl fun k _ => ?_
  have hk := contrEquiv1_symm_val dot_S512x256_S768x256_S512x768_1_1_0_0_n_n 256 rfl rfl k
  have el : dot_S512x256_S768x256_S512x768_1_1_0_0_n_n.lhsIdx (ix2 b t) ((contrEquiv1 dot_S512x256_S768x256_S512x768_1_1_0_0_n_n 256 rfl rfl).symm k) = ix2 b k := funext fun a => Fin.ext (by
    match a with
    | ⟨0, _⟩ => exact lhs_gru_0 _ _
    | ⟨1, _⟩ => exact (lhs_gru_1 _ _).trans hk)
  have er : dot_S512x256_S768x256_S512x768_1_1_0_0_n_n.rhsIdx (ix2 b t) ((contrEquiv1 dot_S512x256_S768x256_S512x768_1_1_0_0_n_n 256 rfl rfl).symm k) = ix2 t k := funext fun a => Fin.ext (by
    match a with
    | ⟨0, _⟩ => exact rhs_gru_0 _ _
    | ⟨1, _⟩ => exact (rhs_gru_1 _ _).trans hk)
  rw [el, er]

/-! ## The two 512 × 768 gate arrays of the step -/

/-- The input side: the transposed table columns plus the input bias row. -/
def xside (v2 : Vec Ideal S768x512 .f32) (v5 : Vec Ideal S1x768 .f32) : FVec Ideal S512x768 .f32 :=
  addf (transpose S512x768 [1, 0] (shapeCast S768x512 v2 shapeCasts_S768x512_S768x512) transposes_S768x512_p1_0_S512x768)
    (broadcastTo S512x768 (shapeCast S1x768 v5 shapeCasts_S1x768_S1x768) broadcasts_S1x768_S512x768)

/-- The hidden side: the state against the hidden weights plus the hidden bias row. -/
def hside (v0 : Vec Ideal S512x256 .f32) (v10 : Vec Ideal S768x256 .f32) (v13 : Vec Ideal S1x768 .f32) : FVec Ideal S512x768 .f32 :=
  addf (matmul (F := Ideal) dot_S512x256_S768x256_S512x768_1_1_0_0_n_n none
      (truncf .bf16 (shapeCast S512x256 v0 shapeCasts_S512x256_S512x256) bitsLt_bf16_f32)
      (truncf .bf16 v10 bitsLt_bf16_f32) (constant S512x768 .f32 0x00000000#32))
    (broadcastTo S512x768 (shapeCast S1x768 v13 shapeCasts_S1x768_S1x768) broadcasts_S1x768_S512x768)

/-- The input side at (b, t): the operand read transposed, plus the bias at t. -/
theorem xside_apply (v2 : Vec Ideal S768x512 .f32) (v5 : Vec Ideal S1x768 .f32) (b : Fin 512) (t : Fin 768) :
    xside v2 v5 (ix2 b t) = v2 (ix2 t b) + v5 (ix2 (0 : Fin 1) t) := by
  unfold xside
  rw [addf_apply, transpose_ix2_apply, broadcastTo_1b_ab_apply, shapeCast_self, shapeCast_self]

/-- The hidden side at (b, t): row b of the state against row t of the weights, plus the bias at t. -/
theorem hside_apply (v0 : Vec Ideal S512x256 .f32) (v10 : Vec Ideal S768x256 .f32) (v13 : Vec Ideal S1x768 .f32) (b : Fin 512) (t : Fin 768) :
    hside v0 v10 v13 (ix2 b t) = (∑ k : Fin 256, v0 (ix2 b k) * v10 (ix2 t k)) + v13 (ix2 (0 : Fin 1) t) := by
  unfold hside
  rw [addf_apply, matmul_gru_apply, broadcastTo_1b_ab_apply, shapeCast_self, shapeCast_self]
  rfl

/-! ## The three column blocks of a gate array -/

/-- Columns 0 … 255: the reset gate's. -/
theorem slice_r (X : FVec Ideal S512x768 .f32) (b : Fin 512) (h : Fin 256) :
    extractStridedSlice S512x256 ![0, 0] X slices_S512x768_o0_0_S512x256 (ix2 b h) = X (ix2 b (Cert.Spec.gr h)) :=
  slice2_axis1_apply 0 X slices_S512x768_o0_0_S512x256 b h (Cert.Spec.gr h) (Nat.zero_add _).symm
/-- Columns 256 … 511: the update gate's. -/
theorem slice_z (X : FVec Ideal S512x768 .f32) (b : Fin 512) (h : Fin 256) :
    extractStridedSlice S512x256 ![0, 256] X slices_S512x768_o0_256_S512x256 (ix2 b h) = X (ix2 b (Cert.Spec.gz h)) :=
  slice2_axis1_apply 256 X slices_S512x768_o0_256_S512x256 b h (Cert.Spec.gz h) rfl
/-- Columns 512 … 767: the candidate's. -/
theorem slice_n (X : FVec Ideal S512x768 .f32) (b : Fin 512) (h : Fin 256) :
    extractStridedSlice S512x256 ![0, 512] X slices_S512x768_o0_512_S512x256 (ix2 b h) = X (ix2 b (Cert.Spec.gn h)) :=
  slice2_axis1_apply 512 X slices_S512x768_o0_512_S512x256 b h (Cert.Spec.gn h) rfl

/-- The step's body at (b, h): the gated combination of the candidate and the old state, from the two gate arrays
    read at the three gate columns of h. Every operation between the gate arrays and the result acts element by element. -/
theorem gru_pay_apply (v0 : Vec Ideal S512x256 .f32) (v2 : Vec Ideal S768x512 .f32) (v5 : Vec Ideal S1x768 .f32) (v10 : Vec Ideal S768x256 .f32) (v13 : Vec Ideal S1x768 .f32) (b : Fin 512) (h : Fin 256) :
    k0_pay1 (F := Ideal) v0 v2 v5 v10 v13 (ix2 b h)
      = Cert.Spec.hnew (fun b t => v2 (ix2 t b) + v5 (ix2 (0 : Fin 1) t))
          (fun b t => (∑ k : Fin 256, v0 (ix2 b k) * v10 (ix2 t k)) + v13 (ix2 (0 : Fin 1) t))
          (fun b k => v0 (ix2 b k)) b h := by
  have e : k0_pay1 (F := Ideal) v0 v2 v5 v10 v13 (ix2 b h)
      = (Cert.Spec.one32
            - Ideal.logistic (extractStridedSlice S512x256 ![0, 256] (xside v2 v5) slices_S512x768_o0_256_S512x256 (ix2 b h)
                + extractStridedSlice S512x256 ![0, 256] (hside v0 v10 v13) slices_S512x768_o0_256_S512x256 (ix2 b h)))
          * Ideal.tanh (extractStridedSlice S512x256 ![0, 512] (xside v2 v5) slices_S512x768_o0_512_S512x256 (ix2 b h)
              + Ideal.logistic (extractStridedSlice S512x256 ![0, 0] (xside v2 v5) slices_S512x768_o0_0_S512x256 (ix2 b h)
                  + extractStridedSlice S512x256 ![0, 0] (hside v0 v10 v13) slices_S512x768_o0_0_S512x256 (ix2 b h))
                * extractStridedSlice S512x256 ![0, 512] (hside v0 v10 v13) slices_S512x768_o0_512_S512x256 (ix2 b h))
        + Ideal.logistic (extractStridedSlice S512x256 ![0, 256] (xside v2 v5) slices_S512x768_o0_256_S512x256 (ix2 b h)
                + extractStridedSlice S512x256 ![0, 256] (hside v0 v10 v13) slices_S512x768_o0_256_S512x256 (ix2 b h))
          * shapeCast S512x256 v0 shapeCasts_S512x256_S512x256 (ix2 b h) := rfl
  rw [e, slice_r, slice_r, slice_z, slice_z, slice_n, slice_n, shapeCast_self,
    xside_apply, xside_apply, xside_apply, hside_apply, hside_apply, hside_apply]
  rfl

end Cert.KernelIdeal.PayValue

end
-- ==== Proof.FinalLogit.lean ====
/-
  The read-out region's result array in closed form over the extended reals.

  The body's one whole store leaves the payload in the staging buffer; read at column j it is tanh of a row of the
  state against row j of the staged weight rows plus lane j of the staged bias. The result's window, the weight
  rows' window and the bias's window are cut alike along the vocabulary axis, so a column the write-back keeps is a
  row and a lane the fetches moved: there the staged words are the arrays' own, whatever filled the buffers past the
  arrays' end. The sixteen blocks of 3200 columns (the last holding 2000) cover the array's 50000 columns.
-/
import proofs.«419960_j59219009077899_3_alg».proof.Proof.Data1
import proofs.«419960_j59219009077899_3_alg».proof.Proof.PayValue
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Cert.KernelIdeal.PayValue

/-! ## The store is the payload -/

/-- The pair of zero offsets, spelt as the constant function. -/
theorem hz2 : (![0, 0] : Fin 2 → Nat) = fun _ => 0 := funext fun a => by fin_cases a <;> rfl

/-- One whole store at offset zero over whole loads at offset zero: the buffer holds the payload of the buffers. -/
theorem outLin_eq {F : FTy → Type} [FloatOps F] (h : Vec F S512x256 .f32) (w : Vec F S3200x256 .f32) (bo : Vec F S1x3200 .f32) :
    outLin h w bo = k1_pay1 h w bo := by
  unfold outLin
  rw [View.canon_unit_zero hz2]
  simp only [View.ld_unit_zero (S := S512x256) hz2, View.ld_unit_zero (S := S3200x256) hz2, View.ld_unit_zero (S := S1x3200) hz2]

/-! ## A column of the payload reads one weight row and one bias lane -/

/-- The payload at (p, q) is the same over two weight buffers that agree on row q and two bias buffers that agree
    at lane q: by the closed form, no other word of either is read. -/
theorem pay_col (h : Vec Ideal S512x256 .f32) (w w' : Vec Ideal S3200x256 .f32) (b b' : Vec Ideal S1x3200 .f32)
    (p : Fin 512) (q : Fin 3200) (hw : ∀ k : Fin 256, w (ix2 q k) = w' (ix2 q k))
    (hb : b (ix2 (0 : Fin 1) q) = b' (ix2 (0 : Fin 1) q)) :
    k1_pay1 (F := Ideal) h w b (ix2 p q) = k1_pay1 (F := Ideal) h w' b' (ix2 p q) := by
  rw [lin_pay_apply, lin_pay_apply, hb]
  simp only [hw]

/-- The same at any index y of the buffer, the row and lane named by y's column coordinate. -/
theorem pay_col_idx (h : Vec Ideal S512x256 .f32) (w w' : Vec Ideal S3200x256 .f32) (b b' : Vec Ideal S1x3200 .f32)
    (y : S512x3200.Idx)
    (hw : ∀ k : Fin 256, w (ix2 (⟨(y 1).val, (y 1).isLt⟩ : Fin 3200) k) = w' (ix2 (⟨(y 1).val, (y 1).isLt⟩ : Fin 3200) k))
    (hb : b (ix2 (0 : Fin 1) (⟨(y 1).val, (y 1).isLt⟩ : Fin 3200)) = b' (ix2 (0 : Fin 1) (⟨(y 1).val, (y 1).isLt⟩ : Fin 3200))) :
    k1_pay1 (F := Ideal) h w b y = k1_pay1 (F := Ideal) h w' b' y := by
  obtain ⟨p, q, rfl⟩ : ∃ (p : Fin 512) (q : Fin 3200), y = ix2 p q := ⟨y 0, y 1, eq_ix2 y⟩
  exact pay_col h w w' b b' p q hw hb

/-- At an index the fetch moved, a filled buffer holds the fetched block whatever it held before. -/
theorem fill_moved {G : Pipeline.Grid} {α : Type} (w : Window sig G) (i : G.Coords) (d d' : w.block.Idx → α)
    (g : (w.xblock i).Idx → α) (j : w.block.Idx) (h : w.moved i j = true) : w.fill i d g j = w.fill i d' g j := by
  unfold Window.fill
  rw [dif_pos h, dif_pos h]

/-- The three cut windows cut alike along the vocabulary axis at each of the sixteen points: the weight window keeps
    as many rows, and the bias window as many lanes, as the result's window keeps columns; the other axes are whole. -/
theorem xs_facts : ∀ t : Fin cfg1.N,
    win1_1.xsize (grid1.coords t) (0 : Fin 2) = win1_3.xsize (grid1.coords t) (1 : Fin 2)
    ∧ win1_1.xsize (grid1.coords t) (1 : Fin 2) = 256
    ∧ win1_2.xsize (grid1.coords t) (0 : Fin 2) = 1
    ∧ win1_2.xsize (grid1.coords t) (1 : Fin 2) = win1_3.xsize (grid1.coords t) (1 : Fin 2) :=
  (by decide +kernel : ∀ t : Fin grid1.N, _)

/-- The columns of the store that the result's write-back keeps do not depend on what the weight and bias buffers
    held past the arrays' end: such a column is a moved row of the one and a moved lane of the other. -/
theorem edge (V : (c : Dev nD) → (b : Ref sig .tc) → Buf (Elt Ideal) ((c : Thread nD τ).loc b)) (c : Dev nD) (t : Fin cfg1.N)
    (d1 : S3200x256.Idx → Elt Ideal .f32) (d2 : S1x3200.Idx → Elt Ideal .f32) :
    win1_3.cut (grid1.coords t) (outLin (iblk1 V c 0 t) (win1_1.fill (grid1.coords t) d1 (iblk1 V c 1 t)) (win1_2.fill (grid1.coords t) d2 (iblk1 V c 2 t)))
      = win1_3.cut (grid1.coords t) (outLin (iblk1 V c 0 t) (wfill V c t) (bfill V c t)) := by
  funext j
  show outLin _ _ _ (win1_3.xinj (grid1.coords t) j) = outLin _ _ _ (win1_3.xinj (grid1.coords t) j)
  rw [outLin_eq, outLin_eq]
  obtain ⟨e1, e2, e3, e4⟩ := xs_facts t
  have hj : (j (1 : Fin 2)).val < win1_3.xsize (grid1.coords t) (1 : Fin 2) := (j (1 : Fin 2)).isLt
  refine pay_col_idx _ _ _ _ _ (win1_3.xinj (grid1.coords t) j) (fun k => ?_) ?_
  · refine fill_moved win1_1 _ _ _ _ _ ((win1_1.moved_iff _ _).mpr ?_)
    intro a
    match a with
    | ⟨0, _⟩ => show (j (1 : Fin 2)).val < win1_1.xsize (grid1.coords t) (0 : Fin 2); omega
    | ⟨1, _⟩ => show k.val < win1_1.xsize (grid1.coords t) (1 : Fin 2); have := k.isLt; omega
  · refine fill_moved win1_2 _ _ _ _ _ ((win1_2.moved_iff _ _).mpr ?_)
    intro a
    match a with
    | ⟨0, _⟩ => show (0 : Nat) < win1_2.xsize (grid1.coords t) (0 : Fin 2); omega
    | ⟨1, _⟩ => show (j (1 : Fin 2)).val < win1_2.xsize (grid1.coords t) (1 : Fin 2); omega

/-! ## The staged buffers read at the array's words -/

/-- At an index every coordinate of which the fetch moved, a filled buffer holds the fetched block there. -/
theorem fill_at_moved {G : Pipeline.Grid} {α : Type} (w : Window sig G) (i : G.Coords) (d : w.block.Idx → α)
    (g : (w.xblock i).Idx → α) (j : w.block.Idx) (h : ∀ a, (j a).val < w.xsize i a) :
    w.fill i d g j = g (fun a => ⟨(j a).val, h a⟩) := by
  unfold Window.fill
  rw [dif_pos ((w.moved_iff i j).mpr h)]

/-- The index maps over the sixteen points: the state's block is the whole array at block index zero; the weight
    rows', the bias's and the result's blocks step along the vocabulary axis with the point; the result's block keeps
    all 512 rows and the columns of its 3200 that lie below the array's 50000. -/
theorem ix_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_3.xsize (grid1.coords t) (0 : Fin 2) = 512
    ∧ win1_3.xsize (grid1.coords t) (1 : Fin 2) = min 3200 (50000 - t.val * 3200) :=
  (by decide +kernel : ∀ t : Fin grid1.N, _)

variable (V : (c : Dev nD) → (b : Ref sig .tc) → Buf (Elt Ideal) ((c : Thread nD τ).loc b))

/-- The state's block is the state array: word (p, k) of the one is word (p, k) of the other. -/
theorem state_read (c : Dev nD) (t : Fin cfg1.N) (p i0 : Fin 512) (k : Fin 256) (h : i0.val = p.val) :
    iblk1 V c 0 t (ix2 p k) = (V c main_v5 : Vec Ideal S512x256 .f32) (ix2 i0 k) := by
  obtain ⟨e0, e1, -⟩ := ix_facts t
  show (V c main_v5 : Vec Ideal S512x256 .f32) (((cfg1.win 0).blk t).view.emb (ix2 p k)) = _
  refine congrArg _ (funext fun a => Fin.ext ?_)
  match a with
  | ⟨0, _⟩ => show win1_0.index t (0 : Fin 2) * 512 + 1 * p.val = i0.val; omega
  | ⟨1, _⟩ => show win1_0.index t (1 : Fin 2) * 256 + 1 * k.val = k.val; omega

/-- A row q of the weight buffer that the fetch at point t moved holds row t·3200 + q of the weight array. -/
theorem wfill_read (c : Dev nD) (t : Fin cfg1.N) (q : Fin 3200) (k : Fin 256) (i1 : Fin 50000)
    (hq : q.val < win1_3.xsize (grid1.coords t) (1 : Fin 2)) (hi : i1.val = t.val * 3200 + q.val) :
    wfill V c t (ix2 q k) = (V c main_arg7 : Vec Ideal S50000x256 .f32) (ix2 i1 k) := by
  obtain ⟨x1, x2, x3, x4⟩ := xs_facts t
  obtain ⟨-, -, e2, e3, -⟩ := ix_facts t
  have hm : ∀ a, ((ix2 q k : win1_1.block.Idx) a).val < win1_1.xsize (grid1.coords t) a := by
    intro a
    match a with
    | ⟨0, _⟩ => show q.val < win1_1.xsize (grid1.coords t) (0 : Fin 2); omega
    | ⟨1, _⟩ => show k.val < win1_1.xsize (grid1.coords t) (1 : Fin 2); have := k.isLt; omega
  refine (fill_at_moved win1_1 (grid1.coords t) _ _ (ix2 q k) hm).trans ?_
  show (V c main_arg7 : Vec Ideal S50000x256 .f32) (((cfg1.win 1).blk t).view.emb (fun a => ⟨((ix2 q k : win1_1.block.Idx) a).val, hm a⟩)) = _
  refine congrArg _ (funext fun a => Fin.ext ?_)
  match a with
  | ⟨0, _⟩ => show win1_1.index t (0 : Fin 2) * 3200 + 1 * q.val = i1.val; omega
  | ⟨1, _⟩ => show win1_1.index t (1 : Fin 2) * 256 + 1 * k.val = k.val; omega

/-- A lane q of the bias buffer that the fetch at point t moved holds lane t·3200 + q of the bias array. -/
theorem bfill_read (c : Dev nD) (t : Fin cfg1.N) (q : Fin 3200) (i1 : Fin 50000)
    (hq : q.val < win1_3.xsize (grid1.coords t) (1 : Fin 2)) (hi : i1.val = t.val * 3200 + q.val) :
    bfill V c t (ix2 (0 : Fin 1) q) = (V c main_v4 : Vec Ideal S1x50000 .f32) (ix2 (0 : Fin 1) i1) := by
  obtain ⟨x1, x2, x3, x4⟩ := xs_facts t
  obtain ⟨-, -, -, -, e4, e5, -⟩ := ix_facts t
  have hm : ∀ a, ((ix2 (0 : Fin 1) q : win1_2.block.Idx) a).val < win1_2.xsize (grid1.coords t) a := by
    intro a
    match a with
    | ⟨0, _⟩ => show (0 : Nat) < win1_2.xsize (grid1.coords t) (0 : Fin 2); omega
    | ⟨1, _⟩ => show q.val < win1_2.xsize (grid1.coords t) (1 : Fin 2); omega
  refine (fill_at_moved win1_2 (grid1.coords t) _ _ (ix2 (0 : Fin 1) q) hm).trans ?_
  show (V c main_v4 : Vec Ideal S1x50000 .f32) (((cfg1.win 2).blk t).view.emb (fun a => ⟨((ix2 (0 : Fin 1) q : win1_2.block.Idx) a).val, hm a⟩)) = _
  refine congrArg _ (funext fun a => Fin.ext ?_)
  match a with
  | ⟨0, _⟩ => show win1_2.index t (0 : Fin 2) * 1 + 1 * 0 = 0; omega
  | ⟨1, _⟩ => show win1_2.index t (1 : Fin 2) * 3200 + 1 * q.val = i1.val; omega

/-! ## The closed form -/

/-- The payload at (p, q) over buffers whose row p, row q and lane q hold row i0 of a state array, row i1 of a weight
    array and lane i1 of a bias array: tanh of the one row against the other plus the lane. -/
theorem pay_closed (h : Vec Ideal S512x256 .f32) (w : Vec Ideal S3200x256 .f32) (b : Vec Ideal S1x3200 .f32)
    (A5 : Vec Ideal S512x256 .f32) (A7 : Vec Ideal S50000x256 .f32) (A4 : Vec Ideal S1x50000 .f32)
    (p i0 : Fin 512) (q : Fin 3200) (i1 : Fin 50000)
    (hh : ∀ k : Fin 256, h (ix2 p k) = A5 (ix2 i0 k)) (hw : ∀ k : Fin 256, w (ix2 q k) = A7 (ix2 i1 k))
    (hb : b (ix2 (0 : Fin 1) q) = A4 (ix2 (0 : Fin 1) i1)) :
    k1_pay1 (F := Ideal) h w b (ix2 p q)
      = Ideal.tanh ((∑ k : Fin 256, A5 (ix2 i0 k) * A7 (ix2 i1 k)) + A4 (ix2 (0 : Fin 1) i1)) := by
  rw [lin_pay_apply, hb]
  simp only [hh, hw]

/-- The read-out of a state array A5, a weight array A7 and a bias array A4: at (b, v), tanh of row b of the state
    against row v of the weights plus the bias at v. -/
def logitOf (A5 : Vec Ideal S512x256 .f32) (A7 : Vec Ideal S50000x256 .f32) (A4 : Vec Ideal S1x50000 .f32) :
    Vec Ideal S512x50000 .f32 := fun i =>
  Ideal.tanh ((∑ k : Fin 256, A5 (ix2 (⟨(i 0).val, (i 0).isLt⟩ : Fin 512) k) * A7 (ix2 (⟨(i 1).val, (i 1).isLt⟩ : Fin 50000) k))
    + A4 (ix2 (0 : Fin 1) (⟨(i 1).val, (i 1).isLt⟩ : Fin 50000)))

/-- The read-out at an index given by its two coordinates. -/
theorem logitOf_apply (A5 : Vec Ideal S512x256 .f32) (A7 : Vec Ideal S50000x256 .f32) (A4 : Vec Ideal S1x50000 .f32)
    (b : Fin 512) (v : Fin 50000) :
    logitOf A5 A7 A4 (ix2 b v) = Ideal.tanh ((∑ k : Fin 256, A5 (ix2 b k) * A7 (ix2 v k)) + A4 (ix2 (0 : Fin 1) v)) := rfl

/-- The result array the region leaves: the read-out of the state array, the weight array and the bias array as the
    region finds them. -/
def logitArr (c : Dev nD) : Buf (Elt Ideal) ((c : Thread nD τ).loc main_v6) :=
  logitOf (V c main_v5) (V c main_arg7) (V c main_v4)

/-- What point t writes back is block t of the closed form: the kept part of the store, each column of which reads
    the state array, one moved row of the weight buffer and one moved lane of the bias buffer, which hold the arrays'
    words at the block's offset t·3200 along the vocabulary axis. -/
theorem flushed_eq (c : Dev nD) (t : Fin cfg1.N) :
    (dat1 (F := Ideal) V c).flushed 3 t = ((cfg1.win 3).blk t).view.read (Elt Ideal) (logitArr V c) := by
  show (cfg1.win 3).cut (grid1.coords t) ((dat1 (F := Ideal) V c).after 3 t) = _
  rw [after1_3, outLin_eq]
  obtain ⟨-, -, -, -, -, -, e6, e7, s0, s1⟩ := ix_facts t
  funext j
  have hj0 : (j (0 : Fin 2)).val < win1_3.xsize (grid1.coords t) (0 : Fin 2) := (j (0 : Fin 2)).isLt
  have hj1 : (j (1 : Fin 2)).val < win1_3.xsize (grid1.coords t) (1 : Fin 2) := (j (1 : Fin 2)).isLt
  have ht : t.val < 16 := t.isLt
  have hp : (j (0 : Fin 2)).val < 512 := by omega
  have hq : (j (1 : Fin 2)).val < 3200 := by omega
  have hi1 : t.val * 3200 + (j (1 : Fin 2)).val < 50000 := by omega
  have ey : win1_3.xinj (grid1.coords t) j
      = ix2 (⟨(j (0 : Fin 2)).val, hp⟩ : Fin 512) (⟨(j (1 : Fin 2)).val, hq⟩ : Fin 3200) :=
    funext fun a => match a with | ⟨0, _⟩ => rfl | ⟨1, _⟩ => rfl
  have ei : ((cfg1.win 3).blk t).view.emb j
      = ix2 (⟨(j (0 : Fin 2)).val, hp⟩ : Fin 512) (⟨t.val * 3200 + (j (1 : Fin 2)).val, hi1⟩ : Fin 50000) :=
    funext fun a => Fin.ext (by
      match a with
      | ⟨0, _⟩ => show win1_3.index t (0 : Fin 2) * 512 + 1 * (j (0 : Fin 2)).val = (j (0 : Fin 2)).val; omega
      | ⟨1, _⟩ => show win1_3.index t (1 : Fin 2) * 3200 + 1 * (j (1 : Fin 2)).val = t.val * 3200 + (j (1 : Fin 2)).val; omega)
  show k1_pay1 (F := Ideal) (iblk1 V c 0 t) (wfill V c t) (bfill V c t) (win1_3.xinj (grid1.coords t) j)
    = logitArr V c (((cfg1.win 3).blk t).view.emb j)
  rw [ey, ei]
  unfold logitArr
  rw [logitOf_apply]
  exact pay_closed _ _ _ _ _ _ ⟨_, hp⟩ ⟨_, hp⟩ ⟨_, hq⟩ ⟨_, hi1⟩ (fun k => state_read V c t ⟨_, hp⟩ ⟨_, hp⟩ k rfl)
    (fun k => wfill_read V c t ⟨_, hq⟩ k ⟨_, hi1⟩ hj1 rfl) (bfill_read V c t ⟨_, hq⟩ ⟨_, hi1⟩ hj1 rfl)

/-! ## The sixteen blocks cover the array -/

/-- An index of the array is in point t's block iff each coordinate is in the block's kept range on its axis. -/
theorem mem_blk3 (t : Fin cfg1.N) (i : S512x50000.Idx) :
    i ∈ ((cfg1.win 3).blk t).view.set ↔ ∀ a : Fin 2, win1_3.index t a * S512x3200.size a ≤ (i a).val
      ∧ (i a).val < win1_3.index t a * S512x3200.size a + win1_3.xsize (grid1.coords t) a := by
  show i ∈ ((View.whole main_v6).slice (win1_3.rect t)).set ↔ _
  rw [View.set_slice_whole, Rect.mem_set_unit]
  exact Iff.rfl

/-- Column v of the array lies in the block of point v / 3200, and every point writes its block back. -/
theorem cover3 (i : S512x50000.Idx) :
    ∃ t : Fin cfg1.N, (cfg1.win 3).flush t = true ∧ i ∈ ((cfg1.win 3).blk t).view.set := by
  have h0 : (i 0).val < 512 := idx2_lt0 i
  have h1 : (i 1).val < 50000 := idx2_lt1 i
  have hn : (i 1).val / 3200 < 16 := by omega
  obtain ⟨t, tv⟩ : ∃ t : Fin cfg1.N, t.val = (i 1).val / 3200 := ⟨⟨(i 1).val / 3200, hn⟩, rfl⟩
  refine ⟨t, flush1_3 t, ?_⟩
  rw [mem_blk3]
  obtain ⟨-, -, -, -, -, -, e6, e7, s0, s1⟩ := ix_facts t
  intro a
  match a with
  | ⟨0, _⟩ =>
    show win1_3.index t (0 : Fin 2) * 512 ≤ (i 0).val
      ∧ (i 0).val < win1_3.index t (0 : Fin 2) * 512 + win1_3.xsize (grid1.coords t) (0 : Fin 2)
    omega
  | ⟨1, _⟩ =>
    show win1_3.index t (1 : Fin 2) * 3200 ≤ (i 1).val
      ∧ (i 1).val < win1_3.index t (1 : Fin 2) * 3200 + win1_3.xsize (grid1.coords t) (1 : Fin 2)
    omega

/-- The result array after the region's sixteen write-backs is the closed form, everywhere. -/
theorem final_logit (c : Dev nD) : (dat1 (F := Ideal) V c).arrAt 3 cfg1.N = logitArr V c :=
  (dat1 (F := Ideal) V c).arrAt_eq_of_cover 3 (logitArr V c) (fun t _ => flushed_eq V c t) cover3

end Cert.KernelIdeal.Hand

end
-- ==== Proof.FinalState.lean ====
/-
  The recurrent-step region's result array in closed form over the extended reals.

  The region's grid has one point and every window is its whole array. So each input block is its array, the body's one
  whole store is the step's arithmetic of those arrays, and the one write-back leaves the result array holding, at
  (b, h), the new hidden state computed from the arrays the region was entered with.
-/
import proofs.«419960_j59219009077899_3_alg».proof.Proof.Data0
import proofs.«419960_j59219009077899_3_alg».proof.Proof.PayValue
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The body's one store is its payload -/

/-- The two zero offsets, as the constant function. -/
theorem hz00 : (![0, 0] : Fin 2 → Nat) = fun _ => 0 := funext fun a => by fin_cases a <;> rfl

/-- One whole store at offset zero over whole loads at offset zero: the output buffer holds the payload of the input
    buffers' contents. -/
theorem outStep_eq {F : FTy → Type} [FloatOps F] (x : Vec F S768x512 .f32) (h : Vec F S512x256 .f32) (w : Vec F S768x256 .f32) (bi bh : Vec F S1x768 .f32) :
    outStep x h w bi bh = k0_pay1 h x bi w bh := by
  unfold outStep
  rw [View.canon_unit_zero hz00]
  simp only [View.ld_unit_zero (S := S512x256) hz00, View.ld_unit_zero (S := S768x512) hz00,
    View.ld_unit_zero (S := S768x256) hz00, View.ld_unit_zero (S := S1x768) hz00]

/-! ## Each input block is its array -/

section Blocks

variable {F : FTy → Type} [FloatOps F]
variable (V : (c : Dev nD) → (b : Ref sig .tc) → Buf (Elt F) ((c : Thread nD τ).loc b))

/-- Every window's block index is zero on both axes at the grid's one point. -/
theorem idx0_all : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Window 0 (the gathered embedding columns) is uncut and sits at block index zero: its block is the array. -/
theorem iblk0_eq_0 (c : Dev nD) (t : Fin cfg0.N) : iblk0 V c 0 t = V c main_v1 := by
  funext y
  show V c main_v1 (((cfg0.win 0).blk t).view.emb y) = V c main_v1 y
  refine congrArg _ ?_
  funext a; apply Fin.ext
  have e := (idx0_all t).1
  match a with
  | ⟨0, _⟩ => show win0_0.index t (0 : Fin 2) * 768 + 1 * (y 0).val = (y 0).val; omega
  | ⟨1, _⟩ => show win0_0.index t (1 : Fin 2) * 512 + 1 * (y 1).val = (y 1).val; omega

/-- Window 1 (the old state) is uncut and sits at block index zero: its block is the array. -/
theorem iblk0_eq_1 (c : Dev nD) (t : Fin cfg0.N) : iblk0 V c 1 t = V c main_v0 := by
  funext y
  show V c main_v0 (((cfg0.win 1).blk t).view.emb y) = V c main_v0 y
  refine congrArg _ ?_
  funext a; apply Fin.ext
  have e := (idx0_all t).2.1
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- Window 2 (the hidden weights) is uncut and sits at block index zero: its block is the array. -/
theorem iblk0_eq_2 (c : Dev nD) (t : Fin cfg0.N) : iblk0 V c 2 t = V c main_arg4 := by
  funext y
  show V c main_arg4 (((cfg0.win 2).blk t).view.emb y) = V c main_arg4 y
  refine congrArg _ ?_
  funext a; apply Fin.ext
  have e := (idx0_all t).2.2.1
  match a with
  | ⟨0, _⟩ => show win0_2.index t (0 : Fin 2) * 768 + 1 * (y 0).val = (y 0).val; omega
  | ⟨1, _⟩ => show win0_2.index t (1 : Fin 2) * 256 + 1 * (y 1).val = (y 1).val; omega

/-- Window 3 (the input bias row) is uncut and sits at block index zero: its block is the array. -/
theorem iblk0_eq_3 (c : Dev nD) (t : Fin cfg0.N) : iblk0 V c 3 t = V c main_v2 := by
  funext y
  show V c main_v2 (((cfg0.win 3).blk t).view.emb y) = V c main_v2 y
  refine congrArg _ ?_
  funext a; apply Fin.ext
  have e := (idx0_all t).2.2.2.1
  match a with
  | ⟨0, _⟩ => show win0_3.index t (0 : Fin 2) * 1 + 1 * (y 0).val = (y 0).val; omega
  | ⟨1, _⟩ => show win0_3.index t (1 : Fin 2) * 768 + 1 * (y 1).val = (y 1).val; omega

/-- Window 4 (the hidden bias row) is uncut and sits at block index zero: its block is the array. -/
theorem iblk0_eq_4 (c : Dev nD) (t : Fin cfg0.N) : iblk0 V c 4 t = V c main_v3 := by
  funext y
  show V c main_v3 (((cfg0.win 4).blk t).view.emb y) = V c main_v3 y
  refine congrArg _ ?_
  funext a; apply Fin.ext
  have e := (idx0_all t).2.2.2.2.1
  match a with
  | ⟨0, _⟩ => show win0_4.index t (0 : Fin 2) * 1 + 1 * (y 0).val = (y 0).val; omega
  | ⟨1, _⟩ => show win0_4.index t (1 : Fin 2) * 768 + 1 * (y 1).val = (y 1).val; omega

end Blocks

/-! ## The result array after the region -/

section Final

variable (V : (c : Dev nD) → (b : Ref sig .tc) → Buf (Elt Ideal) ((c : Thread nD τ).loc b))

/-- The new hidden state from the arrays the region is entered with, as the contents of the result array. -/
def stateArr (c : Dev nD) : Buf (Elt Ideal) ((c : Thread nD τ).loc main_v5) := fun (i : S512x256.Idx) =>
  Cert.Spec.hnew (fun b t => @HAdd.hAdd EReal EReal EReal _ (V c main_v1 (ix2 t b)) (V c main_v2 (ix2 (0 : Fin 1) t)))
    (fun b t => @HAdd.hAdd EReal EReal EReal _ (∑ k : Fin 256, @HMul.hMul EReal EReal EReal _ (V c main_v0 (ix2 b k)) (V c main_arg4 (ix2 t k)))
      (V c main_v3 (ix2 (0 : Fin 1) t)))
    (fun b k => V c main_v0 (ix2 b k)) ⟨(i 0).val, (i 0).isLt⟩ ⟨(i 1).val, (i 1).isLt⟩

/-- The closed-form array at (b, h). -/
theorem stateArr_apply (c : Dev nD) (b : Fin 512) (h : Fin 256) :
    stateArr V c (ix2 b h)
      = Cert.Spec.hnew (fun b t => @HAdd.hAdd EReal EReal EReal _ (V c main_v1 (ix2 t b)) (V c main_v2 (ix2 (0 : Fin 1) t)))
          (fun b t => @HAdd.hAdd EReal EReal EReal _ (∑ k : Fin 256, @HMul.hMul EReal EReal EReal _ (V c main_v0 (ix2 b k)) (V c main_arg4 (ix2 t k)))
            (V c main_v3 (ix2 (0 : Fin 1) t)))
          (fun b k => V c main_v0 (ix2 b k)) b h := rfl

/-- The body's payload at any index of its block, over variables: the new hidden state at the index's two coordinates. -/
theorem pay_point (v0 : Vec Ideal S512x256 .f32) (v2 : Vec Ideal S768x512 .f32) (v5 : Vec Ideal S1x768 .f32)
    (v10 : Vec Ideal S768x256 .f32) (v13 : Vec Ideal S1x768 .f32) (j : S512x256.Idx) :
    k0_pay1 (F := Ideal) v0 v2 v5 v10 v13 j
      = Cert.Spec.hnew (fun b t => v2 (ix2 t b) + v5 (ix2 (0 : Fin 1) t))
          (fun b t => (∑ k : Fin 256, v0 (ix2 b k) * v10 (ix2 t k)) + v13 (ix2 (0 : Fin 1) t))
          (fun b k => v0 (ix2 b k)) ⟨(j 0).val, (j 0).isLt⟩ ⟨(j 1).val, (j 1).isLt⟩ := by
  obtain ⟨p, q, rfl⟩ : ∃ (p : Fin 512) (q : Fin 256), j = ix2 p q := ⟨j 0, j 1, eq_ix2 j⟩
  exact PayValue.gru_pay_apply v0 v2 v5 v10 v13 p q

/-- The result window is uncut and sits at block index zero: an index of its block is the same index of the array. -/
theorem emb0_5 (t : Fin cfg0.N) (y : S512x256.Idx) : ((cfg0.win 5).blk t).view.emb y = y := by
  funext a; apply Fin.ext
  have e := (idx0_all t).2.2.2.2.2
  match a with
  | ⟨0, _⟩ => show win0_5.index t (0 : Fin 2) * 512 + 1 * (y 0).val = (y 0).val; omega
  | ⟨1, _⟩ => show win0_5.index t (1 : Fin 2) * 256 + 1 * (y 1).val = (y 1).val; omega

/-- What the one point writes back is the block (the whole) of the closed-form array. -/
theorem flushed0_5_eq (c : Dev nD) (t : Fin cfg0.N) :
    (dat0 (F := Ideal) V c).flushed 5 t = ((cfg0.win 5).blk t).view.read (Elt Ideal) (stateArr V c) := by
  show (cfg0.win 5).cut (grid0.coords t) ((dat0 (F := Ideal) V c).after 5 t) = _
  rw [after0_5, outStep_eq, iblk0_eq_0, iblk0_eq_1, iblk0_eq_2, iblk0_eq_3, iblk0_eq_4]
  funext j
  show k0_pay1 (F := Ideal) (V c main_v0) (V c main_v1) (V c main_v2) (V c main_arg4) (V c main_v3) j
    = stateArr V c (((cfg0.win 5).blk t).view.emb j)
  rw [emb0_5, pay_point]
  rfl

/-- Every index of the result array is in the one point's block. -/
theorem mem_blk0_5 (t : Fin cfg0.N) (i : S512x256.Idx) : i ∈ ((cfg0.win 5).blk t).view.set := by
  show i ∈ ((View.whole main_v5).slice (win0_5.rect t)).set
  rw [View.set_slice_whole, Rect.mem_set_unit]
  intro a
  have e := (idx0_all t).2.2.2.2.2
  match a with
  | ⟨0, _⟩ =>
    show win0_5.index t (0 : Fin 2) * 512 ≤ (i 0).val ∧ (i 0).val < win0_5.index t (0 : Fin 2) * 512 + 512
    have h0 : (i 0).val < 512 := (i 0).isLt; omega
  | ⟨1, _⟩ =>
    show win0_5.index t (1 : Fin 2) * 256 ≤ (i 1).val ∧ (i 1).val < win0_5.index t (1 : Fin 2) * 256 + 256
    have h1 : (i 1).val < 256 := (i 1).isLt; omega

/-- After the region the result array holds the new hidden state of the arrays it was entered with. -/
theorem final_state (c : Dev nD) : (dat0 (F := Ideal) V c).arrAt 5 cfg0.N = stateArr V c :=
  (dat0 (F := Ideal) V c).arrAt_eq_of_cover 5 _ (fun t _ => flushed0_5_eq V c t)
    (fun i => ⟨t0_0, flush0_5 _, mem_blk0_5 t0_0 i⟩)

end Final

end Cert.KernelIdeal.Hand

end
-- ==== Proof.Tok.lean ====
/-
  The token of batch row b as a column of the embedding table: the 32-bit word of the index input, wrapped as numpy wraps a
  negative index (x + 50000 when x < 0 as a signed integer, else x), read as a signed integer and clamped into [0, 49999]
  as a gather clamps its start index. For −50000 ≤ x < 50000 the clamp is idle and this is numpy's table[:, x].
-/
import Idealize.ShloMosaic.PureOps
import Idealize.ShloMosaic.Lib.ValueIdx

noncomputable section

namespace Cert.Tok

open Idealize.ShloMosaic Idealize.ShloMosaic.ValueIdx

/-- numpy's wrap of one index word against a table of 50000 entries. -/
def wrapw (x : BitVec 32) : BitVec 32 :=
  Scalar.select (IntOp.cmpi .slt x 0#32) (IntOp.addi x 50000#32) x

/-- The table column batch row b reads. -/
def tok (inp : (⟨1, ![512]⟩ : Shape).Idx → BitVec 32) (b : Fin 512) : Fin 50000 :=
  ⟨min (wrapw (inp (ix1 b))).toInt.toNat (50000 - 1), by omega⟩

end Cert.Tok

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.TakeKernel.lean ====
/-
  The kernel program's embedding lookup, jnp.take(w_ih, input, axis = 1) in fill mode, read at one element.

  The function wraps each token word as numpy wraps a negative index (x + 50000 when x < 0, else x), lays the wrapped words
  out as a [512 × 1] column, tests each against the range 0 ≤ i ≤ 49999, and-reduces the test over the unit axis, gathers
  whole columns of the [768 × 50000] table at the column of wrapped words, and selects the gathered value where the test
  holds and the quiet-NaN word elsewhere. For −50000 ≤ x < 50000 the wrapped word lies in [0, 49999], so the test is 1
  at every row, the select keeps the gathered value, and the entry (t, b) of the result is w_ih[t, tok b].
-/
import proofs.«419960_j59219009077899_3_alg».proof.KernelIdeal
import proofs.«419960_j59219009077899_3_alg».proof.Proof.Tok
import proofs.«419960_j59219009077899_3_alg».proof.Proof.LibWrapTake
import Idealize.ShloMosaic.Lib.ValueIdx
import Idealize.ShloMosaic.Lib.Pipeline.Value
import Idealize.ShloMosaic.Lib.StableHlo.Predicate

noncomputable section

namespace Cert.KernelIdeal.TakeKernel

open Cert.KernelIdeal Idealize.ShloMosaic Idealize.SL.Sem Idealize.ShloMosaic.ValueIdx
open Cert.KernelIdeal.Facts₀

/-! ## A column take from a rank-2 table, read at an index -/

/-- THE COLUMN TAKE. A gather from a [C × N] table at an [n × 1] column of start indices, with the table's axis 1
    collapsed and start-indexed, the result's axis 0 its one offset axis (a whole column is the slice), no batching axes
    and the index vector on axis 1 of the start indices: the result's entry (k, p) is the table's entry (k, c), where the
    column c is position p's start index read signed and clamped into the table. -/
theorem gather_cols {α : Type} {N C n w : Nat} (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![n, 1]⟩ w) (k : Fin C) (p : Fin n) (hN : 0 < N) :
    Host.gather d x idx (ix2 k p) = x (ix2 k ⟨min (idx (ix2 p 0)).toInt.toNat (N - 1), by omega⟩) := by
  unfold Host.gather
  congr 1
  -- every offset axis of the result is axis 0, every batch axis is axis 1
  have hoffAll : ∀ y ∈ d.offsetDims, y = 0 := by
    intro y hy; rw [hoff] at hy; exact List.mem_singleton.1 hy
  have hbatchAll : ∀ y ∈ d.batchDims, y = 1 := by
    intro y hy
    have h1 : y ∉ d.offsetDims := by have h0 := (List.mem_filter.1 hy).2; simpa using h0
    rw [hoff] at h1
    have h2 : y ≠ 0 := fun e => h1 (List.mem_singleton.2 e)
    apply Fin.ext
    have h3 : y.val ≠ 0 := fun e => h2 (Fin.ext e)
    have := y.isLt
    show y.val = 1
    change y.val < 2 at this
    omega
  have hb : ∀ a : Fin 2, a ∉ d.operandBatchingDims := by intro a; rw [hob]; exact List.not_mem_nil
  funext a
  apply Fin.ext
  match a with
  | ⟨0, _⟩ =>
    -- axis 0: no start (it is not start-indexed), no batching; the offset coordinate is the result's row
    have hk : (0 : Fin 2) ∈ d.sKept := by rw [GatherDims.mem_sKept, hcoll]; exact ⟨by simp, hb 0⟩
    have hm : (0 : Fin 2) ∉ d.startIndexMap := by rw [hsim]; simp
    show (d.operandIdx (ix2 k p) idx 0).val = _
    simp only [GatherDims.operandIdx, GatherDims.batchCoord_eq_zero _ _ _ (hb 0), Nat.add_zero, GatherDims.start,
      dif_neg hm, Nat.zero_add, GatherDims.offCoord, dif_pos hk]
    rw [hoffAll _ (List.getElem_mem _)]
    rfl
  | ⟨1, _⟩ =>
    -- axis 1: the clamped start index; no batching and no offset coordinate
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show (d.operandIdx (ix2 k p) idx 1).val = _
    simp only [GatherDims.operandIdx, GatherDims.batchCoord_eq_zero _ _ _ (hb 1), GatherDims.offCoord_eq_zero _ _ _ hk,
      Nat.add_zero, GatherDims.start, dif_pos hm]
    show min (idx _).toInt.toNat (N - d.sliceSizes 1) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (1 : Fin 2) d.startIndexMap = 0
      rw [hsim]; simp

/-! ## The function's operations, composed -/

variable {F : FTy → Type} [FloatOps F] [Cert.KernelIdeal.Facts]

/-- %5: the wrapped token words (%0 … %4: x + 50000 where x < 0, else x) as a [512 × 1] column. -/
def startCol (inp : IVec S512 32) : IVec S512x1 32 :=
  broadcastInDim S512x1 ![0] bcast_S512_S512x1_0
    (select (cmpi .slt inp (broadcastInDim S512 ![] bcast_S_S512 (constantI S_ 32 0#32)))
      (addi inp (broadcastInDim S512 ![] bcast_S_S512 (constantI S_ 32 50000#32))) inp)

/-- %12: the range test 0 ≤ i ≤ 49999 of the column (%6 … %11), and-reduced over the unit axis from the initial value 1. -/
def rangeMask (inp : IVec S512 32) : IVec S512 1 :=
  Host.reduce IntOp.andi
    (andi (cmpi .sge (startCol inp) (broadcastInDim S512x1 ![] bcast_S_S512x1 (constantI S_ 32 0#32)))
      (cmpi .sle (startCol inp) (broadcastInDim S512x1 ![0, 1] bcast_S1x1_S512x1_0_1
        (broadcastInDim S1x1 ![1] bcast_S1_S1x1_1 (constantI S1 32 49999#32)))))
    (constantI S_ 1 1#1) reducesTo_S512x1_S512_d1 h_S_

/-- %16: the function's result, as a function of the table and of the token words. -/
def takeK (wih : FVec F S768x50000 .f32) (inp : IVec S512 32) : FVec F S768x512 .f32 :=
  select (broadcastInDim S768x512 ![1] bcast_S512_S768x512_1 (rangeMask inp))
    (Host.gather gather_S768x50000_S512x1_S768x512_0_1_n_n_1_1_7681 wih (startCol inp))
    (broadcastInDim S768x512 ![] bcast_S_S768x512 (constant (F := F) S_ .f32 0x7FC00000#32))

/-! ## The pieces at an index -/

/-- The start column at (b, 0) is the wrapped word of batch row b. -/
theorem startCol_apply (inp : IVec S512 32) (b : Fin 512) :
    startCol inp (ix2 b 0) = Cert.Tok.wrapw (inp (ix1 b)) := by
  unfold startCol
  rw [broadcastInDim_apply _ bcast_S512_S512x1_0 _ (ix2 b (0 : Fin 1)) (ix1 b) (fun a => match a with
    | ⟨0, _⟩ => by show b.val = if (512 : Nat) = 1 then 0 else b.val; rw [if_neg (by decide)])]
  rfl

/-- Under −50000 ≤ x < 50000 the range test is 1 at every batch row. -/
theorem rangeMask_one (inp : IVec S512 32)
    (hlo : ∀ b : Fin 512, -(50000 : Int) ≤ (inp (ix1 b)).toInt) (hhi : ∀ b : Fin 512, (inp (ix1 b)).toInt < 50000)
    (j : S512.Idx) : rangeMask inp j = 1#1 := by
  unfold rangeMask
  refine Cert.LibWrapTake.reduce_andi_one_of_all _ _ reducesTo_S512x1_S512_d1 h_S_ (fun _ => rfl) (fun i => ?_) j
  obtain ⟨p, q, rfl⟩ : ∃ (p : Fin 512) (q : Fin 1), i = ix2 p q := ⟨i 0, i 1, eq_ix2 i⟩
  obtain rfl : q = 0 := Subsingleton.elim _ _
  have hr := Cert.LibWrapTake.wrap_range 50000 (by norm_num) (inp (ix1 p)) (hlo p) (hhi p)
  have h0 : (0#32 : BitVec 32).toInt = 0 := by decide
  have h9 : (49999#32 : BitVec 32).toInt = 49999 := by decide
  show IntOp.andi (IntOp.cmpi .sge (startCol inp (ix2 p 0)) 0#32) (IntOp.cmpi .sle (startCol inp (ix2 p 0)) 49999#32) = 1#1
  rw [startCol_apply]
  refine IntOp.andi_eq_one.2 ⟨IntOp.cmpi_sge.2 ?_, IntOp.cmpi_sle.2 ?_⟩
  · rw [h0]; exact hr.1
  · rw [h9]; have := hr.2; unfold Cert.Tok.wrapw; omega

/-- THE TAKE AT (t, b): for token words in [−50000, 50000) the table w_ih at (t, tok b). -/
theorem takeK_apply (wih : FVec Ideal S768x50000 .f32) (inp : IVec S512 32)
    (hlo : ∀ b : Fin 512, -(50000 : Int) ≤ (inp (ix1 b)).toInt) (hhi : ∀ b : Fin 512, (inp (ix1 b)).toInt < 50000)
    (t : Fin 768) (b : Fin 512) :
    takeK (F := Ideal) wih inp (ix2 t b) = wih (ix2 t (Cert.Tok.tok inp b)) := by
  unfold takeK
  rw [select_apply]
  rw [broadcastInDim_apply _ bcast_S512_S768x512_1 (rangeMask inp) (ix2 t b) (ix1 b) (fun a => match a with
    | ⟨0, _⟩ => by show b.val = if (512 : Nat) = 1 then 0 else b.val; rw [if_neg (by decide)])]
  rw [rangeMask_one inp hlo hhi, select_one]
  rw [gather_cols (N := 50000) (C := 768) (n := 512) gather_S768x50000_S512x1_S768x512_0_1_n_n_1_1_7681 rfl rfl rfl rfl rfl
    wih (startCol inp) t b (by decide)]
  refine congrArg wih (funext fun a => Fin.ext ?_)
  match a with
  | ⟨0, _⟩ => rfl
  | ⟨1, _⟩ =>
    show min (startCol inp (ix2 b 0)).toInt.toNat (50000 - 1) = min (Cert.Tok.wrapw (inp (ix1 b))).toInt.toNat (50000 - 1)
    rw [startCol_apply]

end Cert.KernelIdeal.TakeKernel

end
-- ==== Proof.HostValues.lean ====
/-
  What the kernel program's host operations before its first kernel region leave in the buffers the regions read, as
  functions of the launch memory, at any float instance.

  The hidden state [1 × 512 × 256] is reshaped to [512 × 256]: entry (b, k) is entry (0, b, k). The embedding lookup's
  23 operations compose to the term takeK of the table w_ih and of the token words. The biases b_ih, b_hh [768] and
  b_out [50000] are reshaped to one-row matrices: entry (0, t) is entry t. The weights w_hh and w_out are not written.
-/
import proofs.«419960_j59219009077899_3_alg».proof.Proof.Gen.KernelIdeal.Regions
import proofs.«419960_j59219009077899_3_alg».proof.Proof.TakeKernel
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValues

open Cert.KernelIdeal Cert.KernelIdeal.Gen Idealize.ShloMosaic Idealize.ShloMosaic.TcCoe Idealize.ShloMosaic.ValueIdx
  Idealize.SL.Sem

variable {F : FTy → Type} [FloatOps F] (m : (ℓ : Loc nD τ sig) → Buf (Elt F) ℓ)

set_option maxHeartbeats 1000000 in
/-- The lookup's 23 operations, run from any contents V, leave in their result buffer the composed term of the table
    and of the token words V holds. -/
theorem take_after (V : Valuation τ sig (Elt F)) :
    StableHlo.after hostOps0_1 V (Proc.devRef .tc main_v1)
      = Cert.KernelIdeal.TakeKernel.takeK (F := F) (V (Proc.devRef .tc main_arg3)) (V (Proc.devRef .tc main_arg0)) := by
  after_results_simp
  rfl

/-- The lookup's result buffer before the first region. -/
theorem v3_take (c : Dev nD) :
    V3 m c main_v1 = Cert.KernelIdeal.TakeKernel.takeK (m ((c : Thread nD τ).loc main_arg3)) (m ((c : Thread nD τ).loc main_arg0)) := by
  rw [V3_of m c main_v1 (by decide)]
  show StableHlo.after hostOps0_1 (V1 m c) (Proc.devRef .tc main_v1) = _
  rw [take_after, V1_of m c main_arg3 (by decide), V1_of m c main_arg0 (by decide)]

/-- The hidden state as a matrix: entry (b, k) of the reshaped buffer is entry (0, b, k) of the hidden input. -/
theorem v3_state (c : Dev nD) (b : Fin 512) (k : Fin 256) :
    (V3 m c main_v0 : S512x256.Idx → Elt F .f32) (ix2 b k)
      = (m ((c : Thread nD τ).loc main_arg2) : S1x512x256.Idx → Elt F .f32) (ix3 (0 : Fin 1) b k) := by
  rw [V3_of m c main_v0 (by decide), V2_of m c main_v0 (by decide)]
  have h : V1 m c main_v0
      = (shapeCast S512x256 (m ((c : Thread nD τ).loc main_arg2) : S1x512x256.Idx → Elt F .f32) shapeCasts_S1x512x256_S512x256
          : S512x256.Idx → Elt F .f32) := by
    show StableHlo.after hostOps0 (V0 m c) (Proc.devRef .tc main_v0) = _
    after_results_simp
    rfl
  rw [h]
  exact shapeCast_apply _ shapeCasts_S1x512x256_S512x256 (ix2 b k) (ix3 (0 : Fin 1) b k) (by
    rw [Shape.rowMajor_val_three, Shape.rowMajor_val_two]
    show (0 * 512 + b.val) * 256 + k.val = b.val * 256 + k.val
    omega)

/-- A vector reshaped to a one-row matrix: entry (0, t) is entry t. -/
theorem row_of_vec {α : Type} {n : Nat} (x : (⟨1, ![n]⟩ : Shape).Idx → α)
    (h : (⟨1, ![n]⟩ : Shape).ShapeCasts ⟨2, ![1, n]⟩) (t : Fin n) :
    shapeCast ⟨2, ![1, n]⟩ x h (ix2 (0 : Fin 1) t) = x (ix1 t) :=
  shapeCast_apply x h (ix2 (0 : Fin 1) t) (ix1 t) (by
    rw [Shape.rowMajor_val_one, Shape.rowMajor_val_two]
    show t.val = 0 * n + t.val
    omega)

/-- The three bias reshapes, run from any contents V. -/
theorem biases_after (V : Valuation τ sig (Elt F)) :
    (StableHlo.after hostOps0_2 V (Proc.devRef .tc main_v2)
        = (shapeCast S1x768 (V (Proc.devRef .tc main_arg5) : S768.Idx → Elt F .f32) shapeCasts_S768_S1x768 : S1x768.Idx → Elt F .f32))
    ∧ (StableHlo.after hostOps0_2 V (Proc.devRef .tc main_v3)
        = (shapeCast S1x768 (V (Proc.devRef .tc main_arg6) : S768.Idx → Elt F .f32) shapeCasts_S768_S1x768 : S1x768.Idx → Elt F .f32))
    ∧ (StableHlo.after hostOps0_2 V (Proc.devRef .tc main_v4)
        = (shapeCast S1x50000 (V (Proc.devRef .tc main_arg8) : S50000.Idx → Elt F .f32) shapeCasts_S50000_S1x50000 : S1x50000.Idx → Elt F .f32)) := by
  refine ⟨?_, ?_, ?_⟩
  · after_results_simp
    rfl
  · after_results_simp
    rfl
  · after_results_simp
    rfl

/-- A launch argument no host operation before the first region writes still holds its launch contents. -/
theorem v2_arg (c : Dev nD) (r : Ref sig .tc) (h0 : r ∉ hostOps0_W) (h1 : r ∉ hostOps0_1_W) : V2 m c r = V0 m c r :=
  (V2_of m c r h1).trans (V1_of m c r h0)

/-- The input bias as a one-row matrix. -/
theorem v3_bih (c : Dev nD) (t : Fin 768) :
    (V3 m c main_v2 : S1x768.Idx → Elt F .f32) (ix2 (0 : Fin 1) t)
      = (m ((c : Thread nD τ).loc main_arg5) : S768.Idx → Elt F .f32) (ix1 t) := by
  have h : V3 m c main_v2 = _ := (biases_after (V2 m c)).1
  rw [h, v2_arg m c main_arg5 (by decide) (by decide)]
  exact row_of_vec _ shapeCasts_S768_S1x768 t

/-- The hidden bias as a one-row matrix. -/
theorem v3_bhh (c : Dev nD) (t : Fin 768) :
    (V3 m c main_v3 : S1x768.Idx → Elt F .f32) (ix2 (0 : Fin 1) t)
      = (m ((c : Thread nD τ).loc main_arg6) : S768.Idx → Elt F .f32) (ix1 t) := by
  have h : V3 m c main_v3 = _ := (biases_after (V2 m c)).2.1
  rw [h, v2_arg m c main_arg6 (by decide) (by decide)]
  exact row_of_vec _ shapeCasts_S768_S1x768 t

/-- The read-out bias as a one-row matrix. -/
theorem v3_bout (c : Dev nD) (j : Fin 50000) :
    (V3 m c main_v4 : S1x50000.Idx → Elt F .f32) (ix2 (0 : Fin 1) j)
      = (m ((c : Thread nD τ).loc main_arg8) : S50000.Idx → Elt F .f32) (ix1 j) := by
  have h : V3 m c main_v4 = _ := (biases_after (V2 m c)).2.2
  rw [h, v2_arg m c main_arg8 (by decide) (by decide)]
  exact row_of_vec _ shapeCasts_S50000_S1x50000 j

/-- The hidden weights are not written before the first region. -/
theorem v3_whh (c : Dev nD) : V3 m c main_arg4 = m ((c : Thread nD τ).loc main_arg4) :=
  (V3_of m c main_arg4 (by decide)).trans (v2_arg m c main_arg4 (by decide) (by decide))

/-- The read-out weights are not written before the first region. -/
theorem v3_wout (c : Dev nD) : V3 m c main_arg7 = m ((c : Thread nD τ).loc main_arg7) :=
  (V3_of m c main_arg7 (by decide)).trans (v2_arg m c main_arg7 (by decide) (by decide))

end Cert.KernelIdeal.HostValues

end
-- ==== Proof.KernelSpec.lean ====
/-
  The kernel program's two region results, read at one element over the extended reals, are the specification's
  functions of the launch memory.

  The recurrent-step region's closed-form result is the new-state formula of three arrays: the gathered embedding
  columns plus the input bias row, the old state against the hidden weights plus the hidden bias row, and the old state.
  The host operations before the region make these the specification's input projection (for token words in
  [−50000, 50000) the gathered column is the table's column at the wrapped token), hidden projection and old state of the
  launch arrays. The read-out region's closed-form result is tanh of a row of the state against a row of the read-out
  weights plus the read-out bias, the specification's read-out of whatever state the region is entered with.
-/
import proofs.«419960_j59219009077899_3_alg».proof.Proof.FinalState
import proofs.«419960_j59219009077899_3_alg».proof.Proof.FinalLogit
import proofs.«419960_j59219009077899_3_alg».proof.Proof.HostValues
import proofs.«419960_j59219009077899_3_alg».proof.Proof.TakeKernel
import proofs.«419960_j59219009077899_3_alg».proof.Proof.Spec
import proofs.«419960_j59219009077899_3_alg».proof.Proof.Tok
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- THE NEW STATE. For token words in [−50000, 50000), the recurrent-step region's closed-form result over the buffers
    the host operations leave is, at (b, h), the specification's new state of the launch arrays. -/
theorem state_spec (m : (ℓ : Loc nD τ sig) → Buf (Elt Ideal) ℓ) (c : Dev nD)
    (hlo : ∀ b : Fin 512, -(50000 : Int) ≤ ((m ((c : Thread nD τ).loc main_arg0)) (ix1 b)).toInt)
    (hhi : ∀ b : Fin 512, ((m ((c : Thread nD τ).loc main_arg0)) (ix1 b)).toInt < 50000) (b : Fin 512) (h : Fin 256) :
    stateArr (fun c (r : Ref sig .tc) => V3 m c r) c (ix2 b h)
      = Cert.Spec.state (m ((c : Thread nD τ).loc main_arg3)) (m ((c : Thread nD τ).loc main_arg5))
          (Cert.Tok.tok (m ((c : Thread nD τ).loc main_arg0))) (m ((c : Thread nD τ).loc main_arg2))
          (m ((c : Thread nD τ).loc main_arg4)) (m ((c : Thread nD τ).loc main_arg6)) b h := by
  -- the input projection: the gathered column plus the input bias
  have e1 : (fun (b : Fin 512) (t : Fin 768) =>
        @HAdd.hAdd EReal EReal EReal _ (V3 m c main_v1 (ix2 t b)) (V3 m c main_v2 (ix2 (0 : Fin 1) t)))
      = Cert.Spec.xproj (m ((c : Thread nD τ).loc main_arg3)) (m ((c : Thread nD τ).loc main_arg5))
          (Cert.Tok.tok (m ((c : Thread nD τ).loc main_arg0))) := by
    funext b t
    unfold Cert.Spec.xproj
    rw [HostValues.v3_bih m c t, HostValues.v3_take m c, TakeKernel.takeK_apply _ _ hlo hhi t b]
  -- the hidden projection: the old state's row against a row of the hidden weights, plus the hidden bias
  have e2 : (fun (b : Fin 512) (t : Fin 768) =>
        @HAdd.hAdd EReal EReal EReal _
          (∑ k : Fin 256, @HMul.hMul EReal EReal EReal _ (V3 m c main_v0 (ix2 b k)) (V3 m c main_arg4 (ix2 t k)))
          (V3 m c main_v3 (ix2 (0 : Fin 1) t)))
      = Cert.Spec.hproj (Cert.Spec.h0of (m ((c : Thread nD τ).loc main_arg2))) (m ((c : Thread nD τ).loc main_arg4))
          (m ((c : Thread nD τ).loc main_arg6)) := by
    funext b t
    unfold Cert.Spec.hproj Cert.Spec.h0of
    rw [HostValues.v3_bhh m c t, HostValues.v3_whh m c]
    congr 1
    exact Finset.sum_congr rfl fun k _ => by rw [HostValues.v3_state m c b k]
  -- the old state
  have e3 : (fun (b : Fin 512) (k : Fin 256) => (V3 m c main_v0 (ix2 b k) : EReal))
      = Cert.Spec.h0of (m ((c : Thread nD τ).loc main_arg2)) := by
    funext b k
    exact HostValues.v3_state m c b k
  rw [stateArr_apply]
  unfold Cert.Spec.state
  rw [← e1, ← e2, ← e3]

/-- THE READ-OUT. The read-out region's closed-form result over buffers holding a state S, read-out weights wout and, as
    a one-row matrix, a read-out bias bout is, at (b, j), the specification's read-out of S. -/
theorem logit_spec (V : (c : Dev nD) → (b : Ref sig .tc) → Buf (Elt Ideal) ((c : Thread nD τ).loc b)) (c : Dev nD)
    (S : Fin 512 → Fin 256 → EReal) (wout : Cert.Spec.A2 50000 256) (bout : Cert.Spec.A1 50000)
    (h5 : ∀ (b : Fin 512) (k : Fin 256), (V c main_v5 : S512x256.Idx → EReal) (ix2 b k) = S b k)
    (h7 : (V c main_arg7 : S50000x256.Idx → EReal) = wout)
    (h4 : ∀ j : Fin 50000, (V c main_v4 : S1x50000.Idx → EReal) (ix2 (0 : Fin 1) j) = bout (ix1 j)) (b : Fin 512) (j : Fin 50000) :
    logitArr V c (ix2 b j) = Cert.Spec.logit S wout bout b j := by
  rw [show logitArr V c = logitOf (V c main_v5) (V c main_arg7) (V c main_v4) from rfl, logitOf_apply]
  unfold Cert.Spec.logit
  rw [h4 j, h7]
  refine congrArg (fun s : EReal => Ideal.tanh (s + bout (ix1 j))) (Finset.sum_congr rfl fun k _ => ?_)
  rw [h5 b k]

end Cert.KernelIdeal.Hand

end
-- ==== Proof.RefValue.lean ====
/-
  The reference program's two results, read at one element on the extended reals, are the specification's functions.

  The reading goes stage by stage. The embedding lookup's element is a hypothesis (the table's column picked by the
  token); adding the broadcast input bias gives the input projection. The contraction of the reshaped hidden state with
  the transposed hidden weights, plus the broadcast hidden bias, gives the hidden projection. The three column slices of
  either projection are its columns h, 256 + h and 512 + h. The two gates are spelled 1 / (1 + exp (−x)) with the
  literal 1.0, which is the logistic function; the literal of (1 − z) stays the 32-bit word. The read-out contracts the
  new state with the transposed output weights, adds the broadcast bias and applies tanh.
-/
import proofs.«419960_j59219009077899_3_alg».proof.Proof.Gen.ReferenceIdeal.Read
import proofs.«419960_j59219009077899_3_alg».proof.Proof.Spec
import proofs.«419960_j59219009077899_3_alg».proof.Proof.Tok
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- The 32-bit pattern 0x3F800000 is the extended real one: sign 0, biased exponent 127, zero fraction. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

/-- The quotient 1 / (1 + exp (−x)) with both literals the word 1.0 is the logistic function, by its definition. -/
theorem logistic_word (x : EReal) :
    Ideal.div (Ideal.ofBits .f32 0x3F800000#32) (Ideal.ofBits .f32 0x3F800000#32 + Ideal.exp (-x)) = Ideal.logistic x := by
  rw [ofBits_one]; rfl

/-! Index equations: the composed index maps of the layout operations, at an index given by its coordinates. -/

theorem idx_bias (b : Fin 512) (t : Fin 768) : idx_main_v9 (idx_main_v10 (ix2 b t)) = ix1 t :=
  funext fun a => match a with | ⟨0, _⟩ => rfl

theorem idx_bias' (b : Fin 512) (t : Fin 768) : idx_main_v14 (idx_main_v15 (ix2 b t)) = ix1 t :=
  funext fun a => match a with | ⟨0, _⟩ => rfl

theorem idx_out_bias (b : Fin 512) (j : Fin 50000) : idx_main_v47 (idx_main_v48 (ix2 b j)) = ix1 j :=
  funext fun a => match a with | ⟨0, _⟩ => rfl

theorem idx_reshape (b : Fin 512) (k : Fin 256) : idx_main_v0 (ix2 b k) = ix3 (0 : Fin 1) b k :=
  funext fun a => Fin.ext (by
    have hb := b.isLt; have hk := k.isLt
    match a with
    | ⟨0, _⟩ => rfl
    | ⟨1, _⟩ => show (b.val * 256 + k.val) / 256 % 512 = b.val; omega
    | ⟨2, _⟩ => show (b.val * 256 + k.val) % 256 = k.val; omega)

theorem idx_lhs13 (b : Fin 512) (t : Fin 768) (k : Fin 256) : lidx_main_v13 (ix2 b t) k = ix2 b k :=
  funext fun a => match a with | ⟨0, _⟩ => rfl | ⟨1, _⟩ => rfl

theorem idx_rhs13 (b : Fin 512) (t : Fin 768) (k : Fin 256) : idx_main_v12 (ridx_main_v13 (ix2 b t) k) = ix2 t k :=
  funext fun a => match a with | ⟨0, _⟩ => rfl | ⟨1, _⟩ => rfl

theorem idx_lhs46 (b : Fin 512) (j : Fin 50000) (k : Fin 256) : lidx_main_v46 (ix2 b j) k = ix2 b k :=
  funext fun a => match a with | ⟨0, _⟩ => rfl | ⟨1, _⟩ => rfl

theorem idx_rhs46 (b : Fin 512) (j : Fin 50000) (k : Fin 256) : idx_main_v45 (ridx_main_v46 (ix2 b j) k) = ix2 j k :=
  funext fun a => match a with | ⟨0, _⟩ => rfl | ⟨1, _⟩ => rfl

theorem idx_slice_r (b : Fin 512) (h : Fin 256) : idx_main_v17 (ix2 b h) = ix2 b (Cert.Spec.gr h) :=
  funext fun a => match a with | ⟨0, _⟩ => rfl | ⟨1, _⟩ => rfl

theorem idx_slice_z (b : Fin 512) (h : Fin 256) : idx_main_v18 (ix2 b h) = ix2 b (Cert.Spec.gz h) :=
  funext fun a => match a with | ⟨0, _⟩ => rfl | ⟨1, _⟩ => rfl

theorem idx_slice_n (b : Fin 512) (h : Fin 256) : idx_main_v19 (ix2 b h) = ix2 b (Cert.Spec.gn h) :=
  funext fun a => match a with | ⟨0, _⟩ => rfl | ⟨1, _⟩ => rfl

theorem idx_slice_r' (b : Fin 512) (h : Fin 256) : idx_main_v20 (ix2 b h) = ix2 b (Cert.Spec.gr h) :=
  funext fun a => match a with | ⟨0, _⟩ => rfl | ⟨1, _⟩ => rfl

theorem idx_slice_z' (b : Fin 512) (h : Fin 256) : idx_main_v21 (ix2 b h) = ix2 b (Cert.Spec.gz h) :=
  funext fun a => match a with | ⟨0, _⟩ => rfl | ⟨1, _⟩ => rfl

theorem idx_slice_n' (b : Fin 512) (h : Fin 256) : idx_main_v22 (ix2 b h) = ix2 b (Cert.Spec.gn h) :=
  funext fun a => match a with | ⟨0, _⟩ => rfl | ⟨1, _⟩ => rfl

theorem idx_bcast3 (a : Fin 1) (b : Fin 512) (h : Fin 256) : idx_main_v51 (ix3 a b h) = ix2 b h :=
  funext fun d => match d with | ⟨0, _⟩ => rfl | ⟨1, _⟩ => rfl

/-! The two projections. -/

section
variable (x0 : (⟨S512, .i32⟩ : BufTy).Contents (Elt Ideal))
  (x2 : (⟨S1x512x256, .f32⟩ : BufTy).Contents (Elt Ideal))
  (x3 : (⟨S768x50000, .f32⟩ : BufTy).Contents (Elt Ideal))
  (x4 : (⟨S768x256, .f32⟩ : BufTy).Contents (Elt Ideal))
  (x5 x6 : (⟨S768, .f32⟩ : BufTy).Contents (Elt Ideal))
  (x7 : (⟨S50000x256, .f32⟩ : BufTy).Contents (Elt Ideal))
  (x8 : (⟨S50000, .f32⟩ : BufTy).Contents (Elt Ideal))

/-- The input projection: the looked-up embedding element plus the input bias broadcast along the batch. -/
theorem xproj_eq
    (hg : ∀ (b : Fin 512) (t : Fin 768), val_main_v8 (F := Ideal) x0 x3 (ix2 b t) = x3 (ix2 t (Cert.Tok.tok x0 b)))
    (b : Fin 512) (t : Fin 768) :
    val_main_v11 (F := Ideal) x0 x3 x5 (ix2 b t) = Cert.Spec.xproj x3 x5 (Cert.Tok.tok x0) b t := by
  rw [val_main_v11_apply, hg, val_main_v10_apply, val_main_v9_apply, idx_bias]
  rfl

/-- The hidden projection: row b of the old state against row t of the hidden weights, plus the hidden bias. -/
theorem hproj_eq (b : Fin 512) (t : Fin 768) :
    val_main_v16 (F := Ideal) x2 x4 x6 (ix2 b t) = Cert.Spec.hproj (Cert.Spec.h0of x2) x4 x6 b t := by
  rw [val_main_v16_apply, val_main_v13_apply, val_main_v15_apply, val_main_v14_apply, idx_bias']
  unfold Cert.Spec.hproj Cert.Spec.h0of
  rw [Ideal.addf_def]
  congr 1
  refine Finset.sum_congr rfl fun k _ => ?_
  rw [val_main_v0_apply, val_main_v12_apply, idx_lhs13, idx_rhs13, idx_reshape]

/-! The two gates: each is 1 / (1 + exp (−(x + h))) at its column, the logistic function of the sum. -/

/-- The reset gate at column h. -/
theorem rgate_eq
    (hg : ∀ (b : Fin 512) (t : Fin 768), val_main_v8 (F := Ideal) x0 x3 (ix2 b t) = x3 (ix2 t (Cert.Tok.tok x0 b)))
    (b : Fin 512) (h : Fin 256) :
    val_main_v29 (F := Ideal) x0 x2 x3 x4 x5 x6 (ix2 b h)
      = Ideal.logistic (Cert.Spec.xproj x3 x5 (Cert.Tok.tok x0) b (Cert.Spec.gr h)
          + Cert.Spec.hproj (Cert.Spec.h0of x2) x4 x6 b (Cert.Spec.gr h)) := by
  rw [val_main_v29_apply, val_main_v28_apply, val_main_cst_1_apply, val_main_v27_apply, val_main_v26_apply,
    val_main_cst_apply, val_main_v25_apply, val_main_v24_apply, val_main_v23_apply, val_main_v17_apply,
    val_main_v20_apply, idx_slice_r, idx_slice_r', xproj_eq x0 x3 x5 hg, hproj_eq]
  simp only [Ideal.hostDivf_def, Ideal.ofBits_def, Ideal.addf_def, Ideal.hostUnary_exp_def, Ideal.hostNegf_def,
    Ideal.negf_def]
  exact logistic_word _

/-- The update gate at column 256 + h. -/
theorem zgate_eq
    (hg : ∀ (b : Fin 512) (t : Fin 768), val_main_v8 (F := Ideal) x0 x3 (ix2 b t) = x3 (ix2 t (Cert.Tok.tok x0 b)))
    (b : Fin 512) (h : Fin 256) :
    val_main_v36 (F := Ideal) x0 x2 x3 x4 x5 x6 (ix2 b h)
      = Ideal.logistic (Cert.Spec.xproj x3 x5 (Cert.Tok.tok x0) b (Cert.Spec.gz h)
          + Cert.Spec.hproj (Cert.Spec.h0of x2) x4 x6 b (Cert.Spec.gz h)) := by
  rw [val_main_v36_apply, val_main_v35_apply, val_main_cst_3_apply, val_main_v34_apply, val_main_v33_apply,
    val_main_cst_2_apply, val_main_v32_apply, val_main_v31_apply, val_main_v30_apply, val_main_v18_apply,
    val_main_v21_apply, idx_slice_z, idx_slice_z', xproj_eq x0 x3 x5 hg, hproj_eq]
  simp only [Ideal.hostDivf_def, Ideal.ofBits_def, Ideal.addf_def, Ideal.hostUnary_exp_def, Ideal.hostNegf_def,
    Ideal.negf_def]
  exact logistic_word _

/-! The results. -/

/-- The new state: (1 − z) · tanh (xₙ + r · hₙ) + z · h₀, the literal 1 the 32-bit word. -/
theorem ref_state
    (hg : ∀ (b : Fin 512) (t : Fin 768), val_main_v8 (F := Ideal) x0 x3 (ix2 b t) = x3 (ix2 t (Cert.Tok.tok x0 b)))
    (b : Fin 512) (h : Fin 256) :
    val_main_v44 (F := Ideal) x0 x2 x3 x4 x5 x6 (ix2 b h)
      = Cert.Spec.state x3 x5 (Cert.Tok.tok x0) x2 x4 x6 b h := by
  rw [val_main_v44_apply, val_main_v42_apply, val_main_v43_apply, val_main_v41_apply, val_main_v40_apply,
    val_main_cst_4_apply, val_main_v39_apply, val_main_v38_apply, val_main_v37_apply, val_main_v19_apply,
    val_main_v22_apply, idx_slice_n, idx_slice_n', xproj_eq x0 x3 x5 hg, hproj_eq,
    rgate_eq x0 x2 x3 x4 x5 x6 hg, zgate_eq x0 x2 x3 x4 x5 x6 hg, val_main_v0_apply, idx_reshape]
  simp only [Ideal.ofBits_def, Ideal.addf_def, Ideal.subf_def, Ideal.mulf_def, Ideal.hostUnary_tanh_def]
  rfl

/-- The read-out: tanh of the new state's row against row j of the output weights, plus the output bias. -/
theorem ref_logit
    (hg : ∀ (b : Fin 512) (t : Fin 768), val_main_v8 (F := Ideal) x0 x3 (ix2 b t) = x3 (ix2 t (Cert.Tok.tok x0 b)))
    (b : Fin 512) (j : Fin 50000) :
    val_main_v50 (F := Ideal) x0 x2 x3 x4 x5 x6 x7 x8 (ix2 b j)
      = Cert.Spec.logit (Cert.Spec.state x3 x5 (Cert.Tok.tok x0) x2 x4 x6) x7 x8 b j := by
  rw [val_main_v50_apply, val_main_v49_apply, val_main_v46_apply, val_main_v48_apply, val_main_v47_apply,
    idx_out_bias]
  unfold Cert.Spec.logit
  rw [Ideal.hostUnary_tanh_def, Ideal.addf_def]
  congr 2
  refine Finset.sum_congr rfl fun k _ => ?_
  rw [idx_lhs46, ref_state x0 x2 x3 x4 x5 x6 hg, val_main_v45_apply, idx_rhs46]

/-- The state result with its leading axis of size one restored. -/
theorem ref_state3
    (hg : ∀ (b : Fin 512) (t : Fin 768), val_main_v8 (F := Ideal) x0 x3 (ix2 b t) = x3 (ix2 t (Cert.Tok.tok x0 b)))
    (a : Fin 1) (b : Fin 512) (h : Fin 256) :
    val_main_v51 (F := Ideal) x0 x2 x3 x4 x5 x6 (ix3 a b h)
      = Cert.Spec.state x3 x5 (Cert.Tok.tok x0) x2 x4 x6 b h := by
  rw [val_main_v51_apply, idx_bcast3, ref_state x0 x2 x3 x4 x5 x6 hg]

end

end Cert.RefValue

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.TakeRef.lean ====
/-
  The reference program's embedding lookup read at one element.

  The reference transposes the [768 × 50000] table w_ih into a [50000 × 768] table and gathers whole rows of it at the
  [512 × 1] column of wrapped tokens (x + 50000 when x < 0, else x, word by word). A gather clamps its start index into
  the table, so the entry (b, t) of the result is the transposed table's entry (tok b, t), that is w_ih[t, tok b], where
  tok b is the wrapped word of batch row b read signed and clamped into [0, 49999]. No range hypothesis is needed.
-/
import proofs.«419960_j59219009077899_3_alg».proof.Proof.Gen.ReferenceIdeal.Read
import proofs.«419960_j59219009077899_3_alg».proof.Proof.Tok
import proofs.«419960_j59219009077899_3_alg».proof.Proof.LibGatherRows
import Idealize.ShloMosaic.Lib.ValueIdx

noncomputable section

namespace Cert.TakeRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable {F : FTy → Type} [FloatOps F]

/-- The [512 × 1] start column at (b, 0) is the wrapped word of batch row b. -/
theorem start_column (x0 : (⟨S512, .i32⟩ : BufTy).Contents (Elt Ideal)) (b : Fin 512) :
    val_main_v7 (F := Ideal) x0 (ix2 b 0) = Cert.Tok.wrapw (x0 (ix1 b)) := by
  rw [val_main_v7_apply]
  have hi : idx_main_v7 (ix2 b (0 : Fin 1)) = ix1 b := by
    funext a; match a with | ⟨0, _⟩ => rfl
  rw [hi, val_main_v6_apply, val_main_v3_apply, val_main_v5_apply, val_main_v2_apply, val_main_v4_apply,
    val_main_c_apply, val_main_c_0_apply]
  rfl

/-- THE REFERENCE'S GATHER AT (b, t): the table w_ih at (t, tok b). -/
theorem ref_gather (x0 : (⟨S512, .i32⟩ : BufTy).Contents (Elt Ideal)) (x3 : (⟨S768x50000, .f32⟩ : BufTy).Contents (Elt Ideal)) (b : Fin 512) (t : Fin 768) :
    val_main_v8 (F := Ideal) x0 x3 (ix2 b t) = x3 (ix2 t (Cert.Tok.tok x0 b)) := by
  unfold val_main_v8
  rw [Cert.Lib.gather_rows (N := 50000) (C := 768) (n := 512) gather_S50000x768_S512x1_S512x768_1_0_n_n_0_1_1768 rfl rfl rfl rfl rfl
    (val_main_v1 (F := Ideal) x3) (val_main_v7 (F := Ideal) x0) b t (by decide)]
  rw [val_main_v1_apply]
  refine congrArg x3 (funext fun a => Fin.ext ?_)
  match a with
  | ⟨0, _⟩ => rfl
  | ⟨1, _⟩ =>
    show min (val_main_v7 (F := Ideal) x0 (ix2 b 0)).toInt.toNat (50000 - 1)
      = min (Cert.Tok.wrapw (x0 (ix1 b))).toInt.toNat (50000 - 1)
    rw [start_column]

end Cert.TakeRef

end
-- ==== Proof.AlgBridge.lean ====
/-
  Over the extended reals the kernel program's two results are the reference program's two results, as functions of one
  launch memory.

  The read-out region's closed-form result is the specification's read-out of whatever the region finds in the state
  buffer, the read-out weights and the one-row bias. What it finds is: the recurrent-step region's result, which for
  token words in [−50000, 50000) is the specification's new state of the launch arrays; the launch read-out weights,
  which nothing before writes; the launch read-out bias as a one-row matrix. The reference's last stage, read at an
  element, is the same read-out of the same state. The second result is the new state with a unit leading axis
  restored, on either side: a broadcast along that axis reads its operand at the two remaining coordinates.
-/
import proofs.«419960_j59219009077899_3_alg».proof.Proof.Launch
import proofs.«419960_j59219009077899_3_alg».proof.Proof.FinalState
import proofs.«419960_j59219009077899_3_alg».proof.Proof.FinalLogit
import proofs.«419960_j59219009077899_3_alg».proof.Proof.KernelSpec
import proofs.«419960_j59219009077899_3_alg».proof.Proof.HostValues
import proofs.«419960_j59219009077899_3_alg».proof.Proof.RefValue
import proofs.«419960_j59219009077899_3_alg».proof.Proof.TakeRef

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- The state buffer the read-out region is entered with holds, at (b, k), the specification's new state of the launch
    arrays: it is the recurrent-step region's result, whose closed form is that state. -/
theorem entry_state (m : (ℓ : Loc nD τ sig) → Buf (Elt Ideal) ℓ) (c : Dev nD)
    (hlo : ∀ b : Fin 512, -(50000 : Int) ≤ ((m ((c : Thread nD τ).loc main_arg0)) (ix1 b)).toInt)
    (hhi : ∀ b : Fin 512, ((m ((c : Thread nD τ).loc main_arg0)) (ix1 b)).toInt < 50000) (b : Fin 512) (k : Fin 256) :
    (stateOut m c : S512x256.Idx → EReal) (ix2 b k)
      = Cert.Spec.state (m ((c : Thread nD τ).loc main_arg3)) (m ((c : Thread nD τ).loc main_arg5))
          (Cert.Tok.tok (m ((c : Thread nD τ).loc main_arg0))) (m ((c : Thread nD τ).loc main_arg2))
          (m ((c : Thread nD τ).loc main_arg4)) (m ((c : Thread nD τ).loc main_arg6)) b k := by
  have e5 : stateOut m c = stateArr (Ve0 m) c := final_state (Ve0 m) c
  rw [e5]
  exact state_spec m c hlo hhi b k

/-- THE FIRST RESULT. The read-out region's closed-form result is the reference's last stage. -/
theorem v0_eq (m : (ℓ : Loc nD τ sig) → Buf (Elt Ideal) ℓ) (c : Dev nD)
    (hlo : ∀ b : Fin 512, -(50000 : Int) ≤ ((m ((c : Thread nD τ).loc main_arg0)) (ix1 b)).toInt)
    (hhi : ∀ b : Fin 512, ((m ((c : Thread nD τ).loc main_arg0)) (ix1 b)).toInt < 50000) :
    logitArr (Ve1 m) c
      = Cert.ReferenceIdeal.Read.val_main_v50 (F := Ideal) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨b, j, rfl⟩ : ∃ (b : Fin 512) (j : Fin 50000), i = ix2 b j := ⟨i 0, i 1, eq_ix2 i⟩
  rw [Cert.RefValue.ref_logit _ _ _ _ _ _ _ _ (fun b t => Cert.TakeRef.ref_gather _ _ b t) b j]
  have h5 : ∀ (b : Fin 512) (k : Fin 256), (Ve1 m c main_v5 : S512x256.Idx → EReal) (ix2 b k)
      = Cert.Spec.state (m ((c : Thread nD τ).loc main_arg3)) (m ((c : Thread nD τ).loc main_arg5))
          (Cert.Tok.tok (m ((c : Thread nD τ).loc main_arg0))) (m ((c : Thread nD τ).loc main_arg2))
          (m ((c : Thread nD τ).loc main_arg4)) (m ((c : Thread nD τ).loc main_arg6)) b k := fun b k => by
    rw [Ve1_v5 m c]
    exact entry_state m c hlo hhi b k
  have h7 : (Ve1 m c main_arg7 : S50000x256.Idx → EReal) = m ((c : Thread nD τ).loc main_arg7) :=
    (Ve1_of m c main_arg7 (by decide)).trans (HostValues.v3_wout m c)
  have h4 : ∀ j : Fin 50000, (Ve1 m c main_v4 : S1x50000.Idx → EReal) (ix2 (0 : Fin 1) j)
      = (m ((c : Thread nD τ).loc main_arg8) : S50000.Idx → EReal) (ix1 j) := fun j => by
    rw [Ve1_of m c main_v4 (by decide)]
    exact HostValues.v3_bout m c j
  exact logit_spec (Ve1 m) c _ _ _ h5 h7 h4 b j

/-- THE SECOND RESULT. The new state with its unit leading axis restored is the reference's broadcast of its own. -/
theorem v1_eq (m : (ℓ : Loc nD τ sig) → Buf (Elt Ideal) ℓ) (c : Dev nD)
    (hlo : ∀ b : Fin 512, -(50000 : Int) ≤ ((m ((c : Thread nD τ).loc main_arg0)) (ix1 b)).toInt)
    (hhi : ∀ b : Fin 512, ((m ((c : Thread nD τ).loc main_arg0)) (ix1 b)).toInt < 50000) :
    broadcastInDim S1x512x256 ![1, 2] bcast_S512x256_S1x512x256_1_2 (stateOut m c)
      = Cert.ReferenceIdeal.Read.val_main_v51 (F := Ideal) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨a, b, h, rfl⟩ : ∃ (a : Fin 1) (b : Fin 512) (h : Fin 256), i = ix3 a b h := ⟨i 0, i 1, i 2, eq_ix3 i⟩
  rw [Cert.RefValue.ref_state3 _ _ _ _ _ _ (fun b t => Cert.TakeRef.ref_gather _ _ b t) a b h]
  rw [broadcastInDim_apply _ bcast_S512x256_S1x512x256_1_2 (stateOut m c) (ix3 a b h) (ix2 b h) (fun d => match d with
    | ⟨0, _⟩ => by show b.val = if (512 : Nat) = 1 then 0 else b.val; rw [if_neg (by decide)]
    | ⟨1, _⟩ => by show h.val = if (256 : Nat) = 1 then 0 else h.val; rw [if_neg (by decide)])]
  exact entry_state m c hlo hhi b h

end Cert.KernelIdeal.Hand

end
-- ==== Proof.PreRange.lean ====
/-
  The index range carried by the precondition. The precondition is a conjunction whose last two
  conjuncts are "every entry of the int32 index vector is ≥ -50000 (signed)" and "every entry is
  < 50000 (signed)", each printed as a reduction by `and` of a vector of one-bit compare words.
  When the whole conjunction is the word 1, both reductions are 1, so every compare word is 1, and
  a signed compare word being 1 is the corresponding inequality between the signed values.
-/
import proofs.«419960_j59219009077899_3_alg».proof.Pre_finite_inputs
import Idealize.ShloMosaic.Lib.ReduceAll
import Idealize.ShloMosaic.Lib.StableHlo.Predicate
import Idealize.ShloMosaic.Lib.ValueIdx

noncomputable section

namespace Cert.PreRange

open Cert.Pre_finite_inputs Idealize.ShloMosaic Idealize.ShloMosaic.ValueIdx

variable [Cert.Pre_finite_inputs.Facts] {F : FTy → Type} [FloatOps F]

/-- The rank-0 shape has exactly one index. -/
instance subsingletonScalarIdx : Subsingleton S_.Idx := ⟨fun a b => funext fun d => d.elim0⟩

/-- The word 4294917296 read signed is -50000 (it is 2^32 - 50000, above 2^31). -/
theorem toInt_lo : (4294917296#32 : BitVec 32).toInt = -50000 := by decide

/-- The word 50000 read signed is 50000 (it is below 2^31). -/
theorem toInt_hi : (50000#32 : BitVec 32).toInt = 50000 := by decide

/-- The tail of the precondition: whatever one-bit word `v` the earlier conjuncts produced, if the
    conjunction of `v` with the two range reductions is 1 then each entry lies in [-50000, 50000).
    Both reductions are 1 (a one-bit `and` is 1 only when both operands are), so each compare word is 1
    (a reduction by `and` over all entries), and the compared constants are the broadcast scalars. -/
theorem range_of_part2 (a0 : IVec S512 32) (v : IVec S_ 1)
    (h : fn_part2 (F := F) a0 v ix0 = 1#1) (b : Fin 512) :
    -(50000 : Int) ≤ (a0 (ix1 b)).toInt ∧ (a0 (ix1 b)).toInt < 50000 := by
  dsimp only [fn_part2] at h
  obtain ⟨h1, hlt⟩ := IntOp.andi_eq_one.1 h
  obtain ⟨_, hge⟩ := IntOp.andi_eq_one.1 h1
  have e1 := Host.reduce_andi_all _ _ _ _ _ hge (ix1 b)
  have e2 := Host.reduce_andi_all _ _ _ _ _ hlt (ix1 b)
  have e1' : IntOp.cmpi .sge (a0 (ix1 b)) (4294917296#32) = 1#1 := e1
  have e2' : IntOp.cmpi .slt (a0 (ix1 b)) (50000#32) = 1#1 := e2
  have g1 := IntOp.cmpi_sge.1 e1'
  have g2 := IntOp.cmpi_slt.1 e2'
  rw [toInt_lo] at g1
  rw [toInt_hi] at g2
  exact ⟨g1, g2⟩

/-- The precondition being the word 1 puts every entry of the index vector in [-50000, 50000):
    the precondition is, by unfolding, its tail applied to the conjunction of the finiteness tests. -/
theorem range_of_pre (a0 a1 : IVec S512 32) (a2 : FVec F S1x512x256 .f32) (a3 : FVec F S768x50000 .f32) (a4 : FVec F S768x256 .f32) (a5 a6 : FVec F S768 .f32) (a7 : FVec F S50000x256 .f32) (a8 : FVec F S50000 .f32)
    (h : Cert.Pre_finite_inputs.fn (F := F) a0 a1 a2 a3 a4 a5 a6 a7 a8 = fun _ => 1#1) (b : Fin 512) :
    -(50000 : Int) ≤ (a0 (ix1 b)).toInt ∧ (a0 (ix1 b)).toInt < 50000 := by
  have h0 := congrFun h ValueIdx.ix0
  exact range_of_part2 (F := F) a0 _ h0 b

end Cert.PreRange

end
-- ==== Proof.lean ====
/-
  A gated recurrent step followed by a tanh read-out over a vocabulary of 50000, in two kernel regions, against the
  same computation written with whole-array operations.

  Both programs look the token's column up in w_ih — numpy's wrap of a negative index, then a gather that clamps —, add
  the input bias, project the old state through w_hhᵀ, add the hidden bias, form the reset and update gates by the
  logistic function and the candidate by tanh, blend the candidate with the old state, and read the new state out
  through w_outᵀ, the output bias and tanh. Over the extended reals the two compute, element by element, the same
  expression (Spec.lean): a matrix product into a zero accumulator is the finite sum the whole-array contraction is,
  the logistic function is 1 / (1 + e⁻ˣ) in both spellings, changes of float format are the identity. The kernel's
  lookup fills out-of-range tokens with a not-a-number word where the reference's gather clamps them, so the claim is
  made for tokens in numpy's index range −50000 ≤ token < 50000, where the fill never happens.

  The read-out region walks the vocabulary in sixteen blocks of 3200 columns; the last block overhangs the arrays by
  1200 columns. Logit column j reads row j of the weights and lane j of the bias only, so over the extended reals what
  a staging buffer holds past the arrays' end never reaches a column that is written back. At the bit level the matrix
  unit's result is not stated column by column, so the frame of the program as printed forgets the logits' window: it
  claims only that the run ends and the arguments are unchanged.
-/
import proofs.«419960_j59219009077899_3_alg».proof.Defs
import proofs.«419960_j59219009077899_3_alg».proof.Proof.Gen.Kernel
import proofs.«419960_j59219009077899_3_alg».proof.Proof.Gen.KernelIdeal
import proofs.«419960_j59219009077899_3_alg».proof.Proof.Gen.ReferenceIdeal
import proofs.«419960_j59219009077899_3_alg».proof.Proof.Gen.ReferenceIdeal.Run
import proofs.«419960_j59219009077899_3_alg».proof.Proof.Gen.ReferenceIdeal.Read
import proofs.«419960_j59219009077899_3_alg».proof.Proof.Gen.Pre_finite_inputs
import proofs.«419960_j59219009077899_3_alg».proof.Proof.Launch
import proofs.«419960_j59219009077899_3_alg».proof.Proof.Bits.Launch
import proofs.«419960_j59219009077899_3_alg».proof.Proof.FinalLogit
import proofs.«419960_j59219009077899_3_alg».proof.Proof.AlgBridge
import proofs.«419960_j59219009077899_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- The program as printed runs to the end and leaves its arguments unchanged (the logits' window forgotten). -/
theorem frame_k : Cert.frame_Kernel := fun m ρ _ =>
  Cert.Kernel.Hand.frame_all (F := Bits) m ρ true
    (fun c => Cert.Kernel.Hand.body_obligation1 _ c true (fun h => Bool.noConfusion h))

/-- So does its idealization. -/
theorem frame_ki : Cert.frame_KernelIdeal := fun m ρ _ =>
  Cert.KernelIdeal.Hand.frame_all (F := Ideal) m ρ true
    (fun c => Cert.KernelIdeal.Hand.body_obligation1 _ c true (fun h => Bool.noConfusion h))

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals, for tokens in range, the two programs end with the same logits and the same new state. -/
theorem algebraic : Cert.algebraic_KernelIdeal_ReferenceIdeal := by
  intro m ρ m' ρ' hpre hagree
  have hlo : ∀ (c : Dev Cert.KernelIdeal.nD) (b : Fin 512), -(50000 : Int) ≤ ((m ((c.tc : Thread Cert.KernelIdeal.nD Cert.KernelIdeal.τ).loc Cert.KernelIdeal.main_arg0)) (ix1 b)).toInt :=
    fun c b => (Cert.PreRange.range_of_pre (F := Ideal) _ _ _ _ _ _ _ _ _ (hpre c) b).1
  have hhi : ∀ (c : Dev Cert.KernelIdeal.nD) (b : Fin 512), ((m ((c.tc : Thread Cert.KernelIdeal.nD Cert.KernelIdeal.τ).loc Cert.KernelIdeal.main_arg0)) (ix1 b)).toInt < 50000 :=
    fun c b => (Cert.PreRange.range_of_pre (F := Ideal) _ _ _ _ _ _ _ _ _ (hpre c) b).2
  refine ⟨fun c => Cert.KernelIdeal.Hand.logitArr (Cert.KernelIdeal.Hand.Ve1 m) c,
    fun c => broadcastInDim Cert.KernelIdeal.S1x512x256 ![1, 2] Cert.KernelIdeal.Facts₀.bcast_S512x256_S1x512x256_1_2 (Cert.KernelIdeal.Hand.stateOut m c), ?_, ?_⟩
  · refine (θ_run Cert.KernelIdeal.defs _ _).mono (fun r h c => ?_)
      (Cert.KernelIdeal.Hand.run_all (F := Ideal) m ρ false
        (fun c => Cert.KernelIdeal.Hand.body_obligation1 _ c false (fun _ => Cert.KernelIdeal.Hand.edge _ c)))
    obtain ⟨F3, hF3, hb⟩ := h c
    have eF : F3 = Cert.KernelIdeal.Hand.logitArr (Cert.KernelIdeal.Hand.Ve1 m) c :=
      (((Cert.KernelIdeal.Hand.dat1 (Cert.KernelIdeal.Hand.Ve1 m) c).toRForget_arrAt_iff (fgt := Cert.KernelIdeal.Hand.fgtOf false) (w := 3) rfl _ F3).mp hF3).trans
        (Cert.KernelIdeal.Hand.final_logit _ c)
    exact ⟨(hb _ (Cert.KernelIdeal.Hand.mem_uc Cert.KernelIdeal.main_v6 (by decide))).trans ((Cert.KernelIdeal.Hand.W6_v6 m c F3).trans eF),
      (hb _ (Cert.KernelIdeal.Hand.mem_uc Cert.KernelIdeal.main_v7 (by decide))).trans (Cert.KernelIdeal.Hand.W6_v7 m c F3),
      (hb _ (Cert.KernelIdeal.Hand.mem_uc Cert.KernelIdeal.main_arg0 (by decide))).trans (Cert.KernelIdeal.Hand.W6_arg m c F3 _ (by decide) (by decide) (by decide) (by decide) (by decide) (by decide)),
      (hb _ (Cert.KernelIdeal.Hand.mem_uc Cert.KernelIdeal.main_arg1 (by decide))).trans (Cert.KernelIdeal.Hand.W6_arg m c F3 _ (by decide) (by decide) (by decide) (by decide) (by decide) (by decide)),
      (hb _ (Cert.KernelIdeal.Hand.mem_uc Cert.KernelIdeal.main_arg2 (by decide))).trans (Cert.KernelIdeal.Hand.W6_arg m c F3 _ (by decide) (by decide) (by decide) (by decide) (by decide) (by decide)),
      (hb _ (Cert.KernelIdeal.Hand.mem_uc Cert.KernelIdeal.main_arg3 (by decide))).trans (Cert.KernelIdeal.Hand.W6_arg m c F3 _ (by decide) (by decide) (by decide) (by decide) (by decide) (by decide)),
      (hb _ (Cert.KernelIdeal.Hand.mem_uc Cert.KernelIdeal.main_arg4 (by decide))).trans (Cert.KernelIdeal.Hand.W6_arg m c F3 _ (by decide) (by decide) (by decide) (by decide) (by decide) (by decide)),
      (hb _ (Cert.KernelIdeal.Hand.mem_uc Cert.KernelIdeal.main_arg5 (by decide))).trans (Cert.KernelIdeal.Hand.W6_arg m c F3 _ (by decide) (by decide) (by decide) (by decide) (by decide) (by decide)),
      (hb _ (Cert.KernelIdeal.Hand.mem_uc Cert.KernelIdeal.main_arg6 (by decide))).trans (Cert.KernelIdeal.Hand.W6_arg m c F3 _ (by decide) (by decide) (by decide) (by decide) (by decide) (by decide)),
      (hb _ (Cert.KernelIdeal.Hand.mem_uc Cert.KernelIdeal.main_arg7 (by decide))).trans (Cert.KernelIdeal.Hand.W6_arg m c F3 _ (by decide) (by decide) (by decide) (by decide) (by decide) (by decide)),
      (hb _ (Cert.KernelIdeal.Hand.mem_uc Cert.KernelIdeal.main_arg8 (by decide))).trans (Cert.KernelIdeal.Hand.W6_arg m c F3 _ (by decide) (by decide) (by decide) (by decide) (by decide) (by decide))⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v50_eq, (hagree c).1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]
      exact (Cert.KernelIdeal.Hand.v0_eq m c (hlo c) (hhi c)).symm
    · rw [Cert.ReferenceIdeal.Read.val_main_v51_eq, (hagree c).1, (hagree c).2.2.1, (hagree c).2.2.2.1, (hagree c).2.2.2.2.1,
        (hagree c).2.2.2.2.2.1, (hagree c).2.2.2.2.2.2.1]
      exact (Cert.KernelIdeal.Hand.v1_eq m c (hlo c) (hhi c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
